-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v26_0)) (v2 : (c : Dev Cert.KernelIdeal.nD) → Buf (Elt Ideal) ((c.tc : Thread Cert.KernelIdeal.nD Cert.KernelIdeal.τ).loc Cert.KernelIdeal.main_v27_0)) (v3 : (c : Dev Cert.KernelIdeal.nD) → Buf (Elt Ideal) ((c.tc : Thread Cert.KernelIdeal.nD Cert.KernelIdeal.τ).loc Cert.KernelIdeal.main_v26_1)) (v4 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_v27_0) = v2 c
          ∧ r.2.mem ((c.tc : Thread Cert.KernelIdeal.nD Cert.KernelIdeal.τ).loc Cert.KernelIdeal.main_v26_1) = v3 c
          ∧ r.2.mem ((c.tc : Thread Cert.KernelIdeal.nD Cert.KernelIdeal.τ).loc Cert.KernelIdeal.main_v27_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  main_v123

def fn_part6 {F : FTy → Type} [FloatOps F] (main_arg21 : FVec F S2048x1024 .f32) (main_arg22 : FVec F S2048 .f32) (main_arg23 : FVec F S1024x2048 .f32) (main_arg24 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S2048x1024 .f32 := Host.absf main_arg21
  let main_cst_40 : FVec F S_ .f32 := constant S_ .f32 0x7F800000#32
  let main_v105 : FVec F S2048x1024 .f32 := broadcastInDim S2048x1024 ![] bcast_S_S2048x1024 main_cst_40
  let main_v106 : IVec S2048x1024 1 := cmpf .olt main_v104 main_v105
  let main_c_41 : IVec S_ 1 := constantI S_ 1 1#1
  let main_v107 : IVec S_ 1 := (fun x v => Host.reduce IntOp.andi x v reducesTo_S2048x1024_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S1024 .f32 := Host.absf main_arg24
  fn_part7 (F := F) main_v118 main_v119

def fn_part5 {F : FTy → Type} [FloatOps F] (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v83 : IVec S_ 1) (main_v84 : FVec F S1024x2048 .f32) (main_cst_32 : FVec F S_ .f32) : IVec S_ 1 :=
  let main_v85 : FVec F S1024x2048 .f32 := broadcastInDim S1024x2048 ![] bcast_S_S1024x2048 main_cst_32
  let main_v86 : IVec S1024x2048 1 := cmpf .olt main_v84 main_v85
  let main_c_33 : IVec S_ 1 := constantI S_ 1 1#1
  let main_v87 : IVec S_ 1 := (fun x v => Host.reduce IntOp.andi x v reducesTo_S1024x2048_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x2048 .f32 := Host.absf main_arg19
  let main_cst_36 : FVec F S_ .f32 := constant S_ .f32 0x7F800000#32
  let main_v95 : FVec F S1024x2048 .f32 := broadcastInDim S1024x2048 ![] bcast_S_S1024x2048 main_cst_36
  let main_v96 : IVec S1024x2048 1 := cmpf .olt main_v94 main_v95
  let main_c_37 : IVec S_ 1 := constantI S_ 1 1#1
  let main_v97 : IVec S_ 1 := (fun x v => Host.reduce IntOp.andi x v reducesTo_S1024x2048_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x2048 .f32 := Host.absf main_arg15
  let main_cst_28 : FVec F S_ .f32 := constant S_ .f32 0x7F800000#32
  let main_v75 : FVec F S1024x2048 .f32 := broadcastInDim S1024x2048 ![] bcast_S_S1024x2048 main_cst_28
  let main_v76 : IVec S1024x2048 1 := cmpf .olt main_v74 main_v75
  let main_c_29 : IVec S_ 1 := constantI S_ 1 1#1
  let main_v77 : IVec S_ 1 := (fun x v => Host.reduce IntOp.andi x v reducesTo_S1024x2048_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S4096x1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S1024x2048 .f32) (main_arg12 : FVec F S1024 .f32) (main_arg13 : FVec F S1024x2048 .f32) (main_arg14 : FVec F S1024 .f32) (main_arg15 : FVec F S1024x2048 .f32) (main_arg16 : FVec F S1024 .f32) (main_arg17 : FVec F S1024x2048 .f32) (main_arg18 : FVec F S1024 .f32) (main_arg19 : FVec F S1024x2048 .f32) (main_arg20 : FVec F S1024 .f32) (main_arg21 : FVec F S2048x1024 .f32) (main_arg22 : FVec F S2048 .f32) (main_arg23 : FVec F S1024x2048 .f32) (main_arg24 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S2048x4096 : Shape := ⟨2, ![2048, 4096]⟩
abbrev S1024x4096 : Shape := ⟨2, ![1024, 4096]⟩
abbrev S4096 : Shape := ⟨1, ![4096]⟩
abbrev S1x4096 : Shape := ⟨2, ![1, 4096]⟩
abbrev S1x2048 : Shape := ⟨2, ![1, 2048]⟩
abbrev S1x1024 : Shape := ⟨2, ![1, 1024]⟩
abbrev S128x1024 : Shape := ⟨2, ![128, 1024]⟩
abbrev S128x4096 : Shape := ⟨2, ![128, 4096]⟩
abbrev S512x1024 : Shape := ⟨2, ![512, 1024]⟩
abbrev S512x2048 : Shape := ⟨2, ![512, 2048]⟩

abbrev nBuf : Space → Nat
  | .hbm => 56
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S1024x2048, .f32⟩
  | .hbm, ⟨16, _⟩ => ⟨S1024, .f32⟩
  | .hbm, ⟨17, _⟩ => ⟨S1024x2048, .f32⟩
  | .hbm, ⟨18, _⟩ => ⟨S1024, .f32⟩
  | .hbm, ⟨19, _⟩ => ⟨S1024x2048, .f32⟩
  | .hbm, ⟨20, _⟩ => ⟨S1024, .f32⟩
  | .hbm, ⟨21, _⟩ => ⟨S2048x1024, .f32⟩
  | .hbm, ⟨22, _⟩ => ⟨S2048, .f32⟩
  | .hbm, ⟨23, _⟩ => ⟨S1024x2048, .f32⟩
  | .hbm, ⟨24, _⟩ => ⟨S1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x4096, .f32⟩
  | .hbm, ⟨30, _⟩ => ⟨S2048x4096, .bf16⟩
  | .hbm, ⟨31, _⟩ => ⟨S1024x4096, .bf16⟩
  | .hbm, ⟨32, _⟩ => ⟨S1024x4096, .bf16⟩
  | .hbm, ⟨33, _⟩ => ⟨S4096, .f32⟩
  | .hbm, ⟨34, _⟩ => ⟨S1x4096, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x4096, .f32⟩
  | .hbm, ⟨40, _⟩ => ⟨S2048x4096, .bf16⟩
  | .hbm, ⟨41, _⟩ => ⟨S1024x4096, .bf16⟩
  | .hbm, ⟨42, _⟩ => ⟨S1024x4096, .bf16⟩
  | .hbm, ⟨43, _⟩ => ⟨S4096, .f32⟩
  | .hbm, ⟨44, _⟩ => ⟨S1x4096, .f32⟩
  | .hbm, ⟨45, _⟩ => ⟨S1024x2048, .f32⟩
  | .hbm, ⟨46, _⟩ => ⟨S1024x2048, .bf16⟩
  | .hbm, ⟨47, _⟩ => ⟨S1x2048, .f32⟩
  | .hbm, ⟨48, _⟩ => ⟨S2048x1024, .f32⟩
  | .hbm, ⟨49, _⟩ => ⟨S2048x1024, .bf16⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S1024x4096, .bf16⟩
  | .local _ .vmem, ⟨20, _⟩ => ⟨S1024x4096, .bf16⟩
  | .local _ .vmem, ⟨21, _⟩ => ⟨S1x4096, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S512x1024, .f32⟩
  | .local _ .vmem, ⟨27, _⟩ => ⟨S512x1024, .f32⟩
  | .local _ .vmem, ⟨28, _⟩ => ⟨S1024x2048, .bf16⟩
  | .local _ .vmem, ⟨29, _⟩ => ⟨S1x2048, .f32⟩
  | .local _ .vmem, ⟨30, _⟩ => ⟨S2048x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v27_0 : Ref sig .tc := ⟨.hbm, 53, rfl⟩
abbrev main_v27_1 : Ref sig .tc := ⟨.hbm, 54, rfl⟩
abbrev main_v28 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S1024x2048_S2048x1024_1_0 : S1024x2048.Transposes [1, 0] S2048x1024
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  slices_S2048x4096_S1024x4096_0_0 : S2048x4096.Slices ![0, 0] S1024x4096
  slices_S2048x4096_S1024x4096_1024_0 : S2048x4096.Slices ![1024, 0] S1024x4096
  concatenates_S1024_S1024_S1024_S1024_S4096_d0 : Shape.Concatenates [S1024, S1024, S1024, S1024] S4096 0
  shapeCasts_S4096_S1x4096 : S4096.ShapeCasts S1x4096
  transposes_S2048x1024_S1024x2048_1_0 : S2048x1024.Transposes [1, 0] S1024x2048
  shapeCasts_S2048_S1x2048 : S2048.ShapeCasts S1x2048
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  shapeCasts_S128x1024_S128x1024 : S128x1024.ShapeCasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S128x1024_S1024x4096_S128x4096_1_0_0_1_n_n_wf : DotDims.WF S128x1024 S1024x4096 S128x4096 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .f32 = 32 ∨ (Rect.block (s := S4096x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S4096x1024.size a
  hwx1_2 : ∀ i : grid1.Coords, EltTy.bits .f32 = 32 ∨ (Rect.block (s := S4096x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S4096x1024.size a
  hwx1_6 : ∀ i : grid1.Coords, EltTy.bits .f32 = 32 ∨ (Rect.block (s := S4096x1024) S128x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S4096x1024.size a
  hwx1_7 : ∀ i : grid1.Coords, EltTy.bits .f32 = 32 ∨ (Rect.block (s := S4096x1024) S128x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .bf16 = 32 ∨ (Rect.block (s := S1024x2048) S1024x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x1024.size a
  hwx2_3 : ∀ i : grid2.Coords, EltTy.bits .bf16 = 32 ∨ (Rect.block (s := S2048x1024) S2048x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .f32 = 32 ∨ (Rect.block (s := S4096x1024) S512x1024.size (cc2_transform_5 i) (hinb2_5 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S128x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S128x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S2048x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S4096x2048 : Shape := ⟨2, ![4096, 2048]⟩
abbrev S1x1024 : Shape := ⟨2, ![1, 1024]⟩
abbrev S_ : Shape := ⟨0, ![]⟩
abbrev S1x2048 : Shape := ⟨2, ![1, 2048]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S1024x2048, .f32⟩
  | 6 => ⟨S1024, .f32⟩
  | 7 => ⟨S1024x2048, .f32⟩
  | 8 => ⟨S1024, .f32⟩
  | 9 => ⟨S1024x2048, .f32⟩
  | 10 => ⟨S1024, .f32⟩
  | 11 => ⟨S1024x2048, .f32⟩
  | 12 => ⟨S1024, .f32⟩
  | 13 => ⟨S1024x2048, .f32⟩
  | 14 => ⟨S1024, .f32⟩
  | 15 => ⟨S1024x2048, .f32⟩
  | 16 => ⟨S1024, .f32⟩
  | 17 => ⟨S1024x2048, .f32⟩
  | 18 => ⟨S1024, .f32⟩
  | 19 => ⟨S1024x2048, .f32⟩
  | 20 => ⟨S1024, .f32⟩
  | 21 => ⟨S2048x1024, .f32⟩
  | 22 => ⟨S2048, .f32⟩
  | 23 => ⟨S1024x2048, .f32⟩
  | 24 => ⟨S1024, .f32⟩
  | 25 => ⟨S4096x2048, .f32⟩
  | 26 => ⟨S2048x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S2048x1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S2048x1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S2048x1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x2048, .f32⟩
  | 77 => ⟨S2048x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S2048x1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S2048x1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S2048x1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S1024x2048, .f32⟩
  | _ => ⟨S4096x1024, .f32⟩

abbrev hbmTy0_1 (i : Nat) : BufTy := match i % 128 with
  | 0 => ⟨S4096x2048, .f32⟩
  | 1 => ⟨S1x2048, .f32⟩
  | 2 => ⟨S4096x2048, .f32⟩
  | 3 => ⟨S4096x2048, .f32⟩
  | 4 => ⟨S_, .f32⟩
  | 5 => ⟨S4096x2048, .f32⟩
  | 6 => ⟨S4096x2048, .f32⟩
  | 7 => ⟨S2048x1024, .f32⟩
  | 8 => ⟨S4096x1024, .f32⟩
  | 9 => ⟨S1x1024, .f32⟩
  | 10 => ⟨S4096x1024, .f32⟩
  | 11 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_7 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_9 : Ref sig .tc := ⟨.hbm, 116, rfl⟩
abbrev main_v81 : Ref sig .tc := ⟨.hbm, 117, rfl⟩
abbrev main_v82 : Ref sig .tc := ⟨.hbm, 118, rfl⟩
abbrev main_cst_10 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call0_cst : Ref sig .tc := ⟨.hbm, 132, rfl⟩
abbrev main_call0_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x1024_S4096x1024_1_0_0_1_n_n_wf : DotDims.WF S4096x2048 S2048x1024 S4096x1024 [1] [0] [0] [1] [] []
  dot_S4096x1024_S1024x2048_S4096x2048_1_0_0_1_n_n_wf : DotDims.WF S4096x1024 S1024x2048 S4096x2048 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf

class Facts : Prop extends Facts₀ where

variable [Facts]
-- ==== Proof.K.Cell0.lean ====
/-
  The first LSTM cell's launch (32 row blocks of 128 rows), for contents `V` of the device's arrays at the moment the
  launch is entered. One grid point reads the 128-row blocks of x, h and c, the two whole weight halves and the whole
  bias row, and writes the 128-row blocks of the new hidden state and the new cell state:
      gates = x_blk · Wx + h_blk · Wh + b            (128 × 4096)
      h'    = σ(gates[:, 3072:4096]) * tanh (tanh (gates[:, 2048:3072]))
      c'    = σ(gates[:, 0:1024]) * c_blk + tanh (gates[:, 2048:3072]) * σ(gates[:, 1024:2048])
  Stated here, for any float instance: what each staging buffer holds after the body at a point, as a function of the
  blocks read there (`outH`, `outC`), the body's triple, the proof data of the pipeline and its body obligation.
-/
import proofs.«138999_j48885317763708_1_alg».proof.Proof.Gen.Kernel.Launch
import proofs.«138999_j48885317763708_1_alg».proof.Proof.Gen.Kernel.Skeleton
import proofs.«138999_j48885317763708_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `128 t … 128 t + 127` of a batch array, the whole of a weight half
    or of the bias row. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's buffer after the body, from the blocks read: one store of the whole buffer. -/
def outH (x h : Vec F S128x1024 .f32) (wx wh : Vec F S1024x4096 .bf16) (b : Vec F S1x4096 .f32) : Vec F S128x1024 .f32 :=
  View.canon [⟨rRows, k0_pay3 (View.ld x rRows) (View.ld h rRows) (View.ld wx rWeight) (View.ld wh rWeight) (View.ld b rBias)⟩]

/-- The new cell state's buffer after the body, from the blocks read: one store of the whole buffer. -/
def outC (x h cc : Vec F S128x1024 .f32) (wx wh : Vec F S1024x4096 .bf16) (b : Vec F S1x4096 .f32) : Vec F S128x1024 .f32 :=
  View.canon [⟨rRows, k0_pay4 (View.ld x rRows) (View.ld h rRows) (View.ld wx rWeight) (View.ld wh rWeight) (View.ld b rBias) (View.ld cc rRows)⟩]

/-- The one store covers the buffer. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers — the six operands' at contents `x h cc wx wh b`, the two results' at anything —
    runs to its continuation with the operands' buffers as they were and the results' at `outH`, `outC` of them. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h wx wh b) ∗ owns (c : Thread nD τ) arg8 fullShare (outC x h cc wx wh b)) -∗ K ⟨⟩))
      ⊢ wp frame (wpE (defs₀ (F := F)) Variants.none c none) E (cc0__lstm_cell_kernel i arg1 harg1 arg2 harg2 arg3 harg3 arg4 harg4 arg5 harg5 arg6 harg6 arg7 harg7 arg8 harg8) K := by
  simp only [cc0__lstm_cell_kernel_eq_skeleton]; unfold cc0__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of this launch's pipeline on core `c`: the arrays as found (`V`); after the body at point `t` each
    operand's buffer at its block, each result's at `outH` / `outC` of the blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outH (iblk V c 0 t) (iblk V c 1 t) (iblk V c 3 t) (iblk V c 4 t) (iblk V c 5 t)
    | ⟨7, _⟩ => outC (iblk V c 0 t) (iblk V c 1 t) (iblk V c 2 t) (iblk V c 3 t) (iblk V c 4 t) (iblk V c 5 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outH (iblk V c 0 t) (iblk V c 1 t) (iblk V c 3 t) (iblk V c 4 t) (iblk V c 5 t) := by dsimp only [dat]
theorem after_7 (c : Dev nD) (t : Fin cfg0.N) : (dat V c).after 7 t = outC (iblk V c 0 t) (iblk V c 1 t) (iblk V c 2 t) (iblk V c 3 t) (iblk V c 4 t) (iblk V c 5 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the operands' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Cell0

end
-- ==== Proof.K.Cell1.lean ====
/-
  The second LSTM cell's launch (32 row blocks of 128 rows), for contents `V` of the device's arrays at the moment the
  launch is entered. One grid point reads the 128-row blocks of x, h and c, the two whole weight halves and the whole
  bias row, and writes the 128-row blocks of the new hidden state and the new cell state:
      gates = x_blk · Wx + h_blk · Wh + b            (128 × 4096)
      h'    = σ(gates[:, 3072:4096]) * tanh (tanh (gates[:, 2048:3072]))
      c'    = σ(gates[:, 0:1024]) * c_blk + tanh (gates[:, 2048:3072]) * σ(gates[:, 1024:2048])
  Stated here, for any float instance: what each staging buffer holds after the body at a point, as a function of the
  blocks read there (`outH`, `outC`), the body's triple, the proof data of the pipeline and its body obligation.
-/
import proofs.«138999_j48885317763708_1_alg».proof.Proof.Gen.Kernel.Launch
import proofs.«138999_j48885317763708_1_alg».proof.Proof.Gen.Kernel.Skeleton
import proofs.«138999_j48885317763708_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `128 t … 128 t + 127` of a batch array, the whole of a weight half
    or of the bias row. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's buffer after the body, from the blocks read: one store of the whole buffer. -/
def outH (x h : Vec F S128x1024 .f32) (wx wh : Vec F S1024x4096 .bf16) (b : Vec F S1x4096 .f32) : Vec F S128x1024 .f32 :=
  View.canon [⟨rRows, k1_pay3 (View.ld x rRows) (View.ld h rRows) (View.ld wx rWeight) (View.ld wh rWeight) (View.ld b rBias)⟩]

/-- The new cell state's buffer after the body, from the blocks read: one store of the whole buffer. -/
def outC (x h cc : Vec F S128x1024 .f32) (wx wh : Vec F S1024x4096 .bf16) (b : Vec F S1x4096 .f32) : Vec F S128x1024 .f32 :=
  View.canon [⟨rRows, k1_pay4 (View.ld x rRows) (View.ld h rRows) (View.ld wx rWeight) (View.ld wh rWeight) (View.ld b rBias) (View.ld cc rRows)⟩]

/-- The one store covers the buffer. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers — the six operands' at contents `x h cc wx wh b`, the two results' at anything —
    runs to its continuation with the operands' buffers as they were and the results' at `outH`, `outC` of them. -/
theorem sound_kernel (c : Dev nD) (E : Set ℕ) (i : grid1.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h wx wh b) ∗ owns (c : Thread nD τ) arg8 fullShare (outC x h cc wx wh b)) -∗ K ⟨⟩))
      ⊢ wp frame (wpE (defs₀ (F := F)) Variants.none c none) E (cc1__lstm_cell_kernel i arg1 harg1 arg2 harg2 arg3 harg3 arg4 harg4 arg5 harg5 arg6 harg6 arg7 harg7 arg8 harg8) K := by
  simp only [cc1__lstm_cell_kernel_eq_skeleton]; unfold cc1__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of this launch's pipeline on core `c`: the arrays as found (`V`); after the body at point `t` each
    operand's buffer at its block, each result's at `outH` / `outC` of the blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outH (iblk V c 0 t) (iblk V c 1 t) (iblk V c 3 t) (iblk V c 4 t) (iblk V c 5 t)
    | ⟨7, _⟩ => outC (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outH (iblk V c 0 t) (iblk V c 1 t) (iblk V c 3 t) (iblk V c 4 t) (iblk V c 5 t) := by dsimp only [dat]
theorem after_7 (c : Dev nD) (t : Fin cfg1.N) : (dat V c).after 7 t = outC (iblk V c 0 t) (iblk V c 1 t) (iblk V c 2 t) (iblk V c 3 t) (iblk V c 4 t) (iblk V c 5 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the operands' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Cell1

end
-- ==== Proof.K.Head.lean ====
/-
  The head's launch (8 row blocks of 512 rows), for contents `V` of the device's arrays at the moment the launch is
  entered. One grid point reads the 512-row block of the second hidden state, both whole weight matrices and both whole
  bias rows, and writes the 512-row block of the result:
      out = relu (h_blk · W3ᵀ + b3) · W4ᵀ + b4.
  Stated here, for any float instance: what the result's staging buffer holds after the body at a point, as a function
  of the blocks read there (`outY`), the body's triple, the proof data of the pipeline and its body obligation.
-/
import proofs.«138999_j48885317763708_1_alg».proof.Proof.Gen.Kernel.Launch
import proofs.«138999_j48885317763708_1_alg».proof.Proof.Gen.Kernel.Skeleton
import proofs.«138999_j48885317763708_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `512 t … 512 t + 511` of the hidden state or of the result, the whole
    of a weight matrix or of a bias row. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S512x1024 := Rect.unit (s := S512x1024) ![0, 0] S512x1024.size inb_S512x1024_S512x1024_0_0
abbrev rW3 : Rect S1024x2048 := Rect.unit (s := S1024x2048) ![0, 0] S1024x2048.size inb_S1024x2048_S1024x2048_0_0
abbrev rB3 : Rect S1x2048 := Rect.unit (s := S1x2048) ![0, 0] S1x2048.size inb_S1x2048_S1x2048_0_0
abbrev rW4 : Rect S2048x1024 := Rect.unit (s := S2048x1024) ![0, 0] S2048x1024.size inb_S2048x1024_S2048x1024_0_0
abbrev rB4 : Rect S1x1024 := Rect.unit (s := S1x1024) ![0, 0] S1x1024.size inb_S1x1024_S1x1024_0_0

/-- The result's buffer after the body, from the blocks read: one store of the whole buffer. -/
def outY (h : Vec F S512x1024 .f32) (w3 : Vec F S1024x2048 .bf16) (b3 : Vec F S1x2048 .f32) (w4 : Vec F S2048x1024 .bf16) (b4 : Vec F S1x1024 .f32) : Vec F S512x1024 .f32 :=
  View.canon [⟨rRows, k2_pay1 (View.ld h rRows) (View.ld w3 rW3) (View.ld b3 rB3) (View.ld w4 rW4) (View.ld b4 rB4)⟩]

/-- The one store covers the buffer. -/
theorem cover_rows (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

/-! ## The body's triple -/

set_option maxHeartbeats 4000000 in
/-- The body on whole staging buffers — the five operands' at contents `h w3 b3 w4 b4`, the result's at anything — runs
    to its continuation with the operands' buffers as they were and the result's at `outY` of them. -/
theorem sound_kernel (c : Dev nD) (E : Set ℕ) (i : grid2.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .f32) (harg6 : arg6.IsWhole)
    (h : Vec F S512x1024 .f32) (w3 : Vec F S1024x2048 .bf16) (b3 : Vec F S1x2048 .f32) (w4 : Vec F S2048x1024 .bf16) (b4 : Vec F S1x1024 .f32) (K : PUnit → sProp 𝕄) :
    iprop(owns (c : Thread nD τ) arg1 fullShare h ∗ owns (c : Thread nD τ) arg2 fullShare w3 ∗ owns (c : Thread nD τ) arg3 fullShare b3
        ∗ owns (c : Thread nD τ) arg4 fullShare w4 ∗ owns (c : Thread nD τ) arg5 fullShare b4
        ∗ (∃ d, owns (c : Thread nD τ) arg6 fullShare d)
        ∗ (iprop(owns (c : Thread nD τ) arg1 fullShare h ∗ owns (c : Thread nD τ) arg2 fullShare w3 ∗ owns (c : Thread nD τ) arg3 fullShare b3
            ∗ owns (c : Thread nD τ) arg4 fullShare w4 ∗ owns (c : Thread nD τ) arg5 fullShare b4
            ∗ owns (c : Thread nD τ) arg6 fullShare (outY h w3 b3 w4 b4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rows _)

/-! ## The pipeline's proof data -/

/-- The proof data of this launch's pipeline on core `c`: the arrays as found (`V`); after the body at point `t` each
    operand's buffer at its block, the result's at `outY` of the blocks; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outY (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outY (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the operands' buffers hold their blocks, so the triple applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.Kernel.Head

end
-- ==== Proof.K.Run.lean ====
/-
  The whole run of the program, for any float instance: the host operations that lay out the fused weights, then the two
  LSTM cells' launches and the head's, each launch entered with the device's arrays as the item before left them.
  `W0 … W4` are the contents of the device's unscoped buffers at the five boundaries between @main's items; the run
  theorem says that every weakly fair execution terminates, faults nowhere, and ends with every unscoped buffer at
  `W4`: the arguments as launched (no item writes one), the five results as the launches' write-backs leave them.
-/
import proofs.«138999_j48885317763708_1_alg».proof.Proof.K.Cell0
import proofs.«138999_j48885317763708_1_alg».proof.Proof.K.Cell1
import proofs.«138999_j48885317763708_1_alg».proof.Proof.K.Head
import proofs.«138999_j48885317763708_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries between @main's items -/

/-- At launch. -/
abbrev W0 : Dev nD → Valuation τ sig (Elt F) := fun c b => (s₀ m ρ).mem ((c : Dev nD), b)
/-- After the host operations (the first cell's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b

/-- At the first cell's exit: its arrays at what the pipeline leaves (the operands as entered, each result's write-backs
    folded), every other buffer as entered. -/
def W2 (c : Dev nD) : Valuation τ sig (Elt F) :=
  Pipeline.withArrays spec0 c (W1 m ρ c) fun w => (Cell0.dat (U1 m ρ) c).arrAt w cfg0.N
theorem W2_arr (c : Dev nD) (w : Fin cfg0.W) :
    W2 m ρ c (Proc.devRef .tc (Pipeline.arrRef spec0 w)) = (Cell0.dat (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (Cell0.dat (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At the second cell's exit: its arrays at what the pipeline leaves (the operands as entered, each result's write-backs
    folded), every other buffer as entered. -/
def W3 (c : Dev nD) : Valuation τ sig (Elt F) :=
  Pipeline.withArrays spec1 c (W2 m ρ c) fun w => (Cell1.dat (U2 m ρ) c).arrAt w cfg1.N
theorem W3_arr (c : Dev nD) (w : Fin cfg1.W) :
    W3 m ρ c (Proc.devRef .tc (Pipeline.arrRef spec1 w)) = (Cell1.dat (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev U3 : (c : Dev nD) → (b : Ref sig .tc) → Buf (Elt F) ((c : Thread nD τ).loc b) := fun c b => W3 m ρ c b
theorem hF1 (c : Dev nD) (w : Fin cfg1.W) : (Cell1.dat (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At the head's exit: its arrays at what the pipeline leaves (the operands as entered, each result's write-backs
    folded), every other buffer as entered. -/
def W4 (c : Dev nD) : Valuation τ sig (Elt F) :=
  Pipeline.withArrays spec2 c (W3 m ρ c) fun w => (Head.dat (U3 m ρ) c).arrAt w cfg2.N
theorem W4_arr (c : Dev nD) (w : Fin cfg2.W) :
    W4 m ρ c (Proc.devRef .tc (Pipeline.arrRef spec2 w)) = (Head.dat (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev U4 : (c : Dev nD) → (b : Ref sig .tc) → Buf (Elt F) ((c : Thread nD τ).loc b) := fun c b => W4 m ρ c b
theorem hF2 (c : Dev nD) (w : Fin cfg2.W) : (Head.dat (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-! ## The proof data of the three pipelines and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => Cell0.dat (U1 m ρ) c
  | ⟨1, _⟩ => fun c => Cell1.dat (U2 m ρ) c
  | ⟨2, _⟩ => fun c => Head.dat (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and what the core
    owes, which is nothing. -/
abbrev R (c : Dev nD) : sProp 𝕄 := iprop((∃ r, prngReg c r) ∗ ∃ W, owes (c : Thread nD τ) (0 : CellTallies nD τ sig Unit) W)
/-- The host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The launches as segments -/

-- a library lemma stated over the pinned configuration unifies with the printed one only when unification may
-- unfold plain definitions in a metavariable's type
set_option backward.isDefEq.respectTransparency.types false in
/-- THE FIRST CELL'S LAUNCH over the thread state: entered with every unscoped buffer at `W1`, left with them at `W2`.
    Its arrays are split out of the unscoped buffers at entry and put back at the contents the write-backs leave;
    the generator register passes through the pipeline's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cell0.body_obligation (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- THE SECOND CELL'S LAUNCH over the thread state: entered with every unscoped buffer at `W2`, left with them at `W3`.
    Its arrays are split out of the unscoped buffers at entry and put back at the contents the write-backs leave;
    the generator register passes through the pipeline's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cell1.body_obligation (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- THE HEAD'S LAUNCH over the thread state: entered with every unscoped buffer at `W3`, left with them at `W4`.
    Its arrays are split out of the unscoped buffers at entry and put back at the contents the write-backs leave;
    the generator register passes through the pipeline's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four items in order. -/
abbrev segments : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segments m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Run

end
-- ==== Proof.K.Frame.lean ====
/-
  The arguments end as launched, for any float instance: no host operation writes an argument, a launch writes back only
  its results' arrays, so the contents at the last boundary, read at an argument, walk back to the launch memory.
-/
import proofs.«138999_j48885317763708_1_alg».proof.Proof.K.Run

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Off the launch's results `main_v26_0`, `main_v26_1`, `W2` is `W1`: an operand's array is never written back, and a buffer
    that is no window's array is not touched. -/
theorem W2_keep (c : Dev nD) (b : Ref sig .tc) (h0 : main_v26_0 ≠ b) (h1 : main_v26_1 ≠ b) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((Cell0.dat (U1 m ρ) c).arrAt_in 0 rfl _).trans (Cell0.A_eq (U1 m ρ) c 0)
    | ⟨1, _⟩ => exact ((Cell0.dat (U1 m ρ) c).arrAt_in 1 rfl _).trans (Cell0.A_eq (U1 m ρ) c 1)
    | ⟨2, _⟩ => exact ((Cell0.dat (U1 m ρ) c).arrAt_in 2 rfl _).trans (Cell0.A_eq (U1 m ρ) c 2)
    | ⟨3, _⟩ => exact ((Cell0.dat (U1 m ρ) c).arrAt_in 3 rfl _).trans (Cell0.A_eq (U1 m ρ) c 3)
    | ⟨4, _⟩ => exact ((Cell0.dat (U1 m ρ) c).arrAt_in 4 rfl _).trans (Cell0.A_eq (U1 m ρ) c 4)
    | ⟨5, _⟩ => exact ((Cell0.dat (U1 m ρ) c).arrAt_in 5 rfl _).trans (Cell0.A_eq (U1 m ρ) c 5)
    | ⟨6, _⟩ => exact absurd rfl h0
    | ⟨7, _⟩ => exact absurd rfl h1
  · exact W2_of_ne m ρ c b (fun w e => h ⟨w, e⟩)

/-- Off the launch's results `main_v27_0`, `main_v27_1`, `W3` is `W2`: an operand's array is never written back, and a buffer
    that is no window's array is not touched. -/
theorem W3_keep (c : Dev nD) (b : Ref sig .tc) (h0 : main_v27_0 ≠ b) (h1 : main_v27_1 ≠ b) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((Cell1.dat (U2 m ρ) c).arrAt_in 0 rfl _).trans (Cell1.A_eq (U2 m ρ) c 0)
    | ⟨1, _⟩ => exact ((Cell1.dat (U2 m ρ) c).arrAt_in 1 rfl _).trans (Cell1.A_eq (U2 m ρ) c 1)
    | ⟨2, _⟩ => exact ((Cell1.dat (U2 m ρ) c).arrAt_in 2 rfl _).trans (Cell1.A_eq (U2 m ρ) c 2)
    | ⟨3, _⟩ => exact ((Cell1.dat (U2 m ρ) c).arrAt_in 3 rfl _).trans (Cell1.A_eq (U2 m ρ) c 3)
    | ⟨4, _⟩ => exact ((Cell1.dat (U2 m ρ) c).arrAt_in 4 rfl _).trans (Cell1.A_eq (U2 m ρ) c 4)
    | ⟨5, _⟩ => exact ((Cell1.dat (U2 m ρ) c).arrAt_in 5 rfl _).trans (Cell1.A_eq (U2 m ρ) c 5)
    | ⟨6, _⟩ => exact absurd rfl h0
    | ⟨7, _⟩ => exact absurd rfl h1
  · exact W3_of_ne m ρ c b (fun w e => h ⟨w, e⟩)

/-- Off the launch's results `main_v28`, `W4` is `W3`: an operand's array is never written back, and a buffer
    that is no window's array is not touched. -/
theorem W4_keep (c : Dev nD) (b : Ref sig .tc) (h0 : main_v28 ≠ b) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => exact ((Head.dat (U3 m ρ) c).arrAt_in 0 rfl _).trans (Head.A_eq (U3 m ρ) c 0)
    | ⟨1, _⟩ => exact ((Head.dat (U3 m ρ) c).arrAt_in 1 rfl _).trans (Head.A_eq (U3 m ρ) c 1)
    | ⟨2, _⟩ => exact ((Head.dat (U3 m ρ) c).arrAt_in 2 rfl _).trans (Head.A_eq (U3 m ρ) c 2)
    | ⟨3, _⟩ => exact ((Head.dat (U3 m ρ) c).arrAt_in 3 rfl _).trans (Head.A_eq (U3 m ρ) c 3)
    | ⟨4, _⟩ => exact ((Head.dat (U3 m ρ) c).arrAt_in 4 rfl _).trans (Head.A_eq (U3 m ρ) c 4)
    | ⟨5, _⟩ => exact absurd rfl h0
  · exact W4_of_ne m ρ c b (fun w e => h ⟨w, e⟩)

/-- A buffer no host operation writes holds after them what it held at launch. -/
theorem W1_keep (c : Dev nD) (b : Ref sig .tc) (h : b ∉ hostOps0_W) : W1 m ρ c (Proc.devRef .tc b) = m ((c : Thread nD τ).loc b) :=
  StableHlo.after_of_writes_sub hostOps0 _ hostOps0_writes h

/-- A buffer that no item writes ends as launched. -/
theorem W4_launch (c : Dev nD) (b : Ref sig .tc) (h : b ∉ hostOps0_W) (h0 : main_v26_0 ≠ b) (h1 : main_v26_1 ≠ b)
    (h2 : main_v27_0 ≠ b) (h3 : main_v27_1 ≠ b) (h4 : main_v28 ≠ b) :
    W4 m ρ c (Proc.devRef .tc b) = m ((c : Thread nD τ).loc b) :=
  (W4_keep m ρ c b h4).trans <| (W3_keep m ρ c b h2 h3).trans <| (W2_keep m ρ c b h0 h1).trans (W1_keep m ρ c b h)

/-- THE FRAME: every weakly fair execution of @main terminates, nothing faulting, and every argument array ends
    holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W4_launch m ρ c main_arg0 (by decide) (by decide) (by decide) (by decide) (by decide) (by decide)),
     (h c _ (mem_uc main_arg1 (by decide))).trans (W4_launch m ρ c main_arg1 (by decide) (by decide) (by decide) (by decide) (by decide) (by decide)),
     (h c _ (mem_uc main_arg2 (by decide))).trans (W4_launch m ρ c main_arg2 (by decide) (by decide) (by decide) (by decide) (by decide) (by decide)),
     (h c _ (mem_uc main_arg3 (by decide))).trans (W4_launch m ρ c main_arg3 (by decide) (by decide) (by decide) (by decide) (by decide) (by decide)),
     (h c _ (mem_uc main_arg4 (by decide))).trans (W4_launch m ρ c main_arg4 (by decide) (by decide) (by decide) (by decide) (by decide) (by decide)),
     (h c _ (mem_uc main_arg5 (by decide))).trans (W4_launch m ρ c main_arg5 (by decide) (by decide) (by decide) (by decide) (by decide) (by decide)),
     (h c _ (mem_uc main_arg6 (by decide))).trans (W4_launch m ρ c main_arg6 (by decide) (by decide) (by decide) (by decide) (by decide) (by decide)),
     (h c _ (mem_uc main_arg7 (by decide))).trans (W4_launch m ρ c main_arg7 (by decide) (by decide) (by decide) (by decide) (by decide) (by decide)),
     (h c _ (mem_uc main_arg8 (by decide))).trans (W4_launch m ρ c main_arg8 (by decide) (by decide) (by decide) (by decide) (by decide) (by decide)),
     (h c _ (mem_uc main_arg9 (by decide))).trans (W4_launch m ρ c main_arg9 (by decide) (by decide) (by decide) (by decide) (by decide) (by decide)),
     (h c _ (mem_uc main_arg10 (by decide))).trans (W4_launch m ρ c main_arg10 (by decide) (by decide) (by decide) (by decide) (by decide) (by decide)),
     (h c _ (mem_uc main_arg11 (by decide))).trans (W4_launch m ρ c main_arg11 (by decide) (by decide) (by decide) (by decide) (by decide) (by decide)),
     (h c _ (mem_uc main_arg12 (by decide))).trans (W4_launch m ρ c main_arg12 (by decide) (by decide) (by decide) (by decide) (by decide) (by decide)),
     (h c _ (mem_uc main_arg13 (by decide))).trans (W4_launch m ρ c main_arg13 (by decide) (by decide) (by decide) (by decide) (by decide) (by decide)),
     (h c _ (mem_uc main_arg14 (by decide))).trans (W4_launch m ρ c main_arg14 (by decide) (by decide) (by decide) (by decide) (by decide) (by decide)),
     (h c _ (mem_uc main_arg15 (by decide))).trans (W4_launch m ρ c main_arg15 (by decide) (by decide) (by decide) (by decide) (by decide) (by decide)),
     (h c _ (mem_uc main_arg16 (by decide))).trans (W4_launch m ρ c main_arg16 (by decide) (by decide) (by decide) (by decide) (by decide) (by decide)),
     (h c _ (mem_uc main_arg17 (by decide))).trans (W4_launch m ρ c main_arg17 (by decide) (by decide) (by decide) (by decide) (by decide) (by decide)),
     (h c _ (mem_uc main_arg18 (by decide))).trans (W4_launch m ρ c main_arg18 (by decide) (by decide) (by decide) (by decide) (by decide) (by decide)),
     (h c _ (mem_uc main_arg19 (by decide))).trans (W4_launch m ρ c main_arg19 (by decide) (by decide) (by decide) (by decide) (by decide) (by decide)),
     (h c _ (mem_uc main_arg20 (by decide))).trans (W4_launch m ρ c main_arg20 (by decide) (by decide) (by decide) (by decide) (by decide) (by decide)),
     (h c _ (mem_uc main_arg21 (by decide))).trans (W4_launch m ρ c main_arg21 (by decide) (by decide) (by decide) (by decide) (by decide) (by decide)),
     (h c _ (mem_uc main_arg22 (by decide))).trans (W4_launch m ρ c main_arg22 (by decide) (by decide) (by decide) (by decide) (by decide) (by decide)),
     (h c _ (mem_uc main_arg23 (by decide))).trans (W4_launch m ρ c main_arg23 (by decide) (by decide) (by decide) (by decide) (by decide) (by decide)),
     (h c _ (mem_uc main_arg24 (by decide))).trans (W4_launch m ρ c main_arg24 (by decide) (by decide) (by decide) (by decide) (by decide) (by decide))⟩)
    (run_all m ρ)

end Cert.Kernel.Run

end
-- ==== Proof.KI.Cell0.lean ====
/-
  The first LSTM cell's launch (32 row blocks of 128 rows), for contents `V` of the device's arrays at the moment the
  launch is entered. One grid point reads the 128-row blocks of x, h and c, the two whole weight halves and the whole
  bias row, and writes the 128-row blocks of the new hidden state and the new cell state:
      gates = x_blk · Wx + h_blk · Wh + b            (128 × 4096)
      h'    = σ(gates[:, 3072:4096]) * tanh (tanh (gates[:, 2048:3072]))
      c'    = σ(gates[:, 0:1024]) * c_blk + tanh (gates[:, 2048:3072]) * σ(gates[:, 1024:2048])
  Stated here, for any float instance: what each staging buffer holds after the body at a point, as a function of the
  blocks read there (`outH`, `outC`), the body's triple, the proof data of the pipeline and its body obligation.
-/
import proofs.«138999_j48885317763708_1_alg».proof.Proof.Gen.KernelIdeal.Launch
import proofs.«138999_j48885317763708_1_alg».proof.Proof.Gen.KernelIdeal.Skeleton
import proofs.«138999_j48885317763708_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `128 t … 128 t + 127` of a batch array, the whole of a weight half
    or of the bias row. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's buffer after the body, from the blocks read: one store of the whole buffer. -/
def outH (x h : Vec F S128x1024 .f32) (wx wh : Vec F S1024x4096 .bf16) (b : Vec F S1x4096 .f32) : Vec F S128x1024 .f32 :=
  View.canon [⟨rRows, k0_pay3 (View.ld x rRows) (View.ld h rRows) (View.ld wx rWeight) (View.ld wh rWeight) (View.ld b rBias)⟩]

/-- The new cell state's buffer after the body, from the blocks read: one store of the whole buffer. -/
def outC (x h cc : Vec F S128x1024 .f32) (wx wh : Vec F S1024x4096 .bf16) (b : Vec F S1x4096 .f32) : Vec F S128x1024 .f32 :=
  View.canon [⟨rRows, k0_pay4 (View.ld x rRows) (View.ld h rRows) (View.ld wx rWeight) (View.ld wh rWeight) (View.ld b rBias) (View.ld cc rRows)⟩]

/-- The one store covers the buffer. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers — the six operands' at contents `x h cc wx wh b`, the two results' at anything —
    runs to its continuation with the operands' buffers as they were and the results' at `outH`, `outC` of them. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h wx wh b) ∗ owns (c : Thread nD τ) arg8 fullShare (outC x h cc wx wh b)) -∗ K ⟨⟩))
      ⊢ wp frame (wpE (defs₀ (F := F)) Variants.none c none) E (cc0__lstm_cell_kernel i arg1 harg1 arg2 harg2 arg3 harg3 arg4 harg4 arg5 harg5 arg6 harg6 arg7 harg7 arg8 harg8) K := by
  simp only [cc0__lstm_cell_kernel_eq_skeleton]; unfold cc0__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of this launch's pipeline on core `c`: the arrays as found (`V`); after the body at point `t` each
    operand's buffer at its block, each result's at `outH` / `outC` of the blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outH (iblk V c 0 t) (iblk V c 1 t) (iblk V c 3 t) (iblk V c 4 t) (iblk V c 5 t)
    | ⟨7, _⟩ => outC (iblk V c 0 t) (iblk V c 1 t) (iblk V c 2 t) (iblk V c 3 t) (iblk V c 4 t) (iblk V c 5 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outH (iblk V c 0 t) (iblk V c 1 t) (iblk V c 3 t) (iblk V c 4 t) (iblk V c 5 t) := by dsimp only [dat]
theorem after_7 (c : Dev nD) (t : Fin cfg0.N) : (dat V c).after 7 t = outC (iblk V c 0 t) (iblk V c 1 t) (iblk V c 2 t) (iblk V c 3 t) (iblk V c 4 t) (iblk V c 5 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the operands' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Cell0

end
-- ==== Proof.KI.Cell1.lean ====
/-
  The second LSTM cell's launch (32 row blocks of 128 rows), for contents `V` of the device's arrays at the moment the
  launch is entered. One grid point reads the 128-row blocks of x, h and c, the two whole weight halves and the whole
  bias row, and writes the 128-row blocks of the new hidden state and the new cell state:
      gates = x_blk · Wx + h_blk · Wh + b            (128 × 4096)
      h'    = σ(gates[:, 3072:4096]) * tanh (tanh (gates[:, 2048:3072]))
      c'    = σ(gates[:, 0:1024]) * c_blk + tanh (gates[:, 2048:3072]) * σ(gates[:, 1024:2048])
  Stated here, for any float instance: what each staging buffer holds after the body at a point, as a function of the
  blocks read there (`outH`, `outC`), the body's triple, the proof data of the pipeline and its body obligation.
-/
import proofs.«138999_j48885317763708_1_alg».proof.Proof.Gen.KernelIdeal.Launch
import proofs.«138999_j48885317763708_1_alg».proof.Proof.Gen.KernelIdeal.Skeleton
import proofs.«138999_j48885317763708_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `128 t … 128 t + 127` of a batch array, the whole of a weight half
    or of the bias row. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's buffer after the body, from the blocks read: one store of the whole buffer. -/
def outH (x h : Vec F S128x1024 .f32) (wx wh : Vec F S1024x4096 .bf16) (b : Vec F S1x4096 .f32) : Vec F S128x1024 .f32 :=
  View.canon [⟨rRows, k1_pay3 (View.ld x rRows) (View.ld h rRows) (View.ld wx rWeight) (View.ld wh rWeight) (View.ld b rBias)⟩]

/-- The new cell state's buffer after the body, from the blocks read: one store of the whole buffer. -/
def outC (x h cc : Vec F S128x1024 .f32) (wx wh : Vec F S1024x4096 .bf16) (b : Vec F S1x4096 .f32) : Vec F S128x1024 .f32 :=
  View.canon [⟨rRows, k1_pay4 (View.ld x rRows) (View.ld h rRows) (View.ld wx rWeight) (View.ld wh rWeight) (View.ld b rBias) (View.ld cc rRows)⟩]

/-- The one store covers the buffer. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers — the six operands' at contents `x h cc wx wh b`, the two results' at anything —
    runs to its continuation with the operands' buffers as they were and the results' at `outH`, `outC` of them. -/
theorem sound_kernel (c : Dev nD) (E : Set ℕ) (i : grid1.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h cc : Vec F S128x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (outH x h wx wh b) ∗ owns (c : Thread nD τ) arg8 fullShare (outC x h cc wx wh b)) -∗ K ⟨⟩))
      ⊢ wp frame (wpE (defs₀ (F := F)) Variants.none c none) E (cc1__lstm_cell_kernel i arg1 harg1 arg2 harg2 arg3 harg3 arg4 harg4 arg5 harg5 arg6 harg6 arg7 harg7 arg8 harg8) K := by
  simp only [cc1__lstm_cell_kernel_eq_skeleton]; unfold cc1__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of this launch's pipeline on core `c`: the arrays as found (`V`); after the body at point `t` each
    operand's buffer at its block, each result's at `outH` / `outC` of the blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outH (iblk V c 0 t) (iblk V c 1 t) (iblk V c 3 t) (iblk V c 4 t) (iblk V c 5 t)
    | ⟨7, _⟩ => outC (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outH (iblk V c 0 t) (iblk V c 1 t) (iblk V c 3 t) (iblk V c 4 t) (iblk V c 5 t) := by dsimp only [dat]
theorem after_7 (c : Dev nD) (t : Fin cfg1.N) : (dat V c).after 7 t = outC (iblk V c 0 t) (iblk V c 1 t) (iblk V c 2 t) (iblk V c 3 t) (iblk V c 4 t) (iblk V c 5 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the operands' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Cell1

end
-- ==== Proof.KI.Head.lean ====
/-
  The head's launch (8 row blocks of 512 rows), for contents `V` of the device's arrays at the moment the launch is
  entered. One grid point reads the 512-row block of the second hidden state, both whole weight matrices and both whole
  bias rows, and writes the 512-row block of the result:
      out = relu (h_blk · W3ᵀ + b3) · W4ᵀ + b4.
  Stated here, for any float instance: what the result's staging buffer holds after the body at a point, as a function
  of the blocks read there (`outY`), the body's triple, the proof data of the pipeline and its body obligation.
-/
import proofs.«138999_j48885317763708_1_alg».proof.Proof.Gen.KernelIdeal.Launch
import proofs.«138999_j48885317763708_1_alg».proof.Proof.Gen.KernelIdeal.Skeleton
import proofs.«138999_j48885317763708_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's arrays when the launch is entered
variable (V : (c : Dev nD) → (b : Ref sig .tc) → Buf (Elt F) ((c : Thread nD τ).loc b))

/-! ## The blocks -/

/-- Window `w`'s block at grid point `t`: the rows `512 t … 512 t + 511` of the hidden state or of the result, the whole
    of a weight matrix or of a bias row. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, whether the block was fetched there or kept from
    the point before (the block index did not move): for any proof data over the arrays `V` whose body leaves the
    operand's buffer as it found it. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes: every access is a whole buffer -/

abbrev rRows : Rect S512x1024 := Rect.unit (s := S512x1024) ![0, 0] S512x1024.size inb_S512x1024_S512x1024_0_0
abbrev rW3 : Rect S1024x2048 := Rect.unit (s := S1024x2048) ![0, 0] S1024x2048.size inb_S1024x2048_S1024x2048_0_0
abbrev rB3 : Rect S1x2048 := Rect.unit (s := S1x2048) ![0, 0] S1x2048.size inb_S1x2048_S1x2048_0_0
abbrev rW4 : Rect S2048x1024 := Rect.unit (s := S2048x1024) ![0, 0] S2048x1024.size inb_S2048x1024_S2048x1024_0_0
abbrev rB4 : Rect S1x1024 := Rect.unit (s := S1x1024) ![0, 0] S1x1024.size inb_S1x1024_S1x1024_0_0

/-- The result's buffer after the body, from the blocks read: one store of the whole buffer. -/
def outY (h : Vec F S512x1024 .f32) (w3 : Vec F S1024x2048 .bf16) (b3 : Vec F S1x2048 .f32) (w4 : Vec F S2048x1024 .bf16) (b4 : Vec F S1x1024 .f32) : Vec F S512x1024 .f32 :=
  View.canon [⟨rRows, k2_pay1 (View.ld h rRows) (View.ld w3 rW3) (View.ld b3 rB3) (View.ld w4 rW4) (View.ld b4 rB4)⟩]

/-- The one store covers the buffer. -/
theorem cover_rows (p0 : Vec F S512x1024 .f32) (y : S512x1024.Idx) :
    ∃ pc ∈ ([⟨rRows, p0⟩] : List (View.Piece (Elt F) S512x1024 .f32)), y ∈ pc.1.set :=
  View.cover_of_tiled [⟨rRows, p0⟩] S512x1024.size (by rfl) y

/-! ## The body's triple -/

set_option maxHeartbeats 4000000 in
/-- The body on whole staging buffers — the five operands' at contents `h w3 b3 w4 b4`, the result's at anything — runs
    to its continuation with the operands' buffers as they were and the result's at `outY` of them. -/
theorem sound_kernel (c : Dev nD) (E : Set ℕ) (i : grid2.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .f32) (harg6 : arg6.IsWhole)
    (h : Vec F S512x1024 .f32) (w3 : Vec F S1024x2048 .bf16) (b3 : Vec F S1x2048 .f32) (w4 : Vec F S2048x1024 .bf16) (b4 : Vec F S1x1024 .f32) (K : PUnit → sProp 𝕄) :
    iprop(owns (c : Thread nD τ) arg1 fullShare h ∗ owns (c : Thread nD τ) arg2 fullShare w3 ∗ owns (c : Thread nD τ) arg3 fullShare b3
        ∗ owns (c : Thread nD τ) arg4 fullShare w4 ∗ owns (c : Thread nD τ) arg5 fullShare b4
        ∗ (∃ d, owns (c : Thread nD τ) arg6 fullShare d)
        ∗ (iprop(owns (c : Thread nD τ) arg1 fullShare h ∗ owns (c : Thread nD τ) arg2 fullShare w3 ∗ owns (c : Thread nD τ) arg3 fullShare b3
            ∗ owns (c : Thread nD τ) arg4 fullShare w4 ∗ owns (c : Thread nD τ) arg5 fullShare b4
            ∗ owns (c : Thread nD τ) arg6 fullShare (outY h w3 b3 w4 b4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rows _)

/-! ## The pipeline's proof data -/

/-- The proof data of this launch's pipeline on core `c`: the arrays as found (`V`); after the body at point `t` each
    operand's buffer at its block, the result's at `outY` of the blocks; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outY (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outY (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the operands' buffers hold their blocks, so the triple applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.KernelIdeal.Head

end
-- ==== Proof.KI.Run.lean ====
/-
  The whole run of the program, for any float instance: the host operations that lay out the fused weights, then the two
  LSTM cells' launches and the head's, each launch entered with the device's arrays as the item before left them.
  `W0 … W4` are the contents of the device's unscoped buffers at the five boundaries between @main's items; the run
  theorem says that every weakly fair execution terminates, faults nowhere, and ends with every unscoped buffer at
  `W4`: the arguments as launched (no item writes one), the five results as the launches' write-backs leave them.
-/
import proofs.«138999_j48885317763708_1_alg».proof.Proof.KI.Cell0
import proofs.«138999_j48885317763708_1_alg».proof.Proof.KI.Cell1
import proofs.«138999_j48885317763708_1_alg».proof.Proof.KI.Head
import proofs.«138999_j48885317763708_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries between @main's items -/

/-- At launch. -/
abbrev W0 : Dev nD → Valuation τ sig (Elt F) := fun c b => (s₀ m ρ).mem ((c : Dev nD), b)
/-- After the host operations (the first cell's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b

/-- At the first cell's exit: its arrays at what the pipeline leaves (the operands as entered, each result's write-backs
    folded), every other buffer as entered. -/
def W2 (c : Dev nD) : Valuation τ sig (Elt F) :=
  Pipeline.withArrays spec0 c (W1 m ρ c) fun w => (Cell0.dat (U1 m ρ) c).arrAt w cfg0.N
theorem W2_arr (c : Dev nD) (w : Fin cfg0.W) :
    W2 m ρ c (Proc.devRef .tc (Pipeline.arrRef spec0 w)) = (Cell0.dat (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (Cell0.dat (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At the second cell's exit: its arrays at what the pipeline leaves (the operands as entered, each result's write-backs
    folded), every other buffer as entered. -/
def W3 (c : Dev nD) : Valuation τ sig (Elt F) :=
  Pipeline.withArrays spec1 c (W2 m ρ c) fun w => (Cell1.dat (U2 m ρ) c).arrAt w cfg1.N
theorem W3_arr (c : Dev nD) (w : Fin cfg1.W) :
    W3 m ρ c (Proc.devRef .tc (Pipeline.arrRef spec1 w)) = (Cell1.dat (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev U3 : (c : Dev nD) → (b : Ref sig .tc) → Buf (Elt F) ((c : Thread nD τ).loc b) := fun c b => W3 m ρ c b
theorem hF1 (c : Dev nD) (w : Fin cfg1.W) : (Cell1.dat (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- At the head's exit: its arrays at what the pipeline leaves (the operands as entered, each result's write-backs
    folded), every other buffer as entered. -/
def W4 (c : Dev nD) : Valuation τ sig (Elt F) :=
  Pipeline.withArrays spec2 c (W3 m ρ c) fun w => (Head.dat (U3 m ρ) c).arrAt w cfg2.N
theorem W4_arr (c : Dev nD) (w : Fin cfg2.W) :
    W4 m ρ c (Proc.devRef .tc (Pipeline.arrRef spec2 w)) = (Head.dat (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev U4 : (c : Dev nD) → (b : Ref sig .tc) → Buf (Elt F) ((c : Thread nD τ).loc b) := fun c b => W4 m ρ c b
theorem hF2 (c : Dev nD) (w : Fin cfg2.W) : (Head.dat (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-! ## The proof data of the three pipelines and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => Cell0.dat (U1 m ρ) c
  | ⟨1, _⟩ => fun c => Cell1.dat (U2 m ρ) c
  | ⟨2, _⟩ => fun c => Head.dat (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and what the core
    owes, which is nothing. -/
abbrev R (c : Dev nD) : sProp 𝕄 := iprop((∃ r, prngReg c r) ∗ ∃ W, owes (c : Thread nD τ) (0 : CellTallies nD τ sig Unit) W)
/-- The host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The launches as segments -/

-- a library lemma stated over the pinned configuration unifies with the printed one only when unification may
-- unfold plain definitions in a metavariable's type
set_option backward.isDefEq.respectTransparency.types false in
/-- THE FIRST CELL'S LAUNCH over the thread state: entered with every unscoped buffer at `W1`, left with them at `W2`.
    Its arrays are split out of the unscoped buffers at entry and put back at the contents the write-backs leave;
    the generator register passes through the pipeline's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cell0.body_obligation (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- THE SECOND CELL'S LAUNCH over the thread state: entered with every unscoped buffer at `W2`, left with them at `W3`.
    Its arrays are split out of the unscoped buffers at entry and put back at the contents the write-backs leave;
    the generator register passes through the pipeline's invariant; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cell1.body_obligation (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- THE HEAD'S LAUNCH over the thread state: entered with every unscoped buffer at `W3`, left with them at `W4`.
    Its arrays are split out of the unscoped buffers at entry and put back at the contents the write-backs leave;
    the generator register passes through the pipeline's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's four items in order. -/
abbrev segments : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segments m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting, and
    every final state holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Run

end
-- ==== Proof.KI.Frame.lean ====
/-
  The arguments end as launched, for any float instance: no host operation writes an argument, a launch writes back only
  its results' arrays, so the contents at the last boundary, read at an argument, walk back to the launch memory.
-/
import proofs.«138999_j48885317763708_1_alg».proof.Proof.KI.Run

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Off the launch's results `main_v26_0`, `main_v26_1`, `W2` is `W1`: an operand's array is never written back, and a buffer
    that is no window's array is not touched. -/
theorem W2_keep (c : Dev nD) (b : Ref sig .tc) (h0 : main_v26_0 ≠ b) (h1 : main_v26_1 ≠ b) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((Cell0.dat (U1 m ρ) c).arrAt_in 0 rfl _).trans (Cell0.A_eq (U1 m ρ) c 0)
    | ⟨1, _⟩ => exact ((Cell0.dat (U1 m ρ) c).arrAt_in 1 rfl _).trans (Cell0.A_eq (U1 m ρ) c 1)
    | ⟨2, _⟩ => exact ((Cell0.dat (U1 m ρ) c).arrAt_in 2 rfl _).trans (Cell0.A_eq (U1 m ρ) c 2)
    | ⟨3, _⟩ => exact ((Cell0.dat (U1 m ρ) c).arrAt_in 3 rfl _).trans (Cell0.A_eq (U1 m ρ) c 3)
    | ⟨4, _⟩ => exact ((Cell0.dat (U1 m ρ) c).arrAt_in 4 rfl _).trans (Cell0.A_eq (U1 m ρ) c 4)
    | ⟨5, _⟩ => exact ((Cell0.dat (U1 m ρ) c).arrAt_in 5 rfl _).trans (Cell0.A_eq (U1 m ρ) c 5)
    | ⟨6, _⟩ => exact absurd rfl h0
    | ⟨7, _⟩ => exact absurd rfl h1
  · exact W2_of_ne m ρ c b (fun w e => h ⟨w, e⟩)

/-- Off the launch's results `main_v27_0`, `main_v27_1`, `W3` is `W2`: an operand's array is never written back, and a buffer
    that is no window's array is not touched. -/
theorem W3_keep (c : Dev nD) (b : Ref sig .tc) (h0 : main_v27_0 ≠ b) (h1 : main_v27_1 ≠ b) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((Cell1.dat (U2 m ρ) c).arrAt_in 0 rfl _).trans (Cell1.A_eq (U2 m ρ) c 0)
    | ⟨1, _⟩ => exact ((Cell1.dat (U2 m ρ) c).arrAt_in 1 rfl _).trans (Cell1.A_eq (U2 m ρ) c 1)
    | ⟨2, _⟩ => exact ((Cell1.dat (U2 m ρ) c).arrAt_in 2 rfl _).trans (Cell1.A_eq (U2 m ρ) c 2)
    | ⟨3, _⟩ => exact ((Cell1.dat (U2 m ρ) c).arrAt_in 3 rfl _).trans (Cell1.A_eq (U2 m ρ) c 3)
    | ⟨4, _⟩ => exact ((Cell1.dat (U2 m ρ) c).arrAt_in 4 rfl _).trans (Cell1.A_eq (U2 m ρ) c 4)
    | ⟨5, _⟩ => exact ((Cell1.dat (U2 m ρ) c).arrAt_in 5 rfl _).trans (Cell1.A_eq (U2 m ρ) c 5)
    | ⟨6, _⟩ => exact absurd rfl h0
    | ⟨7, _⟩ => exact absurd rfl h1
  · exact W3_of_ne m ρ c b (fun w e => h ⟨w, e⟩)

/-- Off the launch's results `main_v28`, `W4` is `W3`: an operand's array is never written back, and a buffer
    that is no window's array is not touched. -/
theorem W4_keep (c : Dev nD) (b : Ref sig .tc) (h0 : main_v28 ≠ b) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => exact ((Head.dat (U3 m ρ) c).arrAt_in 0 rfl _).trans (Head.A_eq (U3 m ρ) c 0)
    | ⟨1, _⟩ => exact ((Head.dat (U3 m ρ) c).arrAt_in 1 rfl _).trans (Head.A_eq (U3 m ρ) c 1)
    | ⟨2, _⟩ => exact ((Head.dat (U3 m ρ) c).arrAt_in 2 rfl _).trans (Head.A_eq (U3 m ρ) c 2)
    | ⟨3, _⟩ => exact ((Head.dat (U3 m ρ) c).arrAt_in 3 rfl _).trans (Head.A_eq (U3 m ρ) c 3)
    | ⟨4, _⟩ => exact ((Head.dat (U3 m ρ) c).arrAt_in 4 rfl _).trans (Head.A_eq (U3 m ρ) c 4)
    | ⟨5, _⟩ => exact absurd rfl h0
  · exact W4_of_ne m ρ c b (fun w e => h ⟨w, e⟩)

/-- A buffer no host operation writes holds after them what it held at launch. -/
theorem W1_keep (c : Dev nD) (b : Ref sig .tc) (h : b ∉ hostOps0_W) : W1 m ρ c (Proc.devRef .tc b) = m ((c : Thread nD τ).loc b) :=
  StableHlo.after_of_writes_sub hostOps0 _ hostOps0_writes h

/-- A buffer that no item writes ends as launched. -/
theorem W4_launch (c : Dev nD) (b : Ref sig .tc) (h : b ∉ hostOps0_W) (h0 : main_v26_0 ≠ b) (h1 : main_v26_1 ≠ b)
    (h2 : main_v27_0 ≠ b) (h3 : main_v27_1 ≠ b) (h4 : main_v28 ≠ b) :
    W4 m ρ c (Proc.devRef .tc b) = m ((c : Thread nD τ).loc b) :=
  (W4_keep m ρ c b h4).trans <| (W3_keep m ρ c b h2 h3).trans <| (W2_keep m ρ c b h0 h1).trans (W1_keep m ρ c b h)

/-- THE FRAME: every weakly fair execution of @main terminates, nothing faulting, and every argument array ends
    holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W4_launch m ρ c main_arg0 (by decide) (by decide) (by decide) (by decide) (by decide) (by decide)),
     (h c _ (mem_uc main_arg1 (by decide))).trans (W4_launch m ρ c main_arg1 (by decide) (by decide) (by decide) (by decide) (by decide) (by decide)),
     (h c _ (mem_uc main_arg2 (by decide))).trans (W4_launch m ρ c main_arg2 (by decide) (by decide) (by decide) (by decide) (by decide) (by decide)),
     (h c _ (mem_uc main_arg3 (by decide))).trans (W4_launch m ρ c main_arg3 (by decide) (by decide) (by decide) (by decide) (by decide) (by decide)),
     (h c _ (mem_uc main_arg4 (by decide))).trans (W4_launch m ρ c main_arg4 (by decide) (by decide) (by decide) (by decide) (by decide) (by decide)),
     (h c _ (mem_uc main_arg5 (by decide))).trans (W4_launch m ρ c main_arg5 (by decide) (by decide) (by decide) (by decide) (by decide) (by decide)),
     (h c _ (mem_uc main_arg6 (by decide))).trans (W4_launch m ρ c main_arg6 (by decide) (by decide) (by decide) (by decide) (by decide) (by decide)),
     (h c _ (mem_uc main_arg7 (by decide))).trans (W4_launch m ρ c main_arg7 (by decide) (by decide) (by decide) (by decide) (by decide) (by decide)),
     (h c _ (mem_uc main_arg8 (by decide))).trans (W4_launch m ρ c main_arg8 (by decide) (by decide) (by decide) (by decide) (by decide) (by decide)),
     (h c _ (mem_uc main_arg9 (by decide))).trans (W4_launch m ρ c main_arg9 (by decide) (by decide) (by decide) (by decide) (by decide) (by decide)),
     (h c _ (mem_uc main_arg10 (by decide))).trans (W4_launch m ρ c main_arg10 (by decide) (by decide) (by decide) (by decide) (by decide) (by decide)),
     (h c _ (mem_uc main_arg11 (by decide))).trans (W4_launch m ρ c main_arg11 (by decide) (by decide) (by decide) (by decide) (by decide) (by decide)),
     (h c _ (mem_uc main_arg12 (by decide))).trans (W4_launch m ρ c main_arg12 (by decide) (by decide) (by decide) (by decide) (by decide) (by decide)),
     (h c _ (mem_uc main_arg13 (by decide))).trans (W4_launch m ρ c main_arg13 (by decide) (by decide) (by decide) (by decide) (by decide) (by decide)),
     (h c _ (mem_uc main_arg14 (by decide))).trans (W4_launch m ρ c main_arg14 (by decide) (by decide) (by decide) (by decide) (by decide) (by decide)),
     (h c _ (mem_uc main_arg15 (by decide))).trans (W4_launch m ρ c main_arg15 (by decide) (by decide) (by decide) (by decide) (by decide) (by decide)),
     (h c _ (mem_uc main_arg16 (by decide))).trans (W4_launch m ρ c main_arg16 (by decide) (by decide) (by decide) (by decide) (by decide) (by decide)),
     (h c _ (mem_uc main_arg17 (by decide))).trans (W4_launch m ρ c main_arg17 (by decide) (by decide) (by decide) (by decide) (by decide) (by decide)),
     (h c _ (mem_uc main_arg18 (by decide))).trans (W4_launch m ρ c main_arg18 (by decide) (by decide) (by decide) (by decide) (by decide) (by decide)),
     (h c _ (mem_uc main_arg19 (by decide))).trans (W4_launch m ρ c main_arg19 (by decide) (by decide) (by decide) (by decide) (by decide) (by decide)),
     (h c _ (mem_uc main_arg20 (by decide))).trans (W4_launch m ρ c main_arg20 (by decide) (by decide) (by decide) (by decide) (by decide) (by decide)),
     (h c _ (mem_uc main_arg21 (by decide))).trans (W4_launch m ρ c main_arg21 (by decide) (by decide) (by decide) (by decide) (by decide) (by decide)),
     (h c _ (mem_uc main_arg22 (by decide))).trans (W4_launch m ρ c main_arg22 (by decide) (by decide) (by decide) (by decide) (by decide) (by decide)),
     (h c _ (mem_uc main_arg23 (by decide))).trans (W4_launch m ρ c main_arg23 (by decide) (by decide) (by decide) (by decide) (by decide) (by decide)),
     (h c _ (mem_uc main_arg24 (by decide))).trans (W4_launch m ρ c main_arg24 (by decide) (by decide) (by decide) (by decide) (by decide) (by decide))⟩)
    (run_all m ρ)

end Cert.KernelIdeal.Run

end
-- ==== Proof.LibRowwise.lean ====
/-
  Matrix functions that treat every row alike, over the extended reals, and the printed operations that compute them.

  A network layer applied to a batch of rows — a product with a weight matrix, a bias row added to every row, an
  activation applied entry by entry, three matrices laid side by side — computes row `p` of its result from row `p` of its
  operands alone. Such a function is stated here ONCE for any number of rows `M`; `rowsAt` takes a band of `R` consecutive
  rows of a matrix, and every function of this file commutes with it by unfolding. So a computation carried out band by
  band and the same computation carried out on the whole matrix are instances of one function, and the band of the
  whole result is the result on the band.

  The second half reads the printed operations as these functions, at any number of rows: the host's matrix product
  and the block product into a zero accumulator are `prod` (for any dimension-number record that is the plain one), a
  bias laid along every row is `rowBias` whether it was broadcast from a vector or from a one-row matrix, and three
  matrices concatenated along the columns are `join3`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.Lib.Rowwise

open Idealize.ShloMosaic Idealize.ShloMosaic.ValueIdx

/-- An `M × n` matrix of extended reals. -/
abbrev Mat (M n : ℕ) : Type := (⟨2, ![M, n]⟩ : Shape).Idx → EReal
/-- A vector of `n` extended reals. -/
abbrev RowV (n : ℕ) : Type := (⟨1, ![n]⟩ : Shape).Idx → EReal

/-! ## Bands of rows -/

/-- Rows `o, …, o + R - 1` of a matrix, as an `R`-row matrix. -/
def rowsAt {α : Type} {M n : ℕ} (R o : ℕ) (h : o + R ≤ M) (X : (⟨2, ![M, n]⟩ : Shape).Idx → α) :
    (⟨2, ![R, n]⟩ : Shape).Idx → α :=
  fun j => X (ix2 (⟨o + (j 0).val, by have := idx2_lt0 j; omega⟩ : Fin M) (j 1 : Fin n))

theorem rowsAt_apply {α : Type} {M n : ℕ} (R o : ℕ) (h : o + R ≤ M) (X : (⟨2, ![M, n]⟩ : Shape).Idx → α)
    (p : Fin R) (q : Fin n) : rowsAt R o h X (ix2 p q) = X (ix2 (⟨o + p.val, by omega⟩ : Fin M) q) := rfl

/-! ## Functions that treat every row alike -/

/-- The matrix product: entry `(p, q)` is the sum over `k` of `x p k · w k q`. -/
def prod {M K N : ℕ} (x : Mat M K) (w : Mat K N) : Mat M N :=
  fun i => ∑ k : Fin K, x (ix2 (i 0 : Fin M) k) * w (ix2 k (i 1 : Fin N))

/-- A vector laid along every row. -/
def rowBias {M N : ℕ} (b : RowV N) : Mat M N := fun i => b (ix1 (i 1 : Fin N))

/-- A dense layer: the product with the weights plus the bias row. -/
def dense {M K N : ℕ} (x : Mat M K) (w : Mat K N) (b : RowV N) : Mat M N := fun i => prod x w i + rowBias b i

/-- The logistic function entry by entry. -/
def sigm {M N : ℕ} (x : Mat M N) : Mat M N := fun i => Ideal.logistic (x i)

/-- `x · logistic x` entry by entry. -/
def silu {M N : ℕ} (x : Mat M N) : Mat M N := fun i => x i * Ideal.logistic (x i)

/-- The product entry by entry. -/
def hmul {M N : ℕ} (x y : Mat M N) : Mat M N := fun i => x i * y i

/-- The sum entry by entry. -/
def hadd {M N : ℕ} (x y : Mat M N) : Mat M N := fun i => x i + y i

/-- Three `n`-column matrices side by side. -/
def join3 {M n m : ℕ} (hm : m = n + n + n) (a b c : Mat M n) : Mat M m :=
  fun i =>
    if h1 : (i 1).val < n then a (ix2 (i 0 : Fin M) (⟨(i 1).val, h1⟩ : Fin n))
    else if h2 : (i 1).val < n + n then b (ix2 (i 0 : Fin M) (⟨(i 1).val - n, by omega⟩ : Fin n))
    else c (ix2 (i 0 : Fin M) (⟨(i 1).val - (n + n), by have := idx2_lt1 i; omega⟩ : Fin n))

section Bands
variable {M K N n m : ℕ} (R o : ℕ) (h : o + R ≤ M)

theorem rowsAt_prod (x : Mat M K) (w : Mat K N) : rowsAt R o h (prod x w) = prod (rowsAt R o h x) w := rfl
theorem rowsAt_rowBias (b : RowV N) : rowsAt R o h (rowBias (M := M) b) = rowBias b := rfl
theorem rowsAt_dense (x : Mat M K) (w : Mat K N) (b : RowV N) :
    rowsAt R o h (dense x w b) = dense (rowsAt R o h x) w b := rfl
theorem rowsAt_sigm (x : Mat M N) : rowsAt R o h (sigm x) = sigm (rowsAt R o h x) := rfl
theorem rowsAt_silu (x : Mat M N) : rowsAt R o h (silu x) = silu (rowsAt R o h x) := rfl
theorem rowsAt_hmul (x y : Mat M N) : rowsAt R o h (hmul x y) = hmul (rowsAt R o h x) (rowsAt R o h y) := rfl
theorem rowsAt_hadd (x y : Mat M N) : rowsAt R o h (hadd x y) = hadd (rowsAt R o h x) (rowsAt R o h y) := rfl
theorem rowsAt_join3 (hm : m = n + n + n) (a b c : Mat M n) :
    rowsAt R o h (join3 hm a b c) = join3 hm (rowsAt R o h a) (rowsAt R o h b) (rowsAt R o h c) := rfl

end Bands

/-! ## The printed operations, read as these functions -/

section Ops
variable {M K N n m : ℕ}

/-- A change of float format is the identity on the extended reals. -/
theorem truncf_id {s : Shape} {φ ψ : FTy} (x : FVec Ideal s φ) (h : ψ.bits < φ.bits) : truncf ψ x h = x := rfl

/-- The host's product with the plain dimension numbers is the matrix product. -/
theorem hostDot_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    Host.dotGeneral d prec x w = prod x w := by
  subst hd
  funext i
  obtain ⟨p, q, rfl⟩ : ∃ (p : Fin M) (q : Fin N), i = ix2 p q := ⟨i 0, i 1, eq_ix2 i⟩
  exact StackMember.dotGeneral_plain_apply prec x w p q

/-- The block product into a zero accumulator, with the plain dimension numbers, is the matrix product. -/
theorem matmul_eq_prod (d : DotDims ⟨2, ![M, K]⟩ ⟨2, ![K, N]⟩ ⟨2, ![M, N]⟩) (hd : d = DotDims.plain M K N)
    (prec : Option ContractPrecision) {φ₁ φ₂ : FTy} (x : FVec Ideal ⟨2, ![M, K]⟩ φ₁) (w : FVec Ideal ⟨2, ![K, N]⟩ φ₂) :
    matmul d prec x w (constant ⟨2, ![M, N]⟩ .f32 0x00000000#32) = prod x w := by
  rw [matmul_zero_eq_dotGeneral]
  exact hostDot_eq_prod d hd prec x w

/-- A one-row matrix broadcast down the rows is its row laid along every row. -/
theorem broadcastTo_oneRow (y : (⟨2, ![1, N]⟩ : Shape).Idx → EReal)
    (hb : (⟨2, ![1, N]⟩ : Shape).Broadcasts ⟨2, ![M, N]⟩) :
    broadcastTo ⟨2, ![M, N]⟩ y hb = rowBias (N := N) (fun i : (⟨1, ![N]⟩ : Shape).Idx => y (ix2 (0 : Fin 1) (i 0 : Fin N))) := by
  funext i
  refine broadcastTo_apply y hb i (ix2 (0 : Fin 1) (i 1 : Fin N)) ?_
  intro a
  match a with
  | ⟨0, _⟩ => rfl
  | ⟨1, _⟩ =>
    show (i 1).val = if N = 1 then 0 else (i 1).val
    split
    · have := idx2_lt1 i; omega
    · rfl

/-- A vector reshaped to one row, read back as a vector, is the vector. -/
theorem oneRow_shapeCast (b : RowV N) (hs : (⟨1, ![N]⟩ : Shape).ShapeCasts ⟨2, ![1, N]⟩) :
    (fun i : (⟨1, ![N]⟩ : Shape).Idx => shapeCast ⟨2, ![1, N]⟩ b hs (ix2 (0 : Fin 1) (i 0 : Fin N))) = b := by
  funext i
  refine (shapeCast_apply b hs (ix2 (0 : Fin 1) (i 0 : Fin N)) (ix1 (i 0 : Fin N)) ?_).trans ?_
  · rw [Shape.rowMajor_val_two, Shape.rowMajor_val_one]
    show (i 0).val = 0 * N + (i 0).val
    omega
  · exact congrArg b (eq_ix1 i).symm

/-- The host's way to lay a vector along every row: to one row along axis 1, then down the rows. -/
theorem hostBias_eq (b : RowV N) (h1 : (⟨1, ![N]⟩ : Shape).BroadcastsInDim ⟨2, ![1, N]⟩ ![1])
    (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b) = rowBias b := by
  funext i
  obtain ⟨p, q, rfl⟩ : ∃ (p : Fin M) (q : Fin N), i = ix2 p q := ⟨i 0, i 1, eq_ix2 i⟩
  rw [broadcastInDim_oneRow_apply h2 _ p q]
  refine broadcastInDim_apply ![1] h1 b (ix2 (0 : Fin 1) q) (ix1 q) ?_
  intro a
  match a with
  | ⟨0, _⟩ =>
    show q.val = if N = 1 then 0 else q.val
    split
    · have := q.isLt; omega
    · rfl

/-- The float pattern of one. -/
theorem ofBits_one : Ideal.ofBits .f32 0x3F800000#32 = 1 := by
  simp [Ideal.ofBits, Ideal.ieee, -EReal.coe_mul]; norm_num

/-- The host's expansion of the logistic function — one over one plus the exponential of the negation, the ones
    broadcast from a constant — is the logistic function entry by entry. -/
theorem hostSigm_eq (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (addf (broadcastInDim ⟨2, ![M, N]⟩ ![] h' (constant (F := Ideal) ⟨0, ![]⟩ .f32 0x3F800000#32)) (Host.exp (Host.negf x)))
      = sigm x := by
  funext i
  show Ideal.div (Ideal.ofBits .f32 0x3F800000#32) (Ideal.ofBits .f32 0x3F800000#32 + Ideal.exp (-(x i))) = Ideal.logistic (x i)
  rw [ofBits_one]
  rfl

/-- The same with the inner sum already read entry by entry. -/
theorem hostSigm_eq' (x : Mat M N) (h : (⟨0, ![]⟩ : Shape).BroadcastsInDim ⟨2, ![M, N]⟩ ![])
    (h' : (⟨0, ![]⟩ : Shape).BroadcastsInDim ⟨2, ![M, N]⟩ ![]) :
    Host.divf (broadcastInDim ⟨2, ![M, N]⟩ ![] h (constant (F := Ideal) ⟨0, ![]⟩ .f32 0x3F800000#32))
      (hadd (broadcastInDim ⟨2, ![M, N]⟩ ![] h' (constant (F := Ideal) ⟨0, ![]⟩ .f32 0x3F800000#32))
        (Host.exp (F := Ideal) (φ := .f32) (Host.negf x)))
      = sigm x := hostSigm_eq x h h'

theorem mulf_eq_hmul (x y : Mat M N) : mulf (F := Ideal) (φ := .f32) x y = hmul x y := rfl
theorem addf_eq_hadd (x y : Mat M N) : addf (F := Ideal) (φ := .f32) x y = hadd x y := rfl
theorem logistic_eq_sigm (x : Mat M N) : logistic (F := Ideal) (φ := .f32) x = sigm x := rfl
theorem hmul_sigm (x : Mat M N) : hmul x (sigm x) = silu x := rfl
theorem hadd_rowBias (x : Mat M K) (w : Mat K N) (b : RowV N) : hadd (prod x w) (rowBias b) = dense x w b := rfl

/-- Three matrices concatenated along the columns are the three side by side. -/
theorem concat3_eq_join3 (hm : m = n + n + n) (a b c : Mat M n)
    (h : Shape.Concatenates ([(⟨⟨2, ![M, n]⟩, a⟩ : (s : Shape) × (s.Idx → EReal)), ⟨⟨2, ![M, n]⟩, b⟩, ⟨⟨2, ![M, n]⟩, c⟩].map (·.1))
      ⟨2, ![M, m]⟩ 1) :
    concatenate ⟨2, ![M, m]⟩ 1 [⟨⟨2, ![M, n]⟩, a⟩, ⟨⟨2, ![M, n]⟩, b⟩, ⟨⟨2, ![M, n]⟩, c⟩] h = join3 hm a b c := by
  funext i
  have hi1 := idx2_lt1 i
  unfold join3
  split
  · rename_i h1
    refine concatenate_apply_piece (1 : Fin 2) _ h i 0 (by show (0 : ℕ) < 3; omega) ⟨2, ![M, n]⟩ a rfl rfl 0 rfl
      (ix2 (i 0 : Fin M) (⟨(i 1).val, h1⟩ : Fin n)) ?_ ?_
    · intro b hb
      match b with
      | ⟨0, _⟩ => rfl
      | ⟨1, _⟩ => exact absurd rfl hb
    · show 0 + (i 1).val = (i 1).val
      omega
  · rename_i h1
    split
    · rename_i h2
      refine concatenate_apply_piece (1 : Fin 2) _ h i 1 (by show (1 : ℕ) < 3; omega) ⟨2, ![M, n]⟩ b rfl rfl n rfl
        (ix2 (i 0 : Fin M) (⟨(i 1).val - n, by omega⟩ : Fin n)) ?_ ?_
      · intro b hb
        match b with
        | ⟨0, _⟩ => rfl
        | ⟨1, _⟩ => exact absurd rfl hb
      · show n + ((i 1).val - n) = (i 1).val
        omega
    · rename_i h2
      refine concatenate_apply_piece (1 : Fin 2) _ h i 2 (by show (2 : ℕ) < 3; omega) ⟨2, ![M, n]⟩ c rfl rfl (n + n) rfl
        (ix2 (i 0 : Fin M) (⟨(i 1).val - (n + n), by omega⟩ : Fin n)) ?_ ?_
      · intro b hb
        match b with
        | ⟨0, _⟩ => rfl
        | ⟨1, _⟩ => exact absurd rfl hb
      · show n + n + ((i 1).val - (n + n)) = (i 1).val
        omega

end Ops

end Cert.Lib.Rowwise

end
-- ==== Proof.Spec.lean ====
/-
  What the three launches compute, as functions of whole matrices over the extended reals, for any number of rows.

  An LSTM cell on a batch of rows: with the four gates' weights laid side by side (column `g · 1024 + j` of the fused
  matrices belongs to gate `g`, in the order forget, input, candidate, output),
      gates = x · Wx + h · Wh + b                                     (rows × 4096)
      h'    = σ(gates[:, 3072:4096]) · tanh (tanh (gates[:, 2048:3072]))
      c'    = σ(gates[:, 0:1024]) · c + tanh (gates[:, 2048:3072]) · σ(gates[:, 1024:2048])
  and the two-layer head  out = relu (h · W3ᵀ + b3) · W4ᵀ + b4.
  Every function here computes row `p` of its result from row `p` of the batch operands alone, so it commutes with taking a
  band of rows (`rowsAt`), by unfolding: the band of the whole result is the result on the band.
-/
import proofs.«138999_j48885317763708_1_alg».proof.Proof.LibRowwise

noncomputable section

open scoped BigOperators

namespace Cert.Spec

open Idealize.ShloMosaic Idealize.ShloMosaic.ValueIdx Cert.Lib.Rowwise

variable {M N : ℕ}

/-- Columns `o, …, o + n - 1` of a matrix. -/
def colsAt (n o : ℕ) (h : o + n ≤ N) (X : Mat M N) : Mat M n :=
  fun j => X (ix2 (j 0 : Fin M) (⟨o + (j 1).val, by have := idx2_lt1 j; omega⟩ : Fin N))

theorem colsAt_apply (n o : ℕ) (h : o + n ≤ N) (X : Mat M N) (p : Fin M) (q : Fin n) :
    colsAt n o h X (ix2 p q) = X (ix2 p (⟨o + q.val, by omega⟩ : Fin N)) := rfl

/-- The hyperbolic tangent entry by entry. -/
def tnh (x : Mat M N) : Mat M N := fun i => Ideal.tanh (x i)

/-- The positive part entry by entry. -/
def relu (x : Mat M N) : Mat M N := fun i => max (x i) 0

/-- The transpose. -/
def tr {a b : ℕ} (W : Mat a b) : Mat b a := fun i => W (ix2 (i 1 : Fin a) (i 0 : Fin b))

/-- The row of a one-row matrix, as a vector. -/
def oneRow (b : Mat 1 N) : RowV N := fun i => b (ix2 (0 : Fin 1) (i 0 : Fin N))

/-- A vector as a one-row matrix. -/
def asRow (b : RowV N) : Mat 1 N := fun i => b (ix1 (i 1 : Fin N))

theorem oneRow_asRow (b : RowV N) : oneRow (asRow b) = b := by
  funext i; exact congrArg b (eq_ix1 i).symm

/-! ## One LSTM cell -/

/-- The four gates' pre-activations side by side. -/
def gates (x h : Mat M 1024) (wx wh : Mat 1024 4096) (b : Mat 1 4096) : Mat M 4096 :=
  hadd (hadd (prod x wx) (prod h wh)) (rowBias (oneRow b))

/-- The new hidden state. -/
def cellH (x h : Mat M 1024) (wx wh : Mat 1024 4096) (b : Mat 1 4096) : Mat M 1024 :=
  hmul (sigm (colsAt 1024 3072 (by omega) (gates x h wx wh b))) (tnh (tnh (colsAt 1024 2048 (by omega) (gates x h wx wh b))))

/-- The new cell state. -/
def cellC (x h c : Mat M 1024) (wx wh : Mat 1024 4096) (b : Mat 1 4096) : Mat M 1024 :=
  hadd (hmul (sigm (colsAt 1024 0 (by omega) (gates x h wx wh b))) c)
    (hmul (tnh (colsAt 1024 2048 (by omega) (gates x h wx wh b))) (sigm (colsAt 1024 1024 (by omega) (gates x h wx wh b))))

/-! ## The head -/

def head (h2 : Mat M 1024) (w3 : Mat 1024 2048) (b3 : Mat 1 2048) (w4 : Mat 2048 1024) (b4 : Mat 1 1024) : Mat M 1024 :=
  hadd (prod (relu (hadd (prod h2 w3) (rowBias (oneRow b3)))) w4) (rowBias (oneRow b4))

/-! ## Bands of rows -/

section Bands
variable {B : ℕ} (R o : ℕ) (hb : o + R ≤ B)

theorem rowsAt_cellH (x h : Mat B 1024) (wx wh : Mat 1024 4096) (b : Mat 1 4096) :
    rowsAt R o hb (cellH x h wx wh b) = cellH (rowsAt R o hb x) (rowsAt R o hb h) wx wh b := rfl

theorem rowsAt_cellC (x h c : Mat B 1024) (wx wh : Mat 1024 4096) (b : Mat 1 4096) :
    rowsAt R o hb (cellC x h c wx wh b) = cellC (rowsAt R o hb x) (rowsAt R o hb h) (rowsAt R o hb c) wx wh b := rfl

theorem rowsAt_head (h2 : Mat B 1024) (w3 : Mat 1024 2048) (b3 : Mat 1 2048) (w4 : Mat 2048 1024) (b4 : Mat 1 1024) :
    rowsAt R o hb (head h2 w3 b3 w4 b4) = head (rowsAt R o hb h2) w3 b3 w4 b4 := rfl

end Bands

/-! ## The fused weights -/

/-- Four gates' weights, each `[out, in]`, transposed and laid side by side: entry `(k, g · 1024 + j)` is gate `g`'s
    weight `(j, k)`. -/
def fuseT (Wf Wi Wc Wo : Mat 1024 2048) : Mat 2048 4096 :=
  fun i =>
    if h1 : (i 1).val < 1024 then Wf (ix2 (⟨(i 1).val, h1⟩ : Fin 1024) (i 0 : Fin 2048))
    else if h2 : (i 1).val < 2048 then Wi (ix2 (⟨(i 1).val - 1024, by omega⟩ : Fin 1024) (i 0 : Fin 2048))
    else if h3 : (i 1).val < 3072 then Wc (ix2 (⟨(i 1).val - 2048, by omega⟩ : Fin 1024) (i 0 : Fin 2048))
    else Wo (ix2 (⟨(i 1).val - 3072, by have := idx2_lt1 i; omega⟩ : Fin 1024) (i 0 : Fin 2048))

/-- Four gates' biases laid end to end, as a one-row matrix. -/
def fuseB (bf bi bc bo : RowV 1024) : Mat 1 4096 :=
  fun i =>
    if h1 : (i 1).val < 1024 then bf (ix1 (⟨(i 1).val, h1⟩ : Fin 1024))
    else if h2 : (i 1).val < 2048 then bi (ix1 (⟨(i 1).val - 1024, by omega⟩ : Fin 1024))
    else if h3 : (i 1).val < 3072 then bc (ix1 (⟨(i 1).val - 2048, by omega⟩ : Fin 1024))
    else bo (ix1 (⟨(i 1).val - 3072, by have := idx2_lt1 i; omega⟩ : Fin 1024))

/-- The rows of the fused weights that multiply the cell's input. -/
def fuseX (Wf Wi Wc Wo : Mat 1024 2048) : Mat 1024 4096 := rowsAt 1024 0 (by omega) (fuseT Wf Wi Wc Wo)
/-- The rows of the fused weights that multiply the previous hidden state. -/
def fuseH (Wf Wi Wc Wo : Mat 1024 2048) : Mat 1024 4096 := rowsAt 1024 1024 (by omega) (fuseT Wf Wi Wc Wo)

/-! ## The whole program: its five results as functions of its twenty-five arguments -/

section Program
variable (X h1 h2 c1 c2 : Mat 4096 1024)
  (Wf1 : Mat 1024 2048) (bf1 : RowV 1024) (Wi1 : Mat 1024 2048) (bi1 : RowV 1024)
  (Wc1 : Mat 1024 2048) (bc1 : RowV 1024) (Wo1 : Mat 1024 2048) (bo1 : RowV 1024)
  (Wf2 : Mat 1024 2048) (bf2 : RowV 1024) (Wi2 : Mat 1024 2048) (bi2 : RowV 1024)
  (Wc2 : Mat 1024 2048) (bc2 : RowV 1024) (Wo2 : Mat 1024 2048) (bo2 : RowV 1024)
  (W3 : Mat 2048 1024) (b3 : RowV 2048) (W4 : Mat 1024 2048) (b4 : RowV 1024)

/-- The first cell's new hidden state. -/
def resH1 : Mat 4096 1024 :=
  cellH X h1 (fuseX Wf1 Wi1 Wc1 Wo1) (fuseH Wf1 Wi1 Wc1 Wo1) (fuseB bf1 bi1 bc1 bo1)
/-- The first cell's new cell state. -/
def resC1 : Mat 4096 1024 :=
  cellC X h1 c1 (fuseX Wf1 Wi1 Wc1 Wo1) (fuseH Wf1 Wi1 Wc1 Wo1) (fuseB bf1 bi1 bc1 bo1)
/-- The second cell's new hidden state: its input is the first cell's. -/
def resH2 : Mat 4096 1024 :=
  cellH (resH1 X h1 Wf1 bf1 Wi1 bi1 Wc1 bc1 Wo1 bo1) h2 (fuseX Wf2 Wi2 Wc2 Wo2) (fuseH Wf2 Wi2 Wc2 Wo2) (fuseB bf2 bi2 bc2 bo2)
/-- The second cell's new cell state. -/
def resC2 : Mat 4096 1024 :=
  cellC (resH1 X h1 Wf1 bf1 Wi1 bi1 Wc1 bc1 Wo1 bo1) h2 c2 (fuseX Wf2 Wi2 Wc2 Wo2) (fuseH Wf2 Wi2 Wc2 Wo2) (fuseB bf2 bi2 bc2 bo2)
/-- The head on the second hidden state. -/
def resOut : Mat 4096 1024 :=
  head (resH2 X h1 h2 Wf1 bf1 Wi1 bi1 Wc1 bc1 Wo1 bo1 Wf2 bf2 Wi2 bi2 Wc2 bc2 Wo2 bo2) (tr W3) (asRow b3) (tr W4) (asRow b4)

end Program

end Cert.Spec

end
-- ==== Proof.KI.HostValue.lean ====
/-
  The arrays the three launches read that the host prepares first, as functions of the program's arguments.

  Before the first launch the host lays each cell's four gate weights, each `[1024, 2048]` (output unit by input
  coordinate), transposed and side by side into one `[2048, 4096]` matrix, whose upper 1024 rows multiply the cell's
  input and whose lower 1024 rows multiply the previous hidden state; it lays the four gate biases end to end into one row
  of 4096; and it transposes the head's two weight matrices and turns its two bias vectors into one-row matrices. A change
  of float format is the identity on the extended reals. Each of these arrays, read after all the host's operations, is
  the corresponding function of `Spec` at the arguments' launch contents; and no host operation writes an argument.
-/
import proofs.«138999_j48885317763708_1_alg».proof.Proof.Gen.KernelIdeal.Launch
import proofs.«138999_j48885317763708_1_alg».proof.Proof.Gen.KernelIdeal.Regions
import proofs.«138999_j48885317763708_1_alg».proof.Proof.Spec
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen
open Idealize.ShloMosaic Idealize.ShloMosaic.TcCoe Idealize.ShloMosaic.ValueIdx
open Cert.Lib.Rowwise Cert.Spec

/-! ## The host's shape operations as whole-matrix functions -/

section Ops

/-- Exchanging the two axes of a matrix is its transpose. -/
theorem transpose_eq_tr {a b : ℕ} (W : Mat a b) (h : (⟨2, ![a, b]⟩ : Shape).Transposes [1, 0] ⟨2, ![b, a]⟩) :
    transpose ⟨2, ![b, a]⟩ [1, 0] W h = tr W := by
  funext i
  refine transpose_apply [1, 0] W h i (ix2 (i 1 : Fin a) (i 0 : Fin b)) ?_
  intro d
  match d with
  | ⟨0, _⟩ => rfl
  | ⟨1, _⟩ => rfl

/-- A slice that keeps every column and the rows `o, …, o + R - 1` is that band of rows. -/
theorem slice_eq_rowsAt {α : Type} {M n : ℕ} (R o : ℕ) (hb : o + R ≤ M) (X : (⟨2, ![M, n]⟩ : Shape).Idx → α)
    (h : (⟨2, ![M, n]⟩ : Shape).Slices ![o, 0] ⟨2, ![R, n]⟩) :
    extractStridedSlice ⟨2, ![R, n]⟩ ![o, 0] X h = rowsAt R o hb X := by
  funext j
  refine extractStridedSlice_apply ![o, 0] X h j
    (ix2 (⟨o + (j 0).val, by have := idx2_lt0 j; omega⟩ : Fin M) (j 1 : Fin n)) ?_
  intro d
  match d with
  | ⟨0, _⟩ => rfl
  | ⟨1, _⟩ =>
    show (j 1).val = 0 + (j 1).val
    omega

/-- A vector reshaped to one row is the vector as a one-row matrix. -/
theorem shapeCast_eq_asRow {N : ℕ} (b : RowV N) (hs : (⟨1, ![N]⟩ : Shape).ShapeCasts ⟨2, ![1, N]⟩) :
    shapeCast ⟨2, ![1, N]⟩ b hs = asRow b := by
  funext i
  refine shapeCast_apply b hs i (ix1 (i 1 : Fin N)) ?_
  rw [Shape.rowMajor_val_two, Shape.rowMajor_val_one]
  have h0 : (i 0).val < 1 := idx2_lt0 i
  show (i 1).val = (i 0).val * N + (i 1).val
  have : (i 0).val = 0 := by omega
  rw [this]; omega

end Ops

section Fused

/-- Four transposed gate weights laid side by side are the fused weights. -/
theorem concat_tr_eq_fuseT (Wf Wi Wc Wo : Mat 1024 2048)
    (h : Shape.Concatenates ([(⟨⟨2, ![2048, 1024]⟩, tr Wf⟩ : (s : Shape) × (s.Idx → EReal)), ⟨⟨2, ![2048, 1024]⟩, tr Wi⟩,
      ⟨⟨2, ![2048, 1024]⟩, tr Wc⟩, ⟨⟨2, ![2048, 1024]⟩, tr Wo⟩].map (·.1)) ⟨2, ![2048, 4096]⟩ 1) :
    concatenate ⟨2, ![2048, 4096]⟩ 1 [⟨⟨2, ![2048, 1024]⟩, tr Wf⟩, ⟨⟨2, ![2048, 1024]⟩, tr Wi⟩,
      ⟨⟨2, ![2048, 1024]⟩, tr Wc⟩, ⟨⟨2, ![2048, 1024]⟩, tr Wo⟩] h = fuseT Wf Wi Wc Wo := by
  funext i
  have hi1 := idx2_lt1 i
  unfold fuseT
  split
  · rename_i h1
    refine concatenate_apply_piece (1 : Fin 2) _ h i 0 (by show (0 : ℕ) < 4; omega) ⟨2, ![2048, 1024]⟩ (tr Wf) rfl rfl 0 rfl
      (ix2 (i 0 : Fin 2048) (⟨(i 1).val, h1⟩ : Fin 1024)) ?_ ?_
    · intro d hd
      match d with
      | ⟨0, _⟩ => rfl
      | ⟨1, _⟩ => exact absurd rfl hd
    · show 0 + (i 1).val = (i 1).val
      omega
  · rename_i h1
    split
    · rename_i h2
      refine concatenate_apply_piece (1 : Fin 2) _ h i 1 (by show (1 : ℕ) < 4; omega) ⟨2, ![2048, 1024]⟩ (tr Wi) rfl rfl 1024 rfl
        (ix2 (i 0 : Fin 2048) (⟨(i 1).val - 1024, by omega⟩ : Fin 1024)) ?_ ?_
      · intro d hd
        match d with
        | ⟨0, _⟩ => rfl
        | ⟨1, _⟩ => exact absurd rfl hd
      · show 1024 + ((i 1).val - 1024) = (i 1).val
        omega
    · rename_i h2
      split
      · rename_i h3
        refine concatenate_apply_piece (1 : Fin 2) _ h i 2 (by show (2 : ℕ) < 4; omega) ⟨2, ![2048, 1024]⟩ (tr Wc) rfl rfl 2048 rfl
          (ix2 (i 0 : Fin 2048) (⟨(i 1).val - 2048, by omega⟩ : Fin 1024)) ?_ ?_
        · intro d hd
          match d with
          | ⟨0, _⟩ => rfl
          | ⟨1, _⟩ => exact absurd rfl hd
        · show 2048 + ((i 1).val - 2048) = (i 1).val
          omega
      · rename_i h3
        refine concatenate_apply_piece (1 : Fin 2) _ h i 3 (by show (3 : ℕ) < 4; omega) ⟨2, ![2048, 1024]⟩ (tr Wo) rfl rfl 3072 rfl
          (ix2 (i 0 : Fin 2048) (⟨(i 1).val - 3072, by omega⟩ : Fin 1024)) ?_ ?_
        · intro d hd
          match d with
          | ⟨0, _⟩ => rfl
          | ⟨1, _⟩ => exact absurd rfl hd
        · show 3072 + ((i 1).val - 3072) = (i 1).val
          omega

/-- Four gate biases laid end to end, as a one-row matrix, are the fused bias. -/
theorem asRow_concat_eq_fuseB (bf bi bc bo : RowV 1024)
    (h : Shape.Concatenates ([(⟨⟨1, ![1024]⟩, bf⟩ : (s : Shape) × (s.Idx → EReal)), ⟨⟨1, ![1024]⟩, bi⟩,
      ⟨⟨1, ![1024]⟩, bc⟩, ⟨⟨1, ![1024]⟩, bo⟩].map (·.1)) ⟨1, ![4096]⟩ 0) :
    asRow (concatenate ⟨1, ![4096]⟩ 0 [⟨⟨1, ![1024]⟩, bf⟩, ⟨⟨1, ![1024]⟩, bi⟩, ⟨⟨1, ![1024]⟩, bc⟩, ⟨⟨1, ![1024]⟩, bo⟩] h)
      = fuseB bf bi bc bo := by
  funext i
  have hi1 := idx2_lt1 i
  unfold fuseB asRow
  split
  · rename_i h1
    refine concatenate_apply_piece (0 : Fin 1) _ h (ix1 (i 1 : Fin 4096)) 0 (by show (0 : ℕ) < 4; omega) ⟨1, ![1024]⟩ bf rfl rfl 0 rfl
      (ix1 (⟨(i 1).val, h1⟩ : Fin 1024)) ?_ ?_
    · intro d hd
      match d with
      | ⟨0, _⟩ => exact absurd rfl hd
    · show 0 + (i 1).val = (i 1).val
      omega
  · rename_i h1
    split
    · rename_i h2
      refine concatenate_apply_piece (0 : Fin 1) _ h (ix1 (i 1 : Fin 4096)) 1 (by show (1 : ℕ) < 4; omega) ⟨1, ![1024]⟩ bi rfl rfl 1024 rfl
        (ix1 (⟨(i 1).val - 1024, by omega⟩ : Fin 1024)) ?_ ?_
      · intro d hd
        match d with
        | ⟨0, _⟩ => exact absurd rfl hd
      · show 1024 + ((i 1).val - 1024) = (i 1).val
        omega
    · rename_i h2
      split
      · rename_i h3
        refine concatenate_apply_piece (0 : Fin 1) _ h (ix1 (i 1 : Fin 4096)) 2 (by show (2 : ℕ) < 4; omega) ⟨1, ![1024]⟩ bc rfl rfl 2048 rfl
          (ix1 (⟨(i 1).val - 2048, by omega⟩ : Fin 1024)) ?_ ?_
        · intro d hd
          match d with
          | ⟨0, _⟩ => exact absurd rfl hd
        · show 2048 + ((i 1).val - 2048) = (i 1).val
          omega
      · rename_i h3
        refine concatenate_apply_piece (0 : Fin 1) _ h (ix1 (i 1 : Fin 4096)) 3 (by show (3 : ℕ) < 4; omega) ⟨1, ![1024]⟩ bo rfl rfl 3072 rfl
          (ix1 (⟨(i 1).val - 3072, by omega⟩ : Fin 1024)) ?_ ?_
        · intro d hd
          match d with
          | ⟨0, _⟩ => exact absurd rfl hd
        · show 3072 + ((i 1).val - 3072) = (i 1).val
          omega

end Fused

/-! ## The host's stretches on any four weights and biases -/

section Stretches

/-- Four gate weights transposed, laid side by side and converted: the upper 1024 rows. -/
theorem hostFuseX (Wf Wi Wc Wo : Mat 1024 2048) :
    extractStridedSlice S1024x4096 ![0, 0]
        (truncf (F := Ideal) .bf16
          (concatenate S2048x4096 1
            [⟨S2048x1024, transpose S2048x1024 [1, 0] Wf transposes_S1024x2048_S2048x1024_1_0⟩,
             ⟨S2048x1024, transpose S2048x1024 [1, 0] Wi transposes_S1024x2048_S2048x1024_1_0⟩,
             ⟨S2048x1024, transpose S2048x1024 [1, 0] Wc transposes_S1024x2048_S2048x1024_1_0⟩,
             ⟨S2048x1024, transpose S2048x1024 [1, 0] Wo transposes_S1024x2048_S2048x1024_1_0⟩]
            concatenates_S2048x1024_S2048x1024_S2048x1024_S2048x1024_S2048x4096_d1)
          bitsLt_bf16_f32)
        slices_S2048x4096_S1024x4096_0_0
      = fuseX Wf Wi Wc Wo := by
  rw [slice_eq_rowsAt 1024 0 (by omega), truncf_id, transpose_eq_tr, transpose_eq_tr, transpose_eq_tr, transpose_eq_tr,
    concat_tr_eq_fuseT]
  rfl

/-- The same matrix's lower 1024 rows. -/
theorem hostFuseH (Wf Wi Wc Wo : Mat 1024 2048) :
    extractStridedSlice S1024x4096 ![1024, 0]
        (truncf (F := Ideal) .bf16
          (concatenate S2048x4096 1
            [⟨S2048x1024, transpose S2048x1024 [1, 0] Wf transposes_S1024x2048_S2048x1024_1_0⟩,
             ⟨S2048x1024, transpose S2048x1024 [1, 0] Wi transposes_S1024x2048_S2048x1024_1_0⟩,
             ⟨S2048x1024, transpose S2048x1024 [1, 0] Wc transposes_S1024x2048_S2048x1024_1_0⟩,
             ⟨S2048x1024, transpose S2048x1024 [1, 0] Wo transposes_S1024x2048_S2048x1024_1_0⟩]
            concatenates_S2048x1024_S2048x1024_S2048x1024_S2048x1024_S2048x4096_d1)
          bitsLt_bf16_f32)
        slices_S2048x4096_S1024x4096_1024_0
      = fuseH Wf Wi Wc Wo := by
  rw [slice_eq_rowsAt 1024 1024 (by omega), truncf_id, transpose_eq_tr, transpose_eq_tr, transpose_eq_tr, transpose_eq_tr,
    concat_tr_eq_fuseT]
  rfl

/-- Four gate biases laid end to end and reshaped to one row. -/
theorem hostFuseB (bf bi bc bo : RowV 1024) :
    shapeCast S1x4096
        (concatenate S4096 0 [⟨S1024, bf⟩, ⟨S1024, bi⟩, ⟨S1024, bc⟩, ⟨S1024, bo⟩] concatenates_S1024_S1024_S1024_S1024_S4096_d0)
        shapeCasts_S4096_S1x4096
      = fuseB bf bi bc bo := by
  rw [shapeCast_eq_asRow, asRow_concat_eq_fuseB]

end Stretches

/-! ## The arrays the three launches read, after the host operations -/

section Main
variable (W : Valuation τ sig (Elt Ideal))

/-- The first cell's weights on its input. -/
theorem v6_eq : (StableHlo.after (hostOps0 (F := Ideal)) W main_v6 : Mat 1024 4096)
    = fuseX (W main_arg5) (W main_arg7) (W main_arg9) (W main_arg11) := by
  have e : (StableHlo.after (hostOps0 (F := Ideal)) W (Proc.devRef .tc main_v6) : Mat 1024 4096)
      = extractStridedSlice S1024x4096 ![0, 0]
          (truncf (F := Ideal) .bf16
            (concatenate S2048x4096 1
              [⟨S2048x1024, transpose S2048x1024 [1, 0] (W main_arg5 : Mat 1024 2048) transposes_S1024x2048_S2048x1024_1_0⟩,
               ⟨S2048x1024, transpose S2048x1024 [1, 0] (W main_arg7 : Mat 1024 2048) transposes_S1024x2048_S2048x1024_1_0⟩,
               ⟨S2048x1024, transpose S2048x1024 [1, 0] (W main_arg9 : Mat 1024 2048) transposes_S1024x2048_S2048x1024_1_0⟩,
               ⟨S2048x1024, transpose S2048x1024 [1, 0] (W main_arg11 : Mat 1024 2048) transposes_S1024x2048_S2048x1024_1_0⟩]
              concatenates_S2048x1024_S2048x1024_S2048x1024_S2048x1024_S2048x4096_d1)
            bitsLt_bf16_f32)
          slices_S2048x4096_S1024x4096_0_0 := by
    simp only [hostOps0]; after_results; rfl
  exact e.trans (hostFuseX _ _ _ _)

/-- The first cell's weights on the previous hidden state. -/
theorem v7_eq : (StableHlo.after (hostOps0 (F := Ideal)) W main_v7 : Mat 1024 4096)
    = fuseH (W main_arg5) (W main_arg7) (W main_arg9) (W main_arg11) := by
  have e : (StableHlo.after (hostOps0 (F := Ideal)) W (Proc.devRef .tc main_v7) : Mat 1024 4096)
      = extractStridedSlice S1024x4096 ![1024, 0]
          (truncf (F := Ideal) .bf16
            (concatenate S2048x4096 1
              [⟨S2048x1024, transpose S2048x1024 [1, 0] (W main_arg5 : Mat 1024 2048) transposes_S1024x2048_S2048x1024_1_0⟩,
               ⟨S2048x1024, transpose S2048x1024 [1, 0] (W main_arg7 : Mat 1024 2048) transposes_S1024x2048_S2048x1024_1_0⟩,
               ⟨S2048x1024, transpose S2048x1024 [1, 0] (W main_arg9 : Mat 1024 2048) transposes_S1024x2048_S2048x1024_1_0⟩,
               ⟨S2048x1024, transpose S2048x1024 [1, 0] (W main_arg11 : Mat 1024 2048) transposes_S1024x2048_S2048x1024_1_0⟩]
              concatenates_S2048x1024_S2048x1024_S2048x1024_S2048x1024_S2048x4096_d1)
            bitsLt_bf16_f32)
          slices_S2048x4096_S1024x4096_1024_0 := by
    simp only [hostOps0]; after_results; rfl
  exact e.trans (hostFuseH _ _ _ _)

/-- The first cell's bias row. -/
theorem v9_eq : (StableHlo.after (hostOps0 (F := Ideal)) W main_v9 : Mat 1 4096)
    = fuseB (W main_arg6) (W main_arg8) (W main_arg10) (W main_arg12) := by
  have e : (StableHlo.after (hostOps0 (F := Ideal)) W (Proc.devRef .tc main_v9) : Mat 1 4096)
      = shapeCast S1x4096
          (concatenate S4096 0 [⟨S1024, (W main_arg6 : RowV 1024)⟩, ⟨S1024, (W main_arg8 : RowV 1024)⟩,
            ⟨S1024, (W main_arg10 : RowV 1024)⟩, ⟨S1024, (W main_arg12 : RowV 1024)⟩] concatenates_S1024_S1024_S1024_S1024_S4096_d0)
          shapeCasts_S4096_S1x4096 := by
    simp only [hostOps0]; after_results; rfl
  exact e.trans (hostFuseB _ _ _ _)

/-- The second cell's weights on its input. -/
theorem v16_eq : (StableHlo.after (hostOps0 (F := Ideal)) W main_v16 : Mat 1024 4096)
    = fuseX (W main_arg13) (W main_arg15) (W main_arg17) (W main_arg19) := by
  have e : (StableHlo.after (hostOps0 (F := Ideal)) W (Proc.devRef .tc main_v16) : Mat 1024 4096)
      = extractStridedSlice S1024x4096 ![0, 0]
          (truncf (F := Ideal) .bf16
            (concatenate S2048x4096 1
              [⟨S2048x1024, transpose S2048x1024 [1, 0] (W main_arg13 : Mat 1024 2048) transposes_S1024x2048_S2048x1024_1_0⟩,
               ⟨S2048x1024, transpose S2048x1024 [1, 0] (W main_arg15 : Mat 1024 2048) transposes_S1024x2048_S2048x1024_1_0⟩,
               ⟨S2048x1024, transpose S2048x1024 [1, 0] (W main_arg17 : Mat 1024 2048) transposes_S1024x2048_S2048x1024_1_0⟩,
               ⟨S2048x1024, transpose S2048x1024 [1, 0] (W main_arg19 : Mat 1024 2048) transposes_S1024x2048_S2048x1024_1_0⟩]
              concatenates_S2048x1024_S2048x1024_S2048x1024_S2048x1024_S2048x4096_d1)
            bitsLt_bf16_f32)
          slices_S2048x4096_S1024x4096_0_0 := by
    simp only [hostOps0]; after_results; rfl
  exact e.trans (hostFuseX _ _ _ _)

/-- The second cell's weights on the previous hidden state. -/
theorem v17_eq : (StableHlo.after (hostOps0 (F := Ideal)) W main_v17 : Mat 1024 4096)
    = fuseH (W main_arg13) (W main_arg15) (W main_arg17) (W main_arg19) := by
  have e : (StableHlo.after (hostOps0 (F := Ideal)) W (Proc.devRef .tc main_v17) : Mat 1024 4096)
      = extractStridedSlice S1024x4096 ![1024, 0]
          (truncf (F := Ideal) .bf16
            (concatenate S2048x4096 1
              [⟨S2048x1024, transpose S2048x1024 [1, 0] (W main_arg13 : Mat 1024 2048) transposes_S1024x2048_S2048x1024_1_0⟩,
               ⟨S2048x1024, transpose S2048x1024 [1, 0] (W main_arg15 : Mat 1024 2048) transposes_S1024x2048_S2048x1024_1_0⟩,
               ⟨S2048x1024, transpose S2048x1024 [1, 0] (W main_arg17 : Mat 1024 2048) transposes_S1024x2048_S2048x1024_1_0⟩,
               ⟨S2048x1024, transpose S2048x1024 [1, 0] (W main_arg19 : Mat 1024 2048) transposes_S1024x2048_S2048x1024_1_0⟩]
              concatenates_S2048x1024_S2048x1024_S2048x1024_S2048x1024_S2048x4096_d1)
            bitsLt_bf16_f32)
          slices_S2048x4096_S1024x4096_1024_0 := by
    simp only [hostOps0]; after_results; rfl
  exact e.trans (hostFuseH _ _ _ _)

/-- The second cell's bias row. -/
theorem v19_eq : (StableHlo.after (hostOps0 (F := Ideal)) W main_v19 : Mat 1 4096)
    = fuseB (W main_arg14) (W main_arg16) (W main_arg18) (W main_arg20) := by
  have e : (StableHlo.after (hostOps0 (F := Ideal)) W (Proc.devRef .tc main_v19) : Mat 1 4096)
      = shapeCast S1x4096
          (concatenate S4096 0 [⟨S1024, (W main_arg14 : RowV 1024)⟩, ⟨S1024, (W main_arg16 : RowV 1024)⟩,
            ⟨S1024, (W main_arg18 : RowV 1024)⟩, ⟨S1024, (W main_arg20 : RowV 1024)⟩] concatenates_S1024_S1024_S1024_S1024_S4096_d0)
          shapeCasts_S4096_S1x4096 := by
    simp only [hostOps0]; after_results; rfl
  exact e.trans (hostFuseB _ _ _ _)

/-- The head's first weight matrix, transposed. -/
theorem v21_eq : (StableHlo.after (hostOps0 (F := Ideal)) W main_v21 : Mat 1024 2048) = tr (W main_arg21) := by
  have e : (StableHlo.after (hostOps0 (F := Ideal)) W (Proc.devRef .tc main_v21) : Mat 1024 2048)
      = truncf (F := Ideal) .bf16
          (transpose S1024x2048 [1, 0] (W main_arg21 : Mat 2048 1024) transposes_S2048x1024_S1024x2048_1_0) bitsLt_bf16_f32 := by
    simp only [hostOps0]; after_results
  refine e.trans ?_
  rw [truncf_id, transpose_eq_tr]

/-- The head's first bias, as a one-row matrix. -/
theorem v22_eq : (StableHlo.after (hostOps0 (F := Ideal)) W main_v22 : Mat 1 2048) = asRow (W main_arg22) := by
  have e : (StableHlo.after (hostOps0 (F := Ideal)) W (Proc.devRef .tc main_v22) : Mat 1 2048)
      = shapeCast S1x2048 (W main_arg22 : RowV 2048) shapeCasts_S2048_S1x2048 := by
    simp only [hostOps0]; after_results; rfl
  exact e.trans (shapeCast_eq_asRow _ _)

/-- The head's second weight matrix, transposed. -/
theorem v24_eq : (StableHlo.after (hostOps0 (F := Ideal)) W main_v24 : Mat 2048 1024) = tr (W main_arg23) := by
  have e : (StableHlo.after (hostOps0 (F := Ideal)) W (Proc.devRef .tc main_v24) : Mat 2048 1024)
      = truncf (F := Ideal) .bf16
          (transpose S2048x1024 [1, 0] (W main_arg23 : Mat 1024 2048) transposes_S1024x2048_S2048x1024_1_0) bitsLt_bf16_f32 := by
    simp only [hostOps0]; after_results
  refine e.trans ?_
  rw [truncf_id, transpose_eq_tr]

/-- The head's second bias, as a one-row matrix. -/
theorem v25_eq : (StableHlo.after (hostOps0 (F := Ideal)) W main_v25 : Mat 1 1024) = asRow (W main_arg24) := by
  have e : (StableHlo.after (hostOps0 (F := Ideal)) W (Proc.devRef .tc main_v25) : Mat 1 1024)
      = shapeCast S1x1024 (W main_arg24 : RowV 1024) shapeCasts_S1024_S1x1024 := by
    simp only [hostOps0]; after_results; rfl
  exact e.trans (shapeCast_eq_asRow _ _)

/-! ## The arguments -/

/-- A reference none of the host's operations writes holds after them what it held before. -/
theorem arg_eq (r : Ref sig .tc) (h : r ∉ hostOps0_W) : StableHlo.after (hostOps0 (F := Ideal)) W r = W r :=
  StableHlo.after_of_writes_sub hostOps0 W hostOps0_writes h

theorem arg0_eq : StableHlo.after (hostOps0 (F := Ideal)) W main_arg0 = W main_arg0 := arg_eq W main_arg0 (by decide)
theorem arg1_eq : StableHlo.after (hostOps0 (F := Ideal)) W main_arg1 = W main_arg1 := arg_eq W main_arg1 (by decide)
theorem arg2_eq : StableHlo.after (hostOps0 (F := Ideal)) W main_arg2 = W main_arg2 := arg_eq W main_arg2 (by decide)
theorem arg3_eq : StableHlo.after (hostOps0 (F := Ideal)) W main_arg3 = W main_arg3 := arg_eq W main_arg3 (by decide)
theorem arg4_eq : StableHlo.after (hostOps0 (F := Ideal)) W main_arg4 = W main_arg4 := arg_eq W main_arg4 (by decide)

end Main

end Cert.KernelIdeal.HostValue

end
-- ==== Proof.KI.CellValue0.lean ====
/-
  The first LSTM cell's launch, read as a value: what its two result arrays hold after the 32 grid points, at the
  extended reals.

  One grid point computes, from 128-row blocks of x, h, c and the whole fused weights and bias row,
      gates = x_blk · Wx + h_blk · Wh + b                              (128 × 4096)
      h'    = σ(gates[:, 3072:4096]) · tanh (tanh (gates[:, 2048:3072]))
      c'    = σ(gates[:, 0:1024]) · c_blk + tanh (gates[:, 2048:3072]) · σ(gates[:, 1024:2048])
  First half: the body's two stored payloads are these functions of the blocks (`outH_eq`, `outC_eq`): a change of float
  format and a cast to the same shape are the identity, a block product into a zero accumulator is the matrix product,
  the one-row bias broadcast down the rows is the bias laid along every row, a unit-stride slice of 1024 columns is those
  columns, and the elementwise operations are the extended reals' entry by entry.
  Second half: at point `t` the batch operands' and the results' blocks are rows `128 t … 128 t + 127` of their arrays and
  the weights' and the bias's blocks are the whole arrays; the cell computes each row of its result from the same row of
  the batch operands, so what point `t` writes back is that band of the cell applied to the whole arrays; the bands of
  the 32 points cover the 4096 rows (row `r` lies in the band of point `r / 128`), so each result array ends holding the
  cell applied to the whole arrays (`arrH`, `arrC`).
-/
import proofs.«138999_j48885317763708_1_alg».proof.Proof.KI.Cell0
import proofs.«138999_j48885317763708_1_alg».proof.Proof.Spec
import Idealize.ShloMosaic.Lib.Pipeline.Value

set_option maxRecDepth 16384

noncomputable section

namespace Cert.KernelIdeal.CellValue0

open Cert.KernelIdeal Cert.KernelIdeal.Gen
open Idealize.ShloMosaic Idealize.ShloMosaic.TcCoe Idealize.ShloMosaic.ValueIdx Cert.Lib.Rowwise Cert.Spec
open Idealize.SL.Sem
open Idealize.ShloMosaic.Pipeline (Dat)

/-! ## The body's payloads -/

/-- The whole-buffer rectangle's offsets are zero. -/
theorem hz : (![0, 0] : Fin 2 → Nat) = fun _ => 0 := funext fun a => by fin_cases a <;> rfl

/-- A unit-stride slice of 1024 columns at column offset `o`, all rows kept, is those columns. -/
theorem slice_eq_colsAt {M : ℕ} (o : ℕ) (ho : o + 1024 ≤ 4096) (X : Mat M 4096)
    (h : (⟨2, ![M, 4096]⟩ : Shape).Slices ![0, o] ⟨2, ![M, 1024]⟩) :
    extractStridedSlice ⟨2, ![M, 1024]⟩ ![0, o] X h = colsAt 1024 o ho X := by
  funext j
  refine extractStridedSlice_apply _ X h j (ix2 (j 0 : Fin M) (⟨o + (j 1).val, by have := idx2_lt1 j; omega⟩ : Fin 4096)) fun a => ?_
  match a with
  | ⟨0, _⟩ => show (j 0).val = 0 + (j 0).val; omega
  | ⟨1, _⟩ => rfl

/-- The gates' pre-activations: two products into zero accumulators added, plus the bias row laid down the rows. -/
theorem pay1_eq (x h : Vec Ideal S128x1024 .f32) (wx wh : Vec Ideal S1024x4096 .bf16) (b : Vec Ideal S1x4096 .f32) :
    k0_pay1 (F := Ideal) x h wx wh b = gates (M := 128) x h wx wh b := by
  unfold k0_pay1
  dsimp only
  simp only [truncf_id, shapeCast_self]
  rw [matmul_eq_prod (M := 128) (K := 1024) (N := 4096) dot_S128x1024_S1024x4096_S128x4096_1_0_0_1_n_n rfl,
    matmul_eq_prod (M := 128) (K := 1024) (N := 4096) dot_S128x1024_S1024x4096_S128x4096_1_0_0_1_n_n rfl, broadcastTo_oneRow]
  rfl

/-- The candidate gate's columns through one hyperbolic tangent. -/
theorem pay2_eq (x h : Vec Ideal S128x1024 .f32) (wx wh : Vec Ideal S1024x4096 .bf16) (b : Vec Ideal S1x4096 .f32) :
    k0_pay2 (F := Ideal) x h wx wh b = tnh (colsAt 1024 2048 (by omega) (gates (M := 128) x h wx wh b)) := by
  unfold k0_pay2
  dsimp only
  rw [pay1_eq, slice_eq_colsAt 2048 (by omega)]
  rfl

/-- The first stored payload is the new hidden state of the blocks. -/
theorem pay3_eq (x h : Vec Ideal S128x1024 .f32) (wx wh : Vec Ideal S1024x4096 .bf16) (b : Vec Ideal S1x4096 .f32) :
    k0_pay3 (F := Ideal) x h wx wh b = cellH (M := 128) x h wx wh b := by
  unfold k0_pay3
  dsimp only
  rw [pay2_eq, pay1_eq, slice_eq_colsAt 3072 (by omega)]
  rfl

/-- The second stored payload is the new cell state of the blocks. -/
theorem pay4_eq (x h cc : Vec Ideal S128x1024 .f32) (wx wh : Vec Ideal S1024x4096 .bf16) (b : Vec Ideal S1x4096 .f32) :
    k0_pay4 (F := Ideal) x h wx wh b cc = cellC (M := 128) x h cc wx wh b := by
  unfold k0_pay4
  dsimp only
  rw [pay2_eq, pay1_eq, slice_eq_colsAt 0 (by omega), slice_eq_colsAt 1024 (by omega)]
  rfl

/-- The new hidden state's buffer after the body: one store of the whole buffer, every operand loaded whole. -/
theorem outH_eq (x h : Vec Ideal S128x1024 .f32) (wx wh : Vec Ideal S1024x4096 .bf16) (b : Vec Ideal S1x4096 .f32) :
    Cell0.outH (F := Ideal) x h wx wh b = Cert.Spec.cellH (M := 128) x h wx wh b := by
  unfold Cell0.outH
  rw [View.canon_unit_zero hz]
  simp only [View.ld_unit_zero (S := S128x1024) hz, View.ld_unit_zero (S := S1024x4096) hz, View.ld_unit_zero (S := S1x4096) hz]
  exact pay3_eq x h wx wh b

/-- The new cell state's buffer after the body. -/
theorem outC_eq (x h cc : Vec Ideal S128x1024 .f32) (wx wh : Vec Ideal S1024x4096 .bf16) (b : Vec Ideal S1x4096 .f32) :
    Cell0.outC (F := Ideal) x h cc wx wh b = Cert.Spec.cellC (M := 128) x h cc wx wh b := by
  unfold Cell0.outC
  rw [View.canon_unit_zero hz]
  simp only [View.ld_unit_zero (S := S128x1024) hz, View.ld_unit_zero (S := S1024x4096) hz, View.ld_unit_zero (S := S1x4096) hz]
  exact pay4_eq x h cc wx wh b

/-- The printed index maps over the grid: block index `(t, 0)` for the batch operands and the results, `(0, 0)` for the
    weights and the bias row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The blocks as bands of rows

Windows 0, 1, 2 (the batch operands) and 6, 7 (the results) have block index `(t, 0)` at point `t`: their block there is
rows `128 t … 128 t + 127` of the array. Windows 3, 4, 5 (the weights and the bias row) have block index `(0, 0)` and a
block of the array's own shape: their block is the whole array. -/

theorem lt32 (t : Fin cfg0.N) : t.val < 32 := lt_of_lt_of_eq t.isLt (N_0 : cfg0.N = 32)

theorem band_le (t : Fin cfg0.N) : 128 * t.val + 128 ≤ 4096 := by have := lt32 t; omega

theorem read_blk0 (t : Fin cfg0.N) (X : S4096x1024.Idx → EReal) :
    (((cfg0.win 0).blk t).view.read (Elt Ideal) X : S128x1024.Idx → EReal) = rowsAt 128 (128 * t.val) (band_le t) X := by
  funext j
  refine Eq.trans (show _ = X (((cfg0.win 0).blk t).view.emb j) from rfl) (congrArg X ?_)
  have e0 : win0_0.index t (0 : Fin 2) = t.val := by have := idx_facts t; tauto
  have e1 : win0_0.index t (1 : Fin 2) = 0 := by have := idx_facts t; tauto
  funext a; apply Fin.ext
  match a with
  | ⟨0, _⟩ => show win0_0.index t (0 : Fin 2) * 128 + 1 * (j 0).val = 128 * t.val + (j 0).val; rw [e0]; omega
  | ⟨1, _⟩ => show win0_0.index t (1 : Fin 2) * 1024 + 1 * (j 1).val = (j 1).val; rw [e1]; omega

theorem read_blk1 (t : Fin cfg0.N) (X : S4096x1024.Idx → EReal) :
    (((cfg0.win 1).blk t).view.read (Elt Ideal) X : S128x1024.Idx → EReal) = rowsAt 128 (128 * t.val) (band_le t) X := by
  funext j
  refine Eq.trans (show _ = X (((cfg0.win 1).blk t).view.emb j) from rfl) (congrArg X ?_)
  have e0 : win0_1.index t (0 : Fin 2) = t.val := by have := idx_facts t; tauto
  have e1 : win0_1.index t (1 : Fin 2) = 0 := by have := idx_facts t; tauto
  funext a; apply Fin.ext
  match a with
  | ⟨0, _⟩ => show win0_1.index t (0 : Fin 2) * 128 + 1 * (j 0).val = 128 * t.val + (j 0).val; rw [e0]; omega
  | ⟨1, _⟩ => show win0_1.index t (1 : Fin 2) * 1024 + 1 * (j 1).val = (j 1).val; rw [e1]; omega

theorem read_blk2 (t : Fin cfg0.N) (X : S4096x1024.Idx → EReal) :
    (((cfg0.win 2).blk t).view.read (Elt Ideal) X : S128x1024.Idx → EReal) = rowsAt 128 (128 * t.val) (band_le t) X := by
  funext j
  refine Eq.trans (show _ = X (((cfg0.win 2).blk t).view.emb j) from rfl) (congrArg X ?_)
  have e0 : win0_2.index t (0 : Fin 2) = t.val := by have := idx_facts t; tauto
  have e1 : win0_2.index t (1 : Fin 2) = 0 := by have := idx_facts t; tauto
  funext a; apply Fin.ext
  match a with
  | ⟨0, _⟩ => show win0_2.index t (0 : Fin 2) * 128 + 1 * (j 0).val = 128 * t.val + (j 0).val; rw [e0]; omega
  | ⟨1, _⟩ => show win0_2.index t (1 : Fin 2) * 1024 + 1 * (j 1).val = (j 1).val; rw [e1]; omega

theorem read_blk3 (t : Fin cfg0.N) (X : S1024x4096.Idx → EReal) :
    (((cfg0.win 3).blk t).view.read (Elt Ideal) X : S1024x4096.Idx → EReal) = X := by
  funext j
  refine Eq.trans (show _ = X (((cfg0.win 3).blk t).view.emb j) from rfl) (congrArg X ?_)
  have e0 : win0_3.index t (0 : Fin 2) = 0 := by have := idx_facts t; tauto
  have e1 : win0_3.index t (1 : Fin 2) = 0 := by have := idx_facts t; tauto
  funext a; apply Fin.ext
  match a with
  | ⟨0, _⟩ => show win0_3.index t (0 : Fin 2) * 1024 + 1 * (j 0).val = (j 0).val; rw [e0]; omega
  | ⟨1, _⟩ => show win0_3.index t (1 : Fin 2) * 4096 + 1 * (j 1).val = (j 1).val; rw [e1]; omega

theorem read_blk4 (t : Fin cfg0.N) (X : S1024x4096.Idx → EReal) :
    (((cfg0.win 4).blk t).view.read (Elt Ideal) X : S1024x4096.Idx → EReal) = X := by
  funext j
  refine Eq.trans (show _ = X (((cfg0.win 4).blk t).view.emb j) from rfl) (congrArg X ?_)
  have e0 : win0_4.index t (0 : Fin 2) = 0 := by have := idx_facts t; tauto
  have e1 : win0_4.index t (1 : Fin 2) = 0 := by have := idx_facts t; tauto
  funext a; apply Fin.ext
  match a with
  | ⟨0, _⟩ => show win0_4.index t (0 : Fin 2) * 1024 + 1 * (j 0).val = (j 0).val; rw [e0]; omega
  | ⟨1, _⟩ => show win0_4.index t (1 : Fin 2) * 4096 + 1 * (j 1).val = (j 1).val; rw [e1]; omega

theorem read_blk5 (t : Fin cfg0.N) (X : S1x4096.Idx → EReal) :
    (((cfg0.win 5).blk t).view.read (Elt Ideal) X : S1x4096.Idx → EReal) = X := by
  funext j
  refine Eq.trans (show _ = X (((cfg0.win 5).blk t).view.emb j) from rfl) (congrArg X ?_)
  have e0 : win0_5.index t (0 : Fin 2) = 0 := by have := idx_facts t; tauto
  have e1 : win0_5.index t (1 : Fin 2) = 0 := by have := idx_facts t; tauto
  funext a; apply Fin.ext
  match a with
  | ⟨0, _⟩ => show win0_5.index t (0 : Fin 2) * 1 + 1 * (j 0).val = (j 0).val; rw [e0]; omega
  | ⟨1, _⟩ => show win0_5.index t (1 : Fin 2) * 4096 + 1 * (j 1).val = (j 1).val; rw [e1]; omega

theorem read_blk6 (t : Fin cfg0.N) (X : S4096x1024.Idx → EReal) :
    (((cfg0.win 6).blk t).view.read (Elt Ideal) X : S128x1024.Idx → EReal) = rowsAt 128 (128 * t.val) (band_le t) X := by
  funext j
  refine Eq.trans (show _ = X (((cfg0.win 6).blk t).view.emb j) from rfl) (congrArg X ?_)
  have e0 : win0_6.index t (0 : Fin 2) = t.val := by have := idx_facts t; tauto
  have e1 : win0_6.index t (1 : Fin 2) = 0 := by have := idx_facts t; tauto
  funext a; apply Fin.ext
  match a with
  | ⟨0, _⟩ => show win0_6.index t (0 : Fin 2) * 128 + 1 * (j 0).val = 128 * t.val + (j 0).val; rw [e0]; omega
  | ⟨1, _⟩ => show win0_6.index t (1 : Fin 2) * 1024 + 1 * (j 1).val = (j 1).val; rw [e1]; omega

theorem read_blk7 (t : Fin cfg0.N) (X : S4096x1024.Idx → EReal) :
    (((cfg0.win 7).blk t).view.read (Elt Ideal) X : S128x1024.Idx → EReal) = rowsAt 128 (128 * t.val) (band_le t) X := by
  funext j
  refine Eq.trans (show _ = X (((cfg0.win 7).blk t).view.emb j) from rfl) (congrArg X ?_)
  have e0 : win0_7.index t (0 : Fin 2) = t.val := by have := idx_facts t; tauto
  have e1 : win0_7.index t (1 : Fin 2) = 0 := by have := idx_facts t; tauto
  funext a; apply Fin.ext
  match a with
  | ⟨0, _⟩ => show win0_7.index t (0 : Fin 2) * 128 + 1 * (j 0).val = 128 * t.val + (j 0).val; rw [e0]; omega
  | ⟨1, _⟩ => show win0_7.index t (1 : Fin 2) * 1024 + 1 * (j 1).val = (j 1).val; rw [e1]; omega

/-! ## What a point writes back -/

variable (V : (c : Dev nD) → (b : Ref sig .tc) → Buf (Elt Ideal) ((c : Thread nD τ).loc b))

/-- Point `t` writes back rows `128 t …` of the new hidden state computed on the whole arrays: the body's result on the
    bands is the band of the result. -/
theorem flushedH_eq (c : Dev nD) (t : Fin cfg0.N) :
    (Cell0.dat (F := Ideal) V c).flushed 6 t
      = ((cfg0.win 6).blk t).view.read (Elt Ideal)
          (cellH (M := 4096) (V c main_arg0) (V c main_arg1) (V c main_v6) (V c main_v7) (V c main_v9)) := by
  show (cfg0.win 6).cut (grid0.coords t) ((Cell0.dat V c).after 6 t) = _
  rw [Cell0.after_6, outH_eq]
  unfold Cell0.iblk
  rw [read_blk0, read_blk1, read_blk3, read_blk4, read_blk5, read_blk6]
  rfl

theorem flushedC_eq (c : Dev nD) (t : Fin cfg0.N) :
    (Cell0.dat (F := Ideal) V c).flushed 7 t
      = ((cfg0.win 7).blk t).view.read (Elt Ideal)
          (cellC (M := 4096) (V c main_arg0) (V c main_arg1) (V c main_arg3) (V c main_v6) (V c main_v7) (V c main_v9)) := by
  show (cfg0.win 7).cut (grid0.coords t) ((Cell0.dat V c).after 7 t) = _
  rw [Cell0.after_7, outC_eq]
  unfold Cell0.iblk
  rw [read_blk0, read_blk1, read_blk2, read_blk3, read_blk4, read_blk5, read_blk7]
  rfl

/-! ## The blocks cover the arrays: row `r` is in the block of point `r / 128` -/

/-- The point whose block holds row `r`. -/
def ptOf (i : S4096x1024.Idx) : Fin cfg0.N :=
  ⟨(i 0).val / 128, by have := idx2_lt0 i; rw [show cfg0.N = 32 from N_0]; omega⟩

theorem cover6 (i : S4096x1024.Idx) : ∃ t : Fin cfg0.N, (cfg0.win 6).flush t = true ∧ i ∈ ((cfg0.win 6).blk t).view.set := by
  have hi0 := idx2_lt0 i
  have hi1 := idx2_lt1 i
  have e0 : win0_6.index (ptOf i) (0 : Fin 2) = (i 0).val / 128 := by have := idx_facts (ptOf i); tauto
  have e1 : win0_6.index (ptOf i) (1 : Fin 2) = 0 := by have := idx_facts (ptOf i); tauto
  refine ⟨ptOf i, flush0_6 _, ?_⟩
  have hs : ((cfg0.win 6).blk (ptOf i)).view.set = (win0_6.rect (ptOf i)).set := View.set_slice_whole _ _
  rw [hs, Rect.mem_set_unit]
  intro a
  match a with
  | ⟨0, _⟩ => show win0_6.index (ptOf i) (0 : Fin 2) * 128 ≤ (i 0).val ∧ (i 0).val < win0_6.index (ptOf i) (0 : Fin 2) * 128 + 128; rw [e0]; omega
  | ⟨1, _⟩ => show win0_6.index (ptOf i) (1 : Fin 2) * 1024 ≤ (i 1).val ∧ (i 1).val < win0_6.index (ptOf i) (1 : Fin 2) * 1024 + 1024; rw [e1]; omega

theorem cover7 (i : S4096x1024.Idx) : ∃ t : Fin cfg0.N, (cfg0.win 7).flush t = true ∧ i ∈ ((cfg0.win 7).blk t).view.set := by
  have hi0 := idx2_lt0 i
  have hi1 := idx2_lt1 i
  have e0 : win0_7.index (ptOf i) (0 : Fin 2) = (i 0).val / 128 := by have := idx_facts (ptOf i); tauto
  have e1 : win0_7.index (ptOf i) (1 : Fin 2) = 0 := by have := idx_facts (ptOf i); tauto
  refine ⟨ptOf i, flush0_7 _, ?_⟩
  have hs : ((cfg0.win 7).blk (ptOf i)).view.set = (win0_7.rect (ptOf i)).set := View.set_slice_whole _ _
  rw [hs, Rect.mem_set_unit]
  intro a
  match a with
  | ⟨0, _⟩ => show win0_7.index (ptOf i) (0 : Fin 2) * 128 ≤ (i 0).val ∧ (i 0).val < win0_7.index (ptOf i) (0 : Fin 2) * 128 + 128; rw [e0]; omega
  | ⟨1, _⟩ => show win0_7.index (ptOf i) (1 : Fin 2) * 1024 ≤ (i 1).val ∧ (i 1).val < win0_7.index (ptOf i) (1 : Fin 2) * 1024 + 1024; rw [e1]; omega

/-! ## The arrays after the launch -/

/-- The new hidden state's array after the 32 points: the cell's new hidden state on the whole batch. -/
theorem arrH (c : Dev nD) :
    (Cell0.dat (F := Ideal) V c).arrAt 6 cfg0.N
      = Cert.Spec.cellH (M := 4096) (V c main_arg0) (V c main_arg1) (V c main_v6) (V c main_v7) (V c main_v9) :=
  (Cell0.dat (F := Ideal) V c).arrAt_eq_of_cover 6 _ (fun t _ => flushedH_eq V c t) cover6

/-- The new cell state's array after the 32 points: the cell's new cell state on the whole batch. -/
theorem arrC (c : Dev nD) :
    (Cell0.dat (F := Ideal) V c).arrAt 7 cfg0.N
      = Cert.Spec.cellC (M := 4096) (V c main_arg0) (V c main_arg1) (V c main_arg3) (V c main_v6) (V c main_v7) (V c main_v9) :=
  (Cell0.dat (F := Ideal) V c).arrAt_eq_of_cover 7 _ (fun t _ => flushedC_eq V c t) cover7

end Cert.KernelIdeal.CellValue0

end
-- ==== Proof.KI.CellValue1.lean ====
/-
  The second LSTM cell's launch, read as a value: what its two result arrays hold after the 32 grid points, at the
  extended reals.

  One grid point computes, from 128-row blocks of x, h, c and the whole fused weights and bias row,
      gates = x_blk · Wx + h_blk · Wh + b                              (128 × 4096)
      h'    = σ(gates[:, 3072:4096]) · tanh (tanh (gates[:, 2048:3072]))
      c'    = σ(gates[:, 0:1024]) · c_blk + tanh (gates[:, 2048:3072]) · σ(gates[:, 1024:2048])
  First half: the body's two stored payloads are these functions of the blocks (`outH_eq`, `outC_eq`): a change of float
  format and a cast to the same shape are the identity, a block product into a zero accumulator is the matrix product,
  the one-row bias broadcast down the rows is the bias laid along every row, a unit-stride slice of 1024 columns is those
  columns, and the elementwise operations are the extended reals' entry by entry.
  Second half: at point `t` the batch operands' and the results' blocks are rows `128 t … 128 t + 127` of their arrays and
  the weights' and the bias's blocks are the whole arrays; the cell computes each row of its result from the same row of
  the batch operands, so what point `t` writes back is that band of the cell applied to the whole arrays; the bands of
  the 32 points cover the 4096 rows (row `r` lies in the band of point `r / 128`), so each result array ends holding the
  cell applied to the whole arrays (`arrH`, `arrC`).
-/
import proofs.«138999_j48885317763708_1_alg».proof.Proof.KI.Cell1
import proofs.«138999_j48885317763708_1_alg».proof.Proof.Spec
import Idealize.ShloMosaic.Lib.Pipeline.Value

set_option maxRecDepth 16384

noncomputable section

namespace Cert.KernelIdeal.CellValue1

open Cert.KernelIdeal Cert.KernelIdeal.Gen
open Idealize.ShloMosaic Idealize.ShloMosaic.TcCoe Idealize.ShloMosaic.ValueIdx Cert.Lib.Rowwise Cert.Spec
open Idealize.SL.Sem
open Idealize.ShloMosaic.Pipeline (Dat)

/-! ## The body's payloads -/

/-- The whole-buffer rectangle's offsets are zero. -/
theorem hz : (![0, 0] : Fin 2 → Nat) = fun _ => 0 := funext fun a => by fin_cases a <;> rfl

/-- A unit-stride slice of 1024 columns at column offset `o`, all rows kept, is those columns. -/
theorem slice_eq_colsAt {M : ℕ} (o : ℕ) (ho : o + 1024 ≤ 4096) (X : Mat M 4096)
    (h : (⟨2, ![M, 4096]⟩ : Shape).Slices ![0, o] ⟨2, ![M, 1024]⟩) :
    extractStridedSlice ⟨2, ![M, 1024]⟩ ![0, o] X h = colsAt 1024 o ho X := by
  funext j
  refine extractStridedSlice_apply _ X h j (ix2 (j 0 : Fin M) (⟨o + (j 1).val, by have := idx2_lt1 j; omega⟩ : Fin 4096)) fun a => ?_
  match a with
  | ⟨0, _⟩ => show (j 0).val = 0 + (j 0).val; omega
  | ⟨1, _⟩ => rfl

/-- The gates' pre-activations: two products into zero accumulators added, plus the bias row laid down the rows. -/
theorem pay1_eq (x h : Vec Ideal S128x1024 .f32) (wx wh : Vec Ideal S1024x4096 .bf16) (b : Vec Ideal S1x4096 .f32) :
    k1_pay1 (F := Ideal) x h wx wh b = gates (M := 128) x h wx wh b := by
  unfold k1_pay1
  dsimp only
  simp only [truncf_id, shapeCast_self]
  rw [matmul_eq_prod (M := 128) (K := 1024) (N := 4096) dot_S128x1024_S1024x4096_S128x4096_1_0_0_1_n_n rfl,
    matmul_eq_prod (M := 128) (K := 1024) (N := 4096) dot_S128x1024_S1024x4096_S128x4096_1_0_0_1_n_n rfl, broadcastTo_oneRow]
  rfl

/-- The candidate gate's columns through one hyperbolic tangent. -/
theorem pay2_eq (x h : Vec Ideal S128x1024 .f32) (wx wh : Vec Ideal S1024x4096 .bf16) (b : Vec Ideal S1x4096 .f32) :
    k1_pay2 (F := Ideal) x h wx wh b = tnh (colsAt 1024 2048 (by omega) (gates (M := 128) x h wx wh b)) := by
  unfold k1_pay2
  dsimp only
  rw [pay1_eq, slice_eq_colsAt 2048 (by omega)]
  rfl

/-- The first stored payload is the new hidden state of the blocks. -/
theorem pay3_eq (x h : Vec Ideal S128x1024 .f32) (wx wh : Vec Ideal S1024x4096 .bf16) (b : Vec Ideal S1x4096 .f32) :
    k1_pay3 (F := Ideal) x h wx wh b = cellH (M := 128) x h wx wh b := by
  unfold k1_pay3
  dsimp only
  rw [pay2_eq, pay1_eq, slice_eq_colsAt 3072 (by omega)]
  rfl

/-- The second stored payload is the new cell state of the blocks. -/
theorem pay4_eq (x h cc : Vec Ideal S128x1024 .f32) (wx wh : Vec Ideal S1024x4096 .bf16) (b : Vec Ideal S1x4096 .f32) :
    k1_pay4 (F := Ideal) x h wx wh b cc = cellC (M := 128) x h cc wx wh b := by
  unfold k1_pay4
  dsimp only
  rw [pay2_eq, pay1_eq, slice_eq_colsAt 0 (by omega), slice_eq_colsAt 1024 (by omega)]
  rfl

/-- The new hidden state's buffer after the body: one store of the whole buffer, every operand loaded whole. -/
theorem outH_eq (x h : Vec Ideal S128x1024 .f32) (wx wh : Vec Ideal S1024x4096 .bf16) (b : Vec Ideal S1x4096 .f32) :
    Cell1.outH (F := Ideal) x h wx wh b = Cert.Spec.cellH (M := 128) x h wx wh b := by
  unfold Cell1.outH
  rw [View.canon_unit_zero hz]
  simp only [View.ld_unit_zero (S := S128x1024) hz, View.ld_unit_zero (S := S1024x4096) hz, View.ld_unit_zero (S := S1x4096) hz]
  exact pay3_eq x h wx wh b

/-- The new cell state's buffer after the body. -/
theorem outC_eq (x h cc : Vec Ideal S128x1024 .f32) (wx wh : Vec Ideal S1024x4096 .bf16) (b : Vec Ideal S1x4096 .f32) :
    Cell1.outC (F := Ideal) x h cc wx wh b = Cert.Spec.cellC (M := 128) x h cc wx wh b := by
  unfold Cell1.outC
  rw [View.canon_unit_zero hz]
  simp only [View.ld_unit_zero (S := S128x1024) hz, View.ld_unit_zero (S := S1024x4096) hz, View.ld_unit_zero (S := S1x4096) hz]
  exact pay4_eq x h cc wx wh b

/-- The printed index maps over the grid: block index `(t, 0)` for the batch operands and the results, `(0, 0)` for the
    weights and the bias row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## The blocks as bands of rows

Windows 0, 1, 2 (the batch operands) and 6, 7 (the results) have block index `(t, 0)` at point `t`: their block there is
rows `128 t … 128 t + 127` of the array. Windows 3, 4, 5 (the weights and the bias row) have block index `(0, 0)` and a
block of the array's own shape: their block is the whole array. -/

theorem lt32 (t : Fin cfg1.N) : t.val < 32 := lt_of_lt_of_eq t.isLt (N_1 : cfg1.N = 32)

theorem band_le (t : Fin cfg1.N) : 128 * t.val + 128 ≤ 4096 := by have := lt32 t; omega

theorem read_blk0 (t : Fin cfg1.N) (X : S4096x1024.Idx → EReal) :
    (((cfg1.win 0).blk t).view.read (Elt Ideal) X : S128x1024.Idx → EReal) = rowsAt 128 (128 * t.val) (band_le t) X := by
  funext j
  refine Eq.trans (show _ = X (((cfg1.win 0).blk t).view.emb j) from rfl) (congrArg X ?_)
  have e0 : win1_0.index t (0 : Fin 2) = t.val := by have := idx_facts t; tauto
  have e1 : win1_0.index t (1 : Fin 2) = 0 := by have := idx_facts t; tauto
  funext a; apply Fin.ext
  match a with
  | ⟨0, _⟩ => show win1_0.index t (0 : Fin 2) * 128 + 1 * (j 0).val = 128 * t.val + (j 0).val; rw [e0]; omega
  | ⟨1, _⟩ => show win1_0.index t (1 : Fin 2) * 1024 + 1 * (j 1).val = (j 1).val; rw [e1]; omega

theorem read_blk1 (t : Fin cfg1.N) (X : S4096x1024.Idx → EReal) :
    (((cfg1.win 1).blk t).view.read (Elt Ideal) X : S128x1024.Idx → EReal) = rowsAt 128 (128 * t.val) (band_le t) X := by
  funext j
  refine Eq.trans (show _ = X (((cfg1.win 1).blk t).view.emb j) from rfl) (congrArg X ?_)
  have e0 : win1_1.index t (0 : Fin 2) = t.val := by have := idx_facts t; tauto
  have e1 : win1_1.index t (1 : Fin 2) = 0 := by have := idx_facts t; tauto
  funext a; apply Fin.ext
  match a with
  | ⟨0, _⟩ => show win1_1.index t (0 : Fin 2) * 128 + 1 * (j 0).val = 128 * t.val + (j 0).val; rw [e0]; omega
  | ⟨1, _⟩ => show win1_1.index t (1 : Fin 2) * 1024 + 1 * (j 1).val = (j 1).val; rw [e1]; omega

theorem read_blk2 (t : Fin cfg1.N) (X : S4096x1024.Idx → EReal) :
    (((cfg1.win 2).blk t).view.read (Elt Ideal) X : S128x1024.Idx → EReal) = rowsAt 128 (128 * t.val) (band_le t) X := by
  funext j
  refine Eq.trans (show _ = X (((cfg1.win 2).blk t).view.emb j) from rfl) (congrArg X ?_)
  have e0 : win1_2.index t (0 : Fin 2) = t.val := by have := idx_facts t; tauto
  have e1 : win1_2.index t (1 : Fin 2) = 0 := by have := idx_facts t; tauto
  funext a; apply Fin.ext
  match a with
  | ⟨0, _⟩ => show win1_2.index t (0 : Fin 2) * 128 + 1 * (j 0).val = 128 * t.val + (j 0).val; rw [e0]; omega
  | ⟨1, _⟩ => show win1_2.index t (1 : Fin 2) * 1024 + 1 * (j 1).val = (j 1).val; rw [e1]; omega

theorem read_blk3 (t : Fin cfg1.N) (X : S1024x4096.Idx → EReal) :
    (((cfg1.win 3).blk t).view.read (Elt Ideal) X : S1024x4096.Idx → EReal) = X := by
  funext j
  refine Eq.trans (show _ = X (((cfg1.win 3).blk t).view.emb j) from rfl) (congrArg X ?_)
  have e0 : win1_3.index t (0 : Fin 2) = 0 := by have := idx_facts t; tauto
  have e1 : win1_3.index t (1 : Fin 2) = 0 := by have := idx_facts t; tauto
  funext a; apply Fin.ext
  match a with
  | ⟨0, _⟩ => show win1_3.index t (0 : Fin 2) * 1024 + 1 * (j 0).val = (j 0).val; rw [e0]; omega
  | ⟨1, _⟩ => show win1_3.index t (1 : Fin 2) * 4096 + 1 * (j 1).val = (j 1).val; rw [e1]; omega

theorem read_blk4 (t : Fin cfg1.N) (X : S1024x4096.Idx → EReal) :
    (((cfg1.win 4).blk t).view.read (Elt Ideal) X : S1024x4096.Idx → EReal) = X := by
  funext j
  refine Eq.trans (show _ = X (((cfg1.win 4).blk t).view.emb j) from rfl) (congrArg X ?_)
  have e0 : win1_4.index t (0 : Fin 2) = 0 := by have := idx_facts t; tauto
  have e1 : win1_4.index t (1 : Fin 2) = 0 := by have := idx_facts t; tauto
  funext a; apply Fin.ext
  match a with
  | ⟨0, _⟩ => show win1_4.index t (0 : Fin 2) * 1024 + 1 * (j 0).val = (j 0).val; rw [e0]; omega
  | ⟨1, _⟩ => show win1_4.index t (1 : Fin 2) * 4096 + 1 * (j 1).val = (j 1).val; rw [e1]; omega

theorem read_blk5 (t : Fin cfg1.N) (X : S1x4096.Idx → EReal) :
    (((cfg1.win 5).blk t).view.read (Elt Ideal) X : S1x4096.Idx → EReal) = X := by
  funext j
  refine Eq.trans (show _ = X (((cfg1.win 5).blk t).view.emb j) from rfl) (congrArg X ?_)
  have e0 : win1_5.index t (0 : Fin 2) = 0 := by have := idx_facts t; tauto
  have e1 : win1_5.index t (1 : Fin 2) = 0 := by have := idx_facts t; tauto
  funext a; apply Fin.ext
  match a with
  | ⟨0, _⟩ => show win1_5.index t (0 : Fin 2) * 1 + 1 * (j 0).val = (j 0).val; rw [e0]; omega
  | ⟨1, _⟩ => show win1_5.index t (1 : Fin 2) * 4096 + 1 * (j 1).val = (j 1).val; rw [e1]; omega

theorem read_blk6 (t : Fin cfg1.N) (X : S4096x1024.Idx → EReal) :
    (((cfg1.win 6).blk t).view.read (Elt Ideal) X : S128x1024.Idx → EReal) = rowsAt 128 (128 * t.val) (band_le t) X := by
  funext j
  refine Eq.trans (show _ = X (((cfg1.win 6).blk t).view.emb j) from rfl) (congrArg X ?_)
  have e0 : win1_6.index t (0 : Fin 2) = t.val := by have := idx_facts t; tauto
  have e1 : win1_6.index t (1 : Fin 2) = 0 := by have := idx_facts t; tauto
  funext a; apply Fin.ext
  match a with
  | ⟨0, _⟩ => show win1_6.index t (0 : Fin 2) * 128 + 1 * (j 0).val = 128 * t.val + (j 0).val; rw [e0]; omega
  | ⟨1, _⟩ => show win1_6.index t (1 : Fin 2) * 1024 + 1 * (j 1).val = (j 1).val; rw [e1]; omega

theorem read_blk7 (t : Fin cfg1.N) (X : S4096x1024.Idx → EReal) :
    (((cfg1.win 7).blk t).view.read (Elt Ideal) X : S128x1024.Idx → EReal) = rowsAt 128 (128 * t.val) (band_le t) X := by
  funext j
  refine Eq.trans (show _ = X (((cfg1.win 7).blk t).view.emb j) from rfl) (congrArg X ?_)
  have e0 : win1_7.index t (0 : Fin 2) = t.val := by have := idx_facts t; tauto
  have e1 : win1_7.index t (1 : Fin 2) = 0 := by have := idx_facts t; tauto
  funext a; apply Fin.ext
  match a with
  | ⟨0, _⟩ => show win1_7.index t (0 : Fin 2) * 128 + 1 * (j 0).val = 128 * t.val + (j 0).val; rw [e0]; omega
  | ⟨1, _⟩ => show win1_7.index t (1 : Fin 2) * 1024 + 1 * (j 1).val = (j 1).val; rw [e1]; omega

/-! ## What a point writes back -/

variable (V : (c : Dev nD) → (b : Ref sig .tc) → Buf (Elt Ideal) ((c : Thread nD τ).loc b))

/-- Point `t` writes back rows `128 t …` of the new hidden state computed on the whole arrays: the body's result on the
    bands is the band of the result. -/
theorem flushedH_eq (c : Dev nD) (t : Fin cfg1.N) :
    (Cell1.dat (F := Ideal) V c).flushed 6 t
      = ((cfg1.win 6).blk t).view.read (Elt Ideal)
          (cellH (M := 4096) (V c main_v26_0) (V c main_arg2) (V c main_v16) (V c main_v17) (V c main_v19)) := by
  show (cfg1.win 6).cut (grid1.coords t) ((Cell1.dat V c).after 6 t) = _
  rw [Cell1.after_6, outH_eq]
  unfold Cell1.iblk
  rw [read_blk0, read_blk1, read_blk3, read_blk4, read_blk5, read_blk6]
  rfl

theorem flushedC_eq (c : Dev nD) (t : Fin cfg1.N) :
    (Cell1.dat (F := Ideal) V c).flushed 7 t
      = ((cfg1.win 7).blk t).view.read (Elt Ideal)
          (cellC (M := 4096) (V c main_v26_0) (V c main_arg2) (V c main_arg4) (V c main_v16) (V c main_v17) (V c main_v19)) := by
  show (cfg1.win 7).cut (grid1.coords t) ((Cell1.dat V c).after 7 t) = _
  rw [Cell1.after_7, outC_eq]
  unfold Cell1.iblk
  rw [read_blk0, read_blk1, read_blk2, read_blk3, read_blk4, read_blk5, read_blk7]
  rfl

/-! ## The blocks cover the arrays: row `r` is in the block of point `r / 128` -/

/-- The point whose block holds row `r`. -/
def ptOf (i : S4096x1024.Idx) : Fin cfg1.N :=
  ⟨(i 0).val / 128, by have := idx2_lt0 i; rw [show cfg1.N = 32 from N_1]; omega⟩

theorem cover6 (i : S4096x1024.Idx) : ∃ t : Fin cfg1.N, (cfg1.win 6).flush t = true ∧ i ∈ ((cfg1.win 6).blk t).view.set := by
  have hi0 := idx2_lt0 i
  have hi1 := idx2_lt1 i
  have e0 : win1_6.index (ptOf i) (0 : Fin 2) = (i 0).val / 128 := by have := idx_facts (ptOf i); tauto
  have e1 : win1_6.index (ptOf i) (1 : Fin 2) = 0 := by have := idx_facts (ptOf i); tauto
  refine ⟨ptOf i, flush1_6 _, ?_⟩
  have hs : ((cfg1.win 6).blk (ptOf i)).view.set = (win1_6.rect (ptOf i)).set := View.set_slice_whole _ _
  rw [hs, Rect.mem_set_unit]
  intro a
  match a with
  | ⟨0, _⟩ => show win1_6.index (ptOf i) (0 : Fin 2) * 128 ≤ (i 0).val ∧ (i 0).val < win1_6.index (ptOf i) (0 : Fin 2) * 128 + 128; rw [e0]; omega
  | ⟨1, _⟩ => show win1_6.index (ptOf i) (1 : Fin 2) * 1024 ≤ (i 1).val ∧ (i 1).val < win1_6.index (ptOf i) (1 : Fin 2) * 1024 + 1024; rw [e1]; omega

theorem cover7 (i : S4096x1024.Idx) : ∃ t : Fin cfg1.N, (cfg1.win 7).flush t = true ∧ i ∈ ((cfg1.win 7).blk t).view.set := by
  have hi0 := idx2_lt0 i
  have hi1 := idx2_lt1 i
  have e0 : win1_7.index (ptOf i) (0 : Fin 2) = (i 0).val / 128 := by have := idx_facts (ptOf i); tauto
  have e1 : win1_7.index (ptOf i) (1 : Fin 2) = 0 := by have := idx_facts (ptOf i); tauto
  refine ⟨ptOf i, flush1_7 _, ?_⟩
  have hs : ((cfg1.win 7).blk (ptOf i)).view.set = (win1_7.rect (ptOf i)).set := View.set_slice_whole _ _
  rw [hs, Rect.mem_set_unit]
  intro a
  match a with
  | ⟨0, _⟩ => show win1_7.index (ptOf i) (0 : Fin 2) * 128 ≤ (i 0).val ∧ (i 0).val < win1_7.index (ptOf i) (0 : Fin 2) * 128 + 128; rw [e0]; omega
  | ⟨1, _⟩ => show win1_7.index (ptOf i) (1 : Fin 2) * 1024 ≤ (i 1).val ∧ (i 1).val < win1_7.index (ptOf i) (1 : Fin 2) * 1024 + 1024; rw [e1]; omega

/-! ## The arrays after the launch -/

/-- The new hidden state's array after the 32 points: the cell's new hidden state on the whole batch. -/
theorem arrH (c : Dev nD) :
    (Cell1.dat (F := Ideal) V c).arrAt 6 cfg1.N
      = Cert.Spec.cellH (M := 4096) (V c main_v26_0) (V c main_arg2) (V c main_v16) (V c main_v17) (V c main_v19) :=
  (Cell1.dat (F := Ideal) V c).arrAt_eq_of_cover 6 _ (fun t _ => flushedH_eq V c t) cover6

/-- The new cell state's array after the 32 points: the cell's new cell state on the whole batch. -/
theorem arrC (c : Dev nD) :
    (Cell1.dat (F := Ideal) V c).arrAt 7 cfg1.N
      = Cert.Spec.cellC (M := 4096) (V c main_v26_0) (V c main_arg2) (V c main_arg4) (V c main_v16) (V c main_v17) (V c main_v19) :=
  (Cell1.dat (F := Ideal) V c).arrAt_eq_of_cover 7 _ (fun t _ => flushedC_eq V c t) cover7

end Cert.KernelIdeal.CellValue1

end
-- ==== Proof.KI.HeadValue.lean ====
/-
  The head's launch, read as a value at the extended reals.

  The body at one grid point stores, into the result's whole staging buffer,
      relu (h_blk · W3ᵀ + b3) · W4ᵀ + b4
  of the blocks it loaded: the changes of float format and the same-shape casts are the identity, a block product into a
  zero accumulator is the matrix product, a one-row bias broadcast down the rows is that row laid along every row, and the
  entrywise maximum with the zero splat is the positive part. So the buffer holds `Spec.head` of the blocks (`outY_eq`).

  At point `t` the hidden state's block is rows `512 t … 512 t + 511` of its array and every other operand's block is its
  whole array; the head treats every row alike, so what the point writes back is rows `512 t … 512 t + 511` of the head of
  the whole arrays. Row `r` of the result is written by point `r / 512`, hence after the eight points the result's array
  holds the head of the whole arrays (`arrY`).
-/
import proofs.«138999_j48885317763708_1_alg».proof.Proof.KI.Head
import proofs.«138999_j48885317763708_1_alg».proof.Proof.Spec
import Idealize.ShloMosaic.Lib.Pipeline.Value
import Idealize.ShloMosaic.Lib.ValueIdx
import Idealize.ShloMosaic.PureOps.Ideal.Laws

noncomputable section

namespace Cert.KernelIdeal.HeadValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Lib.Rowwise

/-! ## The body's store -/

/-- The offsets of every rectangle the body reads or writes through are zero. -/
theorem hz : (![0, 0] : Fin 2 → Nat) = fun _ => 0 := funext fun a => by fin_cases a <;> rfl

/-- The entrywise maximum with the zero splat is the positive part. -/
theorem maximumf_zero_eq_relu {M N : ℕ} (x : Mat M N) :
    maximumf (F := Ideal) (φ := .f32) x (broadcast ⟨2, ![M, N]⟩ (Scalar.ofBits (F := Ideal) .f32 0x00000000#32))
      = Cert.Spec.relu x := by
  funext i
  show max (x i) (Ideal.ofBits .f32 0x00000000#32) = max (x i) 0
  rw [Ideal.ofBits_zero_f32]

/-- The body's payload is the head on its loaded blocks. -/
theorem pay_eq (h : Vec Ideal S512x1024 .f32) (w3 : Vec Ideal S1024x2048 .bf16) (b3 : Vec Ideal S1x2048 .f32)
    (w4 : Vec Ideal S2048x1024 .bf16) (b4 : Vec Ideal S1x1024 .f32) :
    k2_pay1 (F := Ideal) h w3 b3 w4 b4 = Cert.Spec.head (M := 512) h w3 b3 w4 b4 := by
  unfold k2_pay1
  dsimp only
  simp only [shapeCast_self]
  rw [truncf_id, truncf_id]
  rw [matmul_eq_prod dot_S512x1024_S1024x2048_S512x2048_1_0_0_1_n_n rfl, broadcastTo_oneRow, addf_eq_hadd,
    maximumf_zero_eq_relu, matmul_eq_prod dot_S512x2048_S2048x1024_S512x1024_1_0_0_1_n_n rfl, broadcastTo_oneRow,
    addf_eq_hadd]
  rfl

/-- What the body leaves in the result's staging buffer is the head on the blocks read. -/
theorem outY_eq (h : Vec Ideal S512x1024 .f32) (w3 : Vec Ideal S1024x2048 .bf16) (b3 : Vec Ideal S1x2048 .f32)
    (w4 : Vec Ideal S2048x1024 .bf16) (b4 : Vec Ideal S1x1024 .f32) :
    Head.outY (F := Ideal) h w3 b3 w4 b4 = Cert.Spec.head (M := 512) h w3 b3 w4 b4 := by
  unfold Head.outY
  rw [View.canon_unit_zero hz]
  rw [View.ld_unit_zero (S := S512x1024) hz, View.ld_unit_zero (S := S1024x2048) hz, View.ld_unit_zero (S := S1x2048) hz,
    View.ld_unit_zero (S := S2048x1024) hz, View.ld_unit_zero (S := S1x1024) hz]
  exact pay_eq h w3 b3 w4 b4

/-! ## The blocks at a point -/

variable (V : (c : Dev nD) → (b : Ref sig .tc) → Buf (Elt Ideal) ((c : Thread nD τ).loc b))

/-- The block indices over the grid: the hidden state's and the result's block move with the point, the weights' and
    the biases' stay at the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has eight points. -/
theorem t_lt (t : Fin cfg2.N) : t.val < 8 := lt_of_lt_of_eq t.isLt N_2

/-- A point's band of 512 rows lies inside the 4096 rows. -/
theorem band_le (t : Fin cfg2.N) : 512 * t.val + 512 ≤ 4096 := by have := t_lt t; omega

/-- The hidden state's block at point `t` is rows `512 t … 512 t + 511` of its array. -/
theorem iblk_0 (c : Dev nD) (t : Fin cfg2.N) :
    (Head.iblk V c 0 t : Vec Ideal S512x1024 .f32)
      = rowsAt 512 (512 * t.val) (band_le t) (V c main_v27_0 : Vec Ideal S4096x1024 .f32) := by
  obtain ⟨e0, e1, -⟩ := idx_facts t
  funext x
  unfold Head.iblk
  rw [View.read_apply]
  show V c main_v27_0 (((cfg2.win 0).blk t).view.emb x) = V c main_v27_0 _
  congr 1
  funext a
  apply Fin.ext
  match a with
  | ⟨0, _⟩ => show win2_0.index t (0 : Fin 2) * 512 + 1 * (x 0).val = 512 * t.val + (x 0).val; rw [e0]; omega
  | ⟨1, _⟩ => show win2_0.index t (1 : Fin 2) * 1024 + 1 * (x 1).val = (x 1).val; rw [e1]; omega

/-- The first weight matrix's block at every point is the whole matrix. -/
theorem iblk_1 (c : Dev nD) (t : Fin cfg2.N) :
    (Head.iblk V c 1 t : Vec Ideal S1024x2048 .bf16) = (V c main_v21 : Vec Ideal S1024x2048 .bf16) := by
  obtain ⟨-, -, e0, e1, -⟩ := idx_facts t
  funext x
  unfold Head.iblk
  rw [View.read_apply]
  show V c main_v21 (((cfg2.win 1).blk t).view.emb x) = V c main_v21 x
  congr 1
  funext a
  apply Fin.ext
  match a with
  | ⟨0, _⟩ => show win2_1.index t (0 : Fin 2) * 1024 + 1 * (x 0).val = (x 0).val; rw [e0]; omega
  | ⟨1, _⟩ => show win2_1.index t (1 : Fin 2) * 2048 + 1 * (x 1).val = (x 1).val; rw [e1]; omega

/-- The first bias row's block at every point is the whole row. -/
theorem iblk_2 (c : Dev nD) (t : Fin cfg2.N) :
    (Head.iblk V c 2 t : Vec Ideal S1x2048 .f32) = (V c main_v22 : Vec Ideal S1x2048 .f32) := by
  obtain ⟨-, -, -, -, e0, e1, -⟩ := idx_facts t
  funext x
  unfold Head.iblk
  rw [View.read_apply]
  show V c main_v22 (((cfg2.win 2).blk t).view.emb x) = V c main_v22 x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 2048 + 1 * (x 1).val = (x 1).val; rw [e1]; omega

/-- The second weight matrix's block at every point is the whole matrix. -/
theorem iblk_3 (c : Dev nD) (t : Fin cfg2.N) :
    (Head.iblk V c 3 t : Vec Ideal S2048x1024 .bf16) = (V c main_v24 : Vec Ideal S2048x1024 .bf16) := by
  obtain ⟨-, -, -, -, -, -, e0, e1, -⟩ := idx_facts t
  funext x
  unfold Head.iblk
  rw [View.read_apply]
  show V c main_v24 (((cfg2.win 3).blk t).view.emb x) = V c main_v24 x
  congr 1
  funext a
  apply Fin.ext
  match a with
  | ⟨0, _⟩ => show win2_3.index t (0 : Fin 2) * 2048 + 1 * (x 0).val = (x 0).val; rw [e0]; omega
  | ⟨1, _⟩ => show win2_3.index t (1 : Fin 2) * 1024 + 1 * (x 1).val = (x 1).val; rw [e1]; omega

/-- The second bias row's block at every point is the whole row. -/
theorem iblk_4 (c : Dev nD) (t : Fin cfg2.N) :
    (Head.iblk V c 4 t : Vec Ideal S1x1024 .f32) = (V c main_v25 : Vec Ideal S1x1024 .f32) := by
  obtain ⟨-, -, -, -, -, -, -, -, e0, e1, -⟩ := idx_facts t
  funext x
  unfold Head.iblk
  rw [View.read_apply]
  show V c main_v25 (((cfg2.win 4).blk t).view.emb x) = V c main_v25 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 1024 + 1 * (x 1).val = (x 1).val; rw [e1]; omega

/-! ## From the blocks to the array -/

/-- The head of a band of rows of the hidden state, the other operands whole, is that band of the head: stated over
    variables, the operands given up to equations. -/
theorem head_band (H : Vec Ideal S4096x1024 .f32) (w3 : Vec Ideal S1024x2048 .bf16) (b3 : Vec Ideal S1x2048 .f32)
    (w4 : Vec Ideal S2048x1024 .bf16) (b4 : Vec Ideal S1x1024 .f32) (o : ℕ) (ho : o + 512 ≤ 4096)
    (h' : Vec Ideal S512x1024 .f32) (w3' : Vec Ideal S1024x2048 .bf16) (b3' : Vec Ideal S1x2048 .f32)
    (w4' : Vec Ideal S2048x1024 .bf16) (b4' : Vec Ideal S1x1024 .f32)
    (e0 : h' = rowsAt 512 o ho H) (e1 : w3' = w3) (e2 : b3' = b3) (e3 : w4' = w4) (e4 : b4' = b4) :
    Cert.Spec.head (M := 512) h' w3' b3' w4' b4' = rowsAt 512 o ho (Cert.Spec.head (M := 4096) H w3 b3 w4 b4) := by
  subst e0 e1 e2 e3 e4
  rfl

/-- WHAT POINT `t` WRITES BACK is block `t` of the head of the whole arrays as the launch finds them. -/
theorem flushed_eq (c : Dev nD) (t : Fin cfg2.N) :
    (Head.dat (F := Ideal) V c).flushed 5 t = ((cfg2.win 5).blk t).view.read (Elt Ideal)
      (Cert.Spec.head (M := 4096) (V c main_v27_0) (V c main_v21) (V c main_v22) (V c main_v24) (V c main_v25)) := by
  show (cfg2.win 5).cut (grid2.coords t) ((Head.dat V c).after 5 t) = _
  rw [Head.after_5, outY_eq]
  obtain ⟨-, -, -, -, -, -, -, -, -, -, e0, e1⟩ := idx_facts t
  funext j
  rw [View.read_apply]
  refine (congrFun (head_band (V c main_v27_0) (V c main_v21) (V c main_v22) (V c main_v24) (V c main_v25) (512 * t.val) (band_le t)
    _ _ _ _ _ (iblk_0 V c t) (iblk_1 V c t) (iblk_2 V c t) (iblk_3 V c t) (iblk_4 V c t)) _).trans ?_
  show Cert.Spec.head (M := 4096) (V c main_v27_0) (V c main_v21) (V c main_v22) (V c main_v24) (V c main_v25) _
    = Cert.Spec.head (M := 4096) (V c main_v27_0) (V c main_v21) (V c main_v22) (V c main_v24) (V c main_v25) (((cfg2.win 5).blk t).view.emb j)
  congr 1
  funext a
  apply Fin.ext
  match a with
  | ⟨0, _⟩ => show 512 * t.val + (j 0).val = win2_5.index t (0 : Fin 2) * 512 + 1 * (j 0).val; rw [e0]; omega
  | ⟨1, _⟩ => show (j 1).val = win2_5.index t (1 : Fin 2) * 1024 + 1 * (j 1).val; rw [e1]; omega

/-- An index of the result's array is in point `t`'s block iff each coordinate is in the block's range on its axis. -/
theorem mem_blk (t : Fin cfg2.N) (i : S4096x1024.Idx) :
    i ∈ ((cfg2.win 5).blk t).view.set ↔ ∀ a : Fin 2, win2_5.index t a * S512x1024.size a ≤ (i a).val
      ∧ (i a).val < win2_5.index t a * S512x1024.size a + S512x1024.size a := by
  show i ∈ ((View.whole main_v28).slice (win2_5.rect t)).set ↔ _
  rw [View.set_slice_whole, Rect.mem_set_unit]
  exact Iff.rfl

/-- Every index of the result's array is in the block of the point its row falls to: row `r` in that of point `r / 512`. -/
theorem cover (i : S4096x1024.Idx) :
    ∃ t : Fin cfg2.N, (cfg2.win 5).flush t = true ∧ i ∈ ((cfg2.win 5).blk t).view.set := by
  have hi0 : (i 0).val < 4096 := (i 0).isLt
  have hi1 : (i 1).val < 1024 := (i 1).isLt
  obtain ⟨t, ht⟩ : ∃ t : Fin cfg2.N, t.val = (i 0).val / 512 :=
    ⟨⟨(i 0).val / 512, lt_of_lt_of_eq (by omega : (i 0).val / 512 < 8) N_2.symm⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 512 ≤ (i 0).val ∧ (i 0).val < win2_5.index t (0 : Fin 2) * 512 + 512
    rw [e0, ht]; omega
  | ⟨1, _⟩ =>
    show win2_5.index t (1 : Fin 2) * 1024 ≤ (i 1).val ∧ (i 1).val < win2_5.index t (1 : Fin 2) * 1024 + 1024
    rw [e1]; omega

/-- THE RESULT'S ARRAY after the launch is the head of the whole arrays as the launch finds them. -/
theorem arrY (c : Dev nD) :
    (Head.dat (F := Ideal) V c).arrAt 5 cfg2.N
      = Cert.Spec.head (M := 4096) (V c main_v27_0) (V c main_v21) (V c main_v22) (V c main_v24) (V c main_v25) :=
  (Head.dat (F := Ideal) V c).arrAt_eq_of_cover 5 _ (fun t _ => flushed_eq V c t) cover

end Cert.KernelIdeal.HeadValue

end
-- ==== Proof.KI.Result.lean ====
/-
  The five results of the idealized kernel program as functions of its arguments: the contents at the last boundary, read
  at a result's array, are what the launch that wrote it leaves there — the launch's whole-matrix function of its own
  operand arrays —, and each operand array is an argument as launched, a fused weight the host operations laid out, or
  the result of the launch before.
-/
import proofs.«138999_j48885317763708_1_alg».proof.Proof.KI.Frame
import proofs.«138999_j48885317763708_1_alg».proof.Proof.KI.HostValue
import proofs.«138999_j48885317763708_1_alg».proof.Proof.KI.CellValue0
import proofs.«138999_j48885317763708_1_alg».proof.Proof.KI.CellValue1
import proofs.«138999_j48885317763708_1_alg».proof.Proof.KI.HeadValue

set_option maxRecDepth 16384

noncomputable section

namespace Cert.KernelIdeal.Result

open Cert.KernelIdeal Cert.KernelIdeal.Gen Cert.KernelIdeal.Run
open Idealize.ShloMosaic Idealize.ShloMosaic.TcCoe
open Idealize.SL Idealize.SL.Sem
open Cert.Lib.Rowwise Cert.Spec

/-! ## Equal operands, equal results -/

theorem cellH_congr {M : ℕ} {x x' h h' : Mat M 1024} {wx wx' wh wh' : Mat 1024 4096} {b b' : Mat 1 4096}
    (e1 : x = x') (e2 : h = h') (e3 : wx = wx') (e4 : wh = wh') (e5 : b = b') :
    cellH x h wx wh b = cellH x' h' wx' wh' b' := by subst e1 e2 e3 e4 e5; rfl

theorem cellC_congr {M : ℕ} {x x' h h' cc cc' : Mat M 1024} {wx wx' wh wh' : Mat 1024 4096} {b b' : Mat 1 4096}
    (e1 : x = x') (e2 : h = h') (e0 : cc = cc') (e3 : wx = wx') (e4 : wh = wh') (e5 : b = b') :
    cellC x h cc wx wh b = cellC x' h' cc' wx' wh' b' := by subst e1 e2 e0 e3 e4 e5; rfl

theorem head_congr {M : ℕ} {h h' : Mat M 1024} {w3 w3' : Mat 1024 2048} {b3 b3' : Mat 1 2048} {w4 w4' : Mat 2048 1024}
    {b4 b4' : Mat 1 1024} (e1 : h = h') (e2 : w3 = w3') (e3 : b3 = b3') (e4 : w4 = w4') (e5 : b4 = b4') :
    head h w3 b3 w4 b4 = head h' w3' b3' w4' b4' := by subst e1 e2 e3 e4 e5; rfl

variable (m : (ℓ : Loc nD τ sig) → Buf (Elt Ideal) ℓ) (ρ : Dev nD → PrngReg) (c : Dev nD)

/-- An argument's contents at launch. -/
abbrev arg (r : Ref sig .tc) : Buf (Elt Ideal) ((c : Thread nD τ).loc r) := m ((c : Thread nD τ).loc r)

/-! ## After the host operations -/

theorem u1_arg (r : Ref sig .tc) (h : r ∉ hostOps0_W) : U1 m ρ c r = arg m c r := W1_keep m ρ c r h

theorem u1_v6 : (U1 m ρ c main_v6 : Mat 1024 4096) = fuseX (arg m c main_arg5) (arg m c main_arg7) (arg m c main_arg9) (arg m c main_arg11) := HostValue.v6_eq (W0 m ρ c)
theorem u1_v7 : (U1 m ρ c main_v7 : Mat 1024 4096) = fuseH (arg m c main_arg5) (arg m c main_arg7) (arg m c main_arg9) (arg m c main_arg11) := HostValue.v7_eq (W0 m ρ c)
theorem u1_v9 : (U1 m ρ c main_v9 : Mat 1 4096) = fuseB (arg m c main_arg6) (arg m c main_arg8) (arg m c main_arg10) (arg m c main_arg12) := HostValue.v9_eq (W0 m ρ c)
theorem u1_v16 : (U1 m ρ c main_v16 : Mat 1024 4096) = fuseX (arg m c main_arg13) (arg m c main_arg15) (arg m c main_arg17) (arg m c main_arg19) := HostValue.v16_eq (W0 m ρ c)
theorem u1_v17 : (U1 m ρ c main_v17 : Mat 1024 4096) = fuseH (arg m c main_arg13) (arg m c main_arg15) (arg m c main_arg17) (arg m c main_arg19) := HostValue.v17_eq (W0 m ρ c)
theorem u1_v19 : (U1 m ρ c main_v19 : Mat 1 4096) = fuseB (arg m c main_arg14) (arg m c main_arg16) (arg m c main_arg18) (arg m c main_arg20) := HostValue.v19_eq (W0 m ρ c)
theorem u1_v21 : (U1 m ρ c main_v21 : Mat 1024 2048) = tr (arg m c main_arg21) := HostValue.v21_eq (W0 m ρ c)
theorem u1_v22 : (U1 m ρ c main_v22 : Mat 1 2048) = asRow (arg m c main_arg22) := HostValue.v22_eq (W0 m ρ c)
theorem u1_v24 : (U1 m ρ c main_v24 : Mat 2048 1024) = tr (arg m c main_arg23) := HostValue.v24_eq (W0 m ρ c)
theorem u1_v25 : (U1 m ρ c main_v25 : Mat 1 1024) = asRow (arg m c main_arg24) := HostValue.v25_eq (W0 m ρ c)

/-! ## After the first cell -/

/-- A buffer the first cell does not write holds what it held before it. -/
theorem u2_keep (r : Ref sig .tc) (h0 : main_v26_0 ≠ r) (h1 : main_v26_1 ≠ r) : U2 m ρ c r = U1 m ρ c r := W2_keep m ρ c r h0 h1

/-- The first cell's new hidden state. -/
theorem u2_h1 : (U2 m ρ c main_v26_0 : Mat 4096 1024) = resH1 (arg m c main_arg0) (arg m c main_arg1) (arg m c main_arg5) (arg m c main_arg6) (arg m c main_arg7) (arg m c main_arg8) (arg m c main_arg9) (arg m c main_arg10) (arg m c main_arg11) (arg m c main_arg12) :=
  (W2_arr m ρ c 6).trans <| (CellValue0.arrH (U1 m ρ) c).trans <|
    cellH_congr (u1_arg m ρ c main_arg0 (by decide)) (u1_arg m ρ c main_arg1 (by decide)) (u1_v6 m ρ c) (u1_v7 m ρ c) (u1_v9 m ρ c)

/-- The first cell's new cell state. -/
theorem u2_c1 : (U2 m ρ c main_v26_1 : Mat 4096 1024) = resC1 (arg m c main_arg0) (arg m c main_arg1) (arg m c main_arg3) (arg m c main_arg5) (arg m c main_arg6) (arg m c main_arg7) (arg m c main_arg8) (arg m c main_arg9) (arg m c main_arg10) (arg m c main_arg11) (arg m c main_arg12) :=
  (W2_arr m ρ c 7).trans <| (CellValue0.arrC (U1 m ρ) c).trans <|
    cellC_congr (u1_arg m ρ c main_arg0 (by decide)) (u1_arg m ρ c main_arg1 (by decide)) (u1_arg m ρ c main_arg3 (by decide))
      (u1_v6 m ρ c) (u1_v7 m ρ c) (u1_v9 m ρ c)

/-! ## After the second cell -/

theorem u3_keep (r : Ref sig .tc) (h0 : main_v27_0 ≠ r) (h1 : main_v27_1 ≠ r) : U3 m ρ c r = U2 m ρ c r := W3_keep m ρ c r h0 h1

/-- The second cell's new hidden state. -/
theorem u3_h2 : (U3 m ρ c main_v27_0 : Mat 4096 1024) = resH2 (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) :=
  (W3_arr m ρ c 6).trans <| (CellValue1.arrH (U2 m ρ) c).trans <|
    cellH_congr (u2_h1 m ρ c)
      ((u2_keep m ρ c main_arg2 (by decide) (by decide)).trans (u1_arg m ρ c main_arg2 (by decide)))
      ((u2_keep m ρ c main_v16 (by decide) (by decide)).trans (u1_v16 m ρ c))
      ((u2_keep m ρ c main_v17 (by decide) (by decide)).trans (u1_v17 m ρ c))
      ((u2_keep m ρ c main_v19 (by decide) (by decide)).trans (u1_v19 m ρ c))

/-- The second cell's new cell state. -/
theorem u3_c2 : (U3 m ρ c main_v27_1 : Mat 4096 1024) = resC2 (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) :=
  (W3_arr m ρ c 7).trans <| (CellValue1.arrC (U2 m ρ) c).trans <|
    cellC_congr (u2_h1 m ρ c)
      ((u2_keep m ρ c main_arg2 (by decide) (by decide)).trans (u1_arg m ρ c main_arg2 (by decide)))
      ((u2_keep m ρ c main_arg4 (by decide) (by decide)).trans (u1_arg m ρ c main_arg4 (by decide)))
      ((u2_keep m ρ c main_v16 (by decide) (by decide)).trans (u1_v16 m ρ c))
      ((u2_keep m ρ c main_v17 (by decide) (by decide)).trans (u1_v17 m ρ c))
      ((u2_keep m ρ c main_v19 (by decide) (by decide)).trans (u1_v19 m ρ c))

/-! ## At the end -/

theorem u4_keep (r : Ref sig .tc) (h0 : main_v28 ≠ r) : U4 m ρ c r = U3 m ρ c r := W4_keep m ρ c r h0

/-- The head's result. -/
theorem out_y : (W4 m ρ c main_v28 : Mat 4096 1024) = resOut (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) :=
  (W4_arr m ρ c 5).trans <| (HeadValue.arrY (U3 m ρ) c).trans <|
    head_congr (u3_h2 m ρ c)
      ((u3_keep m ρ c main_v21 (by decide) (by decide)).trans <| (u2_keep m ρ c main_v21 (by decide) (by decide)).trans (u1_v21 m ρ c))
      ((u3_keep m ρ c main_v22 (by decide) (by decide)).trans <| (u2_keep m ρ c main_v22 (by decide) (by decide)).trans (u1_v22 m ρ c))
      ((u3_keep m ρ c main_v24 (by decide) (by decide)).trans <| (u2_keep m ρ c main_v24 (by decide) (by decide)).trans (u1_v24 m ρ c))
      ((u3_keep m ρ c main_v25 (by decide) (by decide)).trans <| (u2_keep m ρ c main_v25 (by decide) (by decide)).trans (u1_v25 m ρ c))

theorem out_h1 : (W4 m ρ c main_v26_0 : Mat 4096 1024) = resH1 (arg m c main_arg0) (arg m c main_arg1) (arg m c main_arg5) (arg m c main_arg6) (arg m c main_arg7) (arg m c main_arg8) (arg m c main_arg9) (arg m c main_arg10) (arg m c main_arg11) (arg m c main_arg12) :=
  (u4_keep m ρ c main_v26_0 (by decide)).trans <| (u3_keep m ρ c main_v26_0 (by decide) (by decide)).trans (u2_h1 m ρ c)

theorem out_c1 : (W4 m ρ c main_v26_1 : Mat 4096 1024) = resC1 (arg m c main_arg0) (arg m c main_arg1) (arg m c main_arg3) (arg m c main_arg5) (arg m c main_arg6) (arg m c main_arg7) (arg m c main_arg8) (arg m c main_arg9) (arg m c main_arg10) (arg m c main_arg11) (arg m c main_arg12) :=
  (u4_keep m ρ c main_v26_1 (by decide)).trans <| (u3_keep m ρ c main_v26_1 (by decide) (by decide)).trans (u2_c1 m ρ c)

theorem out_h2 : (W4 m ρ c main_v27_0 : Mat 4096 1024) = resH2 (arg m c main_arg0) (arg m c main_arg1) (arg m c main_arg2) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) :=
  (u4_keep m ρ c main_v27_0 (by decide)).trans (u3_h2 m ρ c)

theorem out_c2 : (W4 m ρ c main_v27_1 : Mat 4096 1024) = resC2 (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) :=
  (u4_keep m ρ c main_v27_1 (by decide)).trans (u3_c2 m ρ c)

end Cert.KernelIdeal.Result

end
-- ==== Proof.RefValue.lean ====
/-
  The reference program's five results are the functions of Spec.lean on its arguments.

  The reference computes an LSTM cell gate by gate: it joins the input and the previous hidden state side by side,
  `z = [x, h]` (rows × 2048), and for each of the four gates takes `z · Wᵀ + b` with that gate's own weights
  `W` (1024 × 2048) and bias. The functions of Spec.lean instead add `x · Wx` and `h · Wh`, where `Wx` and `Wh` are the
  upper and the lower 1024 rows of the four transposed weights laid side by side, and read gate `g` off columns
  `g · 1024, …, g · 1024 + 1023`. The two agree because a sum over the 2048 columns of `z` is the sum over its first
  1024 columns (those of `x`) plus the sum over its last 1024 (those of `h`): only that addition is commutative and
  associative is used, so the statement holds over the extended reals with no finiteness assumption
  (`prod_join2`, `gate_of`). Everything else is reading the printed operations as whole-matrix functions: a
  concatenation along the columns (`concat2_eq_join2`), a transpose (`transpose_eq_tr`), a product, a bias laid along
  the rows, the logistic function spelt as one over one plus the exponential of the negation, the hyperbolic tangent,
  the maximum with zero. The stages of the generated module are chained from each result backwards.
-/
import proofs.«138999_j48885317763708_1_alg».proof.Proof.Gen.ReferenceIdeal.Read
import proofs.«138999_j48885317763708_1_alg».proof.Proof.Spec
import Mathlib.Algebra.BigOperators.Fin

noncomputable section

open scoped BigOperators

namespace Cert.RefValue

open Idealize.ShloMosaic Idealize.ShloMosaic.ValueIdx Cert.Lib.Rowwise Cert.Spec

variable {M N : ℕ}

/-! ## Two matrices side by side, and the product with the pair -/

/-- Two 1024-column matrices side by side: columns below 1024 are the first's, the others the second's. -/
def join2 (x h : Mat M 1024) : Mat M 2048 :=
  fun i =>
    if h1 : (i 1).val < 1024 then x (ix2 (i 0 : Fin M) (⟨(i 1).val, h1⟩ : Fin 1024))
    else h (ix2 (i 0 : Fin M) (⟨(i 1).val - 1024, by have := idx2_lt1 i; omega⟩ : Fin 1024))

theorem join2_left (x h : Mat M 1024) (p : Fin M) (k : Fin 1024) (c : Fin 2048) (hc : c.val = k.val) :
    join2 x h (ix2 p c) = x (ix2 p k) := by
  have h1 : ((ix2 p c) 1).val < 1024 := by show c.val < 1024; omega
  unfold join2
  rw [dif_pos h1]
  exact congrArg (fun r : Fin 1024 => x (ix2 p r)) (Fin.ext hc)

theorem join2_right (x h : Mat M 1024) (p : Fin M) (k : Fin 1024) (c : Fin 2048) (hc : c.val = 1024 + k.val) :
    join2 x h (ix2 p c) = h (ix2 p k) := by
  have h1 : ¬ ((ix2 p c) 1).val < 1024 := by show ¬ c.val < 1024; omega
  unfold join2
  rw [dif_neg h1]
  exact congrArg (fun r : Fin 1024 => h (ix2 p r)) (Fin.ext (by show c.val - 1024 = k.val; omega))

/-- The printed concatenation of two matrices along the columns is the two side by side. -/
theorem concat2_eq_join2 (x h : Mat M 1024)
    (hc : Shape.Concatenates [(⟨2, ![M, 1024]⟩ : Shape), (⟨2, ![M, 1024]⟩ : Shape)] (⟨2, ![M, 2048]⟩ : Shape) (1 : Fin 2)) :
    concatenate (⟨2, ![M, 2048]⟩ : Shape) (1 : Fin 2) [⟨(⟨2, ![M, 1024]⟩ : Shape), x⟩, ⟨(⟨2, ![M, 1024]⟩ : Shape), h⟩] hc
      = join2 x h := by
  funext i
  unfold join2
  split
  · rename_i h1
    refine concatenate_pair_apply_left (1 : Fin 2) x h hc i rfl (ix2 (i 0 : Fin M) (⟨(i 1).val, h1⟩ : Fin 1024)) fun d => ?_
    match d with
    | ⟨0, _⟩ => rfl
    | ⟨1, _⟩ => rfl
  · rename_i h1
    refine concatenate_pair_apply_right (1 : Fin 2) x h hc i rfl rfl
      (ix2 (i 0 : Fin M) (⟨(i 1).val - 1024, by have := idx2_lt1 i; omega⟩ : Fin 1024)) (fun d hd => ?_) ?_
    · match d with
      | ⟨0, _⟩ => rfl
      | ⟨1, _⟩ => exact absurd rfl hd
    · show (i 1).val - 1024 + 1024 = (i 1).val
      omega

/-- A sum over 2048 terms is the sum of the first 1024 plus the sum of the last 1024. -/
theorem sum_split (f : Fin 2048 → EReal) :
    ∑ k : Fin 2048, f k
      = (∑ k : Fin 1024, f ⟨k.val, by have := k.isLt; omega⟩) + ∑ k : Fin 1024, f ⟨1024 + k.val, by have := k.isLt; omega⟩ := by
  have e : (1024 + 1024 : ℕ) = 2048 := by norm_num
  refine (Fin.sum_congr' f e).symm.trans ((Fin.sum_univ_add _).trans ?_)
  refine congrArg₂ (· + ·) (Finset.sum_congr rfl fun k _ => ?_) (Finset.sum_congr rfl fun k _ => ?_)
  · exact congrArg f (Fin.ext rfl)
  · exact congrArg f (Fin.ext rfl)

/-- The product of two matrices side by side with a weight matrix is the first times the weights' upper rows plus the
    second times the lower rows: the sum over the 2048 columns splits at 1024. -/
theorem prod_join2 (x h : Mat M 1024) (w : Mat 2048 N) :
    prod (join2 x h) w = hadd (prod x (rowsAt 1024 0 (by omega) w)) (prod h (rowsAt 1024 1024 (by omega) w)) := by
  funext i
  refine (sum_split fun k => join2 x h (ix2 (i 0 : Fin M) k) * w (ix2 k (i 1 : Fin N))).trans ?_
  refine congrArg₂ (· + ·) (Finset.sum_congr rfl fun k _ => ?_) (Finset.sum_congr rfl fun k _ => ?_)
  · have hk := k.isLt
    have e1 : join2 x h (ix2 (i 0 : Fin M) (⟨k.val, by omega⟩ : Fin 2048)) = x (ix2 (i 0 : Fin M) k) :=
      join2_left x h (i 0) k ⟨k.val, by omega⟩ rfl
    have e2 : (⟨k.val, by omega⟩ : Fin 2048) = ⟨0 + k.val, by omega⟩ := Fin.ext (by show k.val = 0 + k.val; omega)
    exact congrArg₂ (· * ·) e1 (congrArg (fun r : Fin 2048 => w (ix2 r (i 1 : Fin N))) e2)
  · have hk := k.isLt
    have e1 : join2 x h (ix2 (i 0 : Fin M) (⟨1024 + k.val, by omega⟩ : Fin 2048)) = h (ix2 (i 0 : Fin M) k) :=
      join2_right x h (i 0) k ⟨1024 + k.val, by omega⟩ rfl
    exact congrArg (· * w (ix2 (⟨1024 + k.val, by omega⟩ : Fin 2048) (i 1 : Fin N))) e1

/-! ## The transpose, columns of a matrix, entries of a vector -/

/-- The printed transpose of a matrix is its transpose. -/
theorem transpose_eq_tr {a b : ℕ} (W : Mat a b)
    (ht : (⟨2, ![a, b]⟩ : Shape).Transposes [1, 0] (⟨2, ![b, a]⟩ : Shape)) :
    transpose (⟨2, ![b, a]⟩ : Shape) [1, 0] W ht = tr W := by
  funext i
  refine transpose_apply [1, 0] W ht i (ix2 (i 1 : Fin a) (i 0 : Fin b)) fun d => ?_
  match d with
  | ⟨0, _⟩ => rfl
  | ⟨1, _⟩ => rfl

/-- Entries `o, …, o + n - 1` of a vector. -/
def entriesAt (n o : ℕ) (h : o + n ≤ N) (v : RowV N) : RowV n :=
  fun j => v (ix1 (⟨o + (j 0).val, by have hj : (j 0).val < n := (j 0).isLt; omega⟩ : Fin N))

/-- One gate's pre-activation: the columns of the fused pre-activations that belong to it are the pair `[x, h]` times
    that gate's transposed weights plus its bias, whenever those columns of the fused weights are the transposed weights
    and those entries of the fused bias are the bias. -/
theorem gate_of (x h : Mat M 1024) (wT : Mat 2048 4096) (b : Mat 1 4096) (o : ℕ) (ho : o + 1024 ≤ 4096)
    (Wg : Mat 1024 2048) (bg : RowV 1024)
    (hw : colsAt 1024 o ho wT = tr Wg) (hb : entriesAt 1024 o ho (oneRow b) = bg) :
    dense (join2 x h) (tr Wg) bg
      = colsAt 1024 o ho (gates x h (rowsAt 1024 0 (by omega) wT) (rowsAt 1024 1024 (by omega) wT) b) := by
  show _ = hadd (hadd (prod x (rowsAt 1024 0 (by omega) (colsAt 1024 o ho wT))) (prod h (rowsAt 1024 1024 (by omega) (colsAt 1024 o ho wT))))
      (rowBias (entriesAt 1024 o ho (oneRow b)))
  rw [hw, hb, ← hadd_rowBias, prod_join2]

/-! ## The fused weights, gate by gate -/

section Fused
variable (Wf Wi Wc Wo : Mat 1024 2048) (bf bi bc bo : RowV 1024)

theorem cols_fuseT_f : colsAt 1024 0 (by omega) (fuseT Wf Wi Wc Wo) = tr Wf := by
  funext i
  have hq := idx2_lt1 i
  have h1 : (0 + (i 1).val) < 1024 := by omega
  show fuseT Wf Wi Wc Wo (ix2 (i 0 : Fin 2048) (⟨0 + (i 1).val, by omega⟩ : Fin 4096)) = Wf (ix2 (i 1 : Fin 1024) (i 0 : Fin 2048))
  unfold fuseT
  rw [dif_pos h1]
  exact congrArg (fun r : Fin 1024 => Wf (ix2 r (i 0 : Fin 2048))) (Fin.ext (by show 0 + (i 1).val = (i 1).val; omega))

theorem cols_fuseT_i : colsAt 1024 1024 (by omega) (fuseT Wf Wi Wc Wo) = tr Wi := by
  funext i
  have hq := idx2_lt1 i
  have h1 : ¬ (1024 + (i 1).val) < 1024 := by omega
  have h2 : (1024 + (i 1).val) < 2048 := by omega
  show fuseT Wf Wi Wc Wo (ix2 (i 0 : Fin 2048) (⟨1024 + (i 1).val, by omega⟩ : Fin 4096)) = Wi (ix2 (i 1 : Fin 1024) (i 0 : Fin 2048))
  unfold fuseT
  rw [dif_neg h1, dif_pos h2]
  exact congrArg (fun r : Fin 1024 => Wi (ix2 r (i 0 : Fin 2048))) (Fin.ext (by show 1024 + (i 1).val - 1024 = (i 1).val; omega))

theorem cols_fuseT_c : colsAt 1024 2048 (by omega) (fuseT Wf Wi Wc Wo) = tr Wc := by
  funext i
  have hq := idx2_lt1 i
  have h1 : ¬ (2048 + (i 1).val) < 1024 := by omega
  have h2 : ¬ (2048 + (i 1).val) < 2048 := by omega
  have h3 : (2048 + (i 1).val) < 3072 := by omega
  show fuseT Wf Wi Wc Wo (ix2 (i 0 : Fin 2048) (⟨2048 + (i 1).val, by omega⟩ : Fin 4096)) = Wc (ix2 (i 1 : Fin 1024) (i 0 : Fin 2048))
  unfold fuseT
  rw [dif_neg h1, dif_neg h2, dif_pos h3]
  exact congrArg (fun r : Fin 1024 => Wc (ix2 r (i 0 : Fin 2048))) (Fin.ext (by show 2048 + (i 1).val - 2048 = (i 1).val; omega))

theorem cols_fuseT_o : colsAt 1024 3072 (by omega) (fuseT Wf Wi Wc Wo) = tr Wo := by
  funext i
  have hq := idx2_lt1 i
  have h1 : ¬ (3072 + (i 1).val) < 1024 := by omega
  have h2 : ¬ (3072 + (i 1).val) < 2048 := by omega
  have h3 : ¬ (3072 + (i 1).val) < 3072 := by omega
  show fuseT Wf Wi Wc Wo (ix2 (i 0 : Fin 2048) (⟨3072 + (i 1).val, by omega⟩ : Fin 4096)) = Wo (ix2 (i 1 : Fin 1024) (i 0 : Fin 2048))
  unfold fuseT
  rw [dif_neg h1, dif_neg h2, dif_neg h3]
  exact congrArg (fun r : Fin 1024 => Wo (ix2 r (i 0 : Fin 2048))) (Fin.ext (by show 3072 + (i 1).val - 3072 = (i 1).val; omega))

theorem entries_fuseB_f : entriesAt 1024 0 (by omega) (oneRow (fuseB bf bi bc bo)) = bf := by
  funext j
  have hq : (j 0).val < 1024 := (j 0).isLt
  have h1 : (0 + (j 0).val) < 1024 := by omega
  show fuseB bf bi bc bo (ix2 (0 : Fin 1) (⟨0 + (j 0).val, by omega⟩ : Fin 4096)) = bf j
  unfold fuseB
  rw [dif_pos h1]
  refine congrArg bf (funext fun d => ?_)
  match d with
  | ⟨0, _⟩ => exact Fin.ext (by show 0 + (j 0).val = (j 0).val; omega)

theorem entries_fuseB_i : entriesAt 1024 1024 (by omega) (oneRow (fuseB bf bi bc bo)) = bi := by
  funext j
  have hq : (j 0).val < 1024 := (j 0).isLt
  have h1 : ¬ (1024 + (j 0).val) < 1024 := by omega
  have h2 : (1024 + (j 0).val) < 2048 := by omega
  show fuseB bf bi bc bo (ix2 (0 : Fin 1) (⟨1024 + (j 0).val, by omega⟩ : Fin 4096)) = bi j
  unfold fuseB
  rw [dif_neg h1, dif_pos h2]
  refine congrArg bi (funext fun d => ?_)
  match d with
  | ⟨0, _⟩ => exact Fin.ext (by show 1024 + (j 0).val - 1024 = (j 0).val; omega)

theorem entries_fuseB_c : entriesAt 1024 2048 (by omega) (oneRow (fuseB bf bi bc bo)) = bc := by
  funext j
  have hq : (j 0).val < 1024 := (j 0).isLt
  have h1 : ¬ (2048 + (j 0).val) < 1024 := by omega
  have h2 : ¬ (2048 + (j 0).val) < 2048 := by omega
  have h3 : (2048 + (j 0).val) < 3072 := by omega
  show fuseB bf bi bc bo (ix2 (0 : Fin 1) (⟨2048 + (j 0).val, by omega⟩ : Fin 4096)) = bc j
  unfold fuseB
  rw [dif_neg h1, dif_neg h2, dif_pos h3]
  refine congrArg bc (funext fun d => ?_)
  match d with
  | ⟨0, _⟩ => exact Fin.ext (by show 2048 + (j 0).val - 2048 = (j 0).val; omega)

theorem entries_fuseB_o : entriesAt 1024 3072 (by omega) (oneRow (fuseB bf bi bc bo)) = bo := by
  funext j
  have hq : (j 0).val < 1024 := (j 0).isLt
  have h1 : ¬ (3072 + (j 0).val) < 1024 := by omega
  have h2 : ¬ (3072 + (j 0).val) < 2048 := by omega
  have h3 : ¬ (3072 + (j 0).val) < 3072 := by omega
  show fuseB bf bi bc bo (ix2 (0 : Fin 1) (⟨3072 + (j 0).val, by omega⟩ : Fin 4096)) = bo j
  unfold fuseB
  rw [dif_neg h1, dif_neg h2, dif_neg h3]
  refine congrArg bo (funext fun d => ?_)
  match d with
  | ⟨0, _⟩ => exact Fin.ext (by show 3072 + (j 0).val - 3072 = (j 0).val; omega)

variable (x h c : Mat M 1024)

/-- The forget gate. -/
theorem gate_f : dense (join2 x h) (tr Wf) bf
    = colsAt 1024 0 (by omega) (gates x h (fuseX Wf Wi Wc Wo) (fuseH Wf Wi Wc Wo) (fuseB bf bi bc bo)) :=
  gate_of x h _ _ 0 (by omega) Wf bf (cols_fuseT_f Wf Wi Wc Wo) (entries_fuseB_f bf bi bc bo)
/-- The input gate. -/
theorem gate_i : dense (join2 x h) (tr Wi) bi
    = colsAt 1024 1024 (by omega) (gates x h (fuseX Wf Wi Wc Wo) (fuseH Wf Wi Wc Wo) (fuseB bf bi bc bo)) :=
  gate_of x h _ _ 1024 (by omega) Wi bi (cols_fuseT_i Wf Wi Wc Wo) (entries_fuseB_i bf bi bc bo)
/-- The candidate. -/
theorem gate_c : dense (join2 x h) (tr Wc) bc
    = colsAt 1024 2048 (by omega) (gates x h (fuseX Wf Wi Wc Wo) (fuseH Wf Wi Wc Wo) (fuseB bf bi bc bo)) :=
  gate_of x h _ _ 2048 (by omega) Wc bc (cols_fuseT_c Wf Wi Wc Wo) (entries_fuseB_c bf bi bc bo)
/-- The output gate. -/
theorem gate_o : dense (join2 x h) (tr Wo) bo
    = colsAt 1024 3072 (by omega) (gates x h (fuseX Wf Wi Wc Wo) (fuseH Wf Wi Wc Wo) (fuseB bf bi bc bo)) :=
  gate_of x h _ _ 3072 (by omega) Wo bo (cols_fuseT_o Wf Wi Wc Wo) (entries_fuseB_o bf bi bc bo)

/-- The new hidden state from the four gates computed one by one on the pair `[x, h]`. -/
theorem cellH_of_gates :
    hmul (sigm (dense (join2 x h) (tr Wo) bo)) (tnh (tnh (dense (join2 x h) (tr Wc) bc)))
      = cellH x h (fuseX Wf Wi Wc Wo) (fuseH Wf Wi Wc Wo) (fuseB bf bi bc bo) := by
  rw [gate_o Wf Wi Wc Wo bf bi bc bo x h, gate_c Wf Wi Wc Wo bf bi bc bo x h]
  rfl

/-- The new cell state from the four gates computed one by one on the pair `[x, h]`. -/
theorem cellC_of_gates :
    hadd (hmul (sigm (dense (join2 x h) (tr Wf) bf)) c)
        (hmul (tnh (dense (join2 x h) (tr Wc) bc)) (sigm (dense (join2 x h) (tr Wi) bi)))
      = cellC x h c (fuseX Wf Wi Wc Wo) (fuseH Wf Wi Wc Wo) (fuseB bf bi bc bo) := by
  rw [gate_f Wf Wi Wc Wo bf bi bc bo x h, gate_c Wf Wi Wc Wo bf bi bc bo x h, gate_i Wf Wi Wc Wo bf bi bc bo x h]
  rfl

end Fused

/-! ## The head -/

/-- Two dense layers with the positive part between them are the head (its biases given as vectors). -/
theorem head_of_dense (z : Mat M 1024) (w3 : Mat 1024 2048) (b3 : RowV 2048) (w4 : Mat 2048 1024) (b4 : RowV 1024) :
    dense (relu (dense z w3 b3)) w4 b4 = head z w3 (asRow b3) w4 (asRow b4) := by
  unfold head
  rw [oneRow_asRow, oneRow_asRow]
  rfl

/-! ## The reference's operations, read as these functions -/

/-- A dense layer as the reference computes it: the product with the transposed weights, plus the bias laid to one row
    and then along every row. -/
theorem hostDense_eq {K : ℕ} (z : Mat M K) (W : Mat N K) (b : RowV N)
    (ht : (⟨2, ![N, K]⟩ : Shape).Transposes [1, 0] (⟨2, ![K, N]⟩ : Shape))
    (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32)
        (Host.dotGeneral (F := Ideal) (φ₁ := .f32) (φ₂ := .f32) d none z (transpose (⟨2, ![K, N]⟩ : Shape) [1, 0] W ht))
        (broadcastInDim ⟨2, ![M, N]⟩ ![0, 1] h2 (broadcastInDim ⟨2, ![1, N]⟩ ![1] h1 b))
      = dense z (tr W) b := by
  rw [transpose_eq_tr, hostDot_eq_prod d hd, hostBias_eq]
  rfl

/-- One gate's pre-activation as the reference computes it: a dense layer on the concatenated pair. -/
theorem hostGate_eq (x h : Mat M 1024) (W : Mat 1024 2048) (b : RowV 1024)
    (hc : Shape.Concatenates [(⟨2, ![M, 1024]⟩ : Shape), (⟨2, ![M, 1024]⟩ : Shape)] (⟨2, ![M, 2048]⟩ : Shape) (1 : Fin 2))
    (ht : (⟨2, ![1024, 2048]⟩ : Shape).Transposes [1, 0] (⟨2, ![2048, 1024]⟩ : Shape))
    (d : DotDims ⟨2, ![M, 2048]⟩ ⟨2, ![2048, 1024]⟩ ⟨2, ![M, 1024]⟩) (hd : d = DotDims.plain M 2048 1024)
    (h1 : (⟨1, ![1024]⟩ : Shape).BroadcastsInDim ⟨2, ![1, 1024]⟩ ![1])
    (h2 : (⟨2, ![1, 1024]⟩ : Shape).BroadcastsInDim ⟨2, ![M, 1024]⟩ ![0, 1]) :
    addf (F := Ideal) (φ := .f32)
        (Host.dotGeneral (F := Ideal) (φ₁ := .f32) (φ₂ := .f32) d none
          (concatenate (⟨2, ![M, 2048]⟩ : Shape) (1 : Fin 2) [⟨(⟨2, ![M, 1024]⟩ : Shape), x⟩, ⟨(⟨2, ![M, 1024]⟩ : Shape), h⟩] hc)
          (transpose (⟨2, ![2048, 1024]⟩ : Shape) [1, 0] W ht))
        (broadcastInDim ⟨2, ![M, 1024]⟩ ![0, 1] h2 (broadcastInDim ⟨2, ![1, 1024]⟩ ![1] h1 b))
      = dense (join2 x h) (tr W) b := by
  rw [concat2_eq_join2]
  exact hostDense_eq (join2 x h) W b ht d hd h1 h2

/-- The positive part as the reference computes it: the maximum with a zero broadcast from a constant. -/
theorem hostRelu_eq (y : Mat M N) (h0 : (⟨0, ![]⟩ : Shape).BroadcastsInDim ⟨2, ![M, N]⟩ ![]) :
    maximumf (F := Ideal) (φ := .f32) y
        (broadcastInDim ⟨2, ![M, N]⟩ ![] h0 (constant (F := Ideal) ⟨0, ![]⟩ .f32 0x00000000#32))
      = relu y := by
  funext i
  show max (y i) (Ideal.ofBits .f32 0x00000000#32) = max (y i) 0
  rw [Ideal.ofBits_zero_f32]

/-! ## The reference's stages -/

section Stages
open Cert.ReferenceIdeal

variable (x0 x1 x2 x3 x4 : Mat 4096 1024) (x5 x7 x9 x11 x13 x15 x17 x19 : Mat 1024 2048)
  (x6 x8 x10 x12 x14 x16 x18 x20 : RowV 1024)

/-! ### The first cell: the pair is the input and the first hidden state -/

theorem pre_v5 : Read.val_main_v5 (F := Ideal) x0 x1 x5 x6 = dense (join2 x0 x1) (tr x5) x6 :=
  hostGate_eq x0 x1 x5 x6 _ _ dot_S4096x2048_S2048x1024_S4096x1024_1_0_0_1_n_n rfl _ _
theorem pre_v16 : Read.val_main_v16 (F := Ideal) x0 x1 x7 x8 = dense (join2 x0 x1) (tr x7) x8 :=
  hostGate_eq x0 x1 x7 x8 _ _ dot_S4096x2048_S2048x1024_S4096x1024_1_0_0_1_n_n rfl _ _
theorem pre_v27 : Read.val_main_v27 (F := Ideal) x0 x1 x9 x10 = dense (join2 x0 x1) (tr x9) x10 :=
  hostGate_eq x0 x1 x9 x10 _ _ dot_S4096x2048_S2048x1024_S4096x1024_1_0_0_1_n_n rfl _ _
theorem pre_v33 : Read.val_main_v33 (F := Ideal) x0 x1 x11 x12 = dense (join2 x0 x1) (tr x11) x12 :=
  hostGate_eq x0 x1 x11 x12 _ _ dot_S4096x2048_S2048x1024_S4096x1024_1_0_0_1_n_n rfl _ _

theorem sig_v11 : Read.val_main_v11 (F := Ideal) x0 x1 x5 x6 = sigm (dense (join2 x0 x1) (tr x5) x6) :=
  (hostSigm_eq (Read.val_main_v5 (F := Ideal) x0 x1 x5 x6) _ _).trans (congrArg sigm (pre_v5 x0 x1 x5 x6))
theorem sig_v22 : Read.val_main_v22 (F := Ideal) x0 x1 x7 x8 = sigm (dense (join2 x0 x1) (tr x7) x8) :=
  (hostSigm_eq (Read.val_main_v16 (F := Ideal) x0 x1 x7 x8) _ _).trans (congrArg sigm (pre_v16 x0 x1 x7 x8))
theorem sig_v39 : Read.val_main_v39 (F := Ideal) x0 x1 x11 x12 = sigm (dense (join2 x0 x1) (tr x11) x12) :=
  (hostSigm_eq (Read.val_main_v33 (F := Ideal) x0 x1 x11 x12) _ _).trans (congrArg sigm (pre_v33 x0 x1 x11 x12))

/-! ### The second cell: the pair is the first cell's new hidden state and the second hidden state -/

theorem pre_v50 : Read.val_main_v50 (F := Ideal) x0 x1 x2 x9 x10 x11 x12 x13 x14
    = dense (join2 (Read.val_main_v41 (F := Ideal) x0 x1 x9 x10 x11 x12) x2) (tr x13) x14 :=
  hostGate_eq _ x2 x13 x14 _ _ dot_S4096x2048_S2048x1024_S4096x1024_1_0_0_1_n_n rfl _ _
theorem pre_v61 : Read.val_main_v61 (F := Ideal) x0 x1 x2 x9 x10 x11 x12 x15 x16
    = dense (join2 (Read.val_main_v41 (F := Ideal) x0 x1 x9 x10 x11 x12) x2) (tr x15) x16 :=
  hostGate_eq _ x2 x15 x16 _ _ dot_S4096x2048_S2048x1024_S4096x1024_1_0_0_1_n_n rfl _ _
theorem pre_v72 : Read.val_main_v72 (F := Ideal) x0 x1 x2 x9 x10 x11 x12 x17 x18
    = dense (join2 (Read.val_main_v41 (F := Ideal) x0 x1 x9 x10 x11 x12) x2) (tr x17) x18 :=
  hostGate_eq _ x2 x17 x18 _ _ dot_S4096x2048_S2048x1024_S4096x1024_1_0_0_1_n_n rfl _ _
theorem pre_v78 : Read.val_main_v78 (F := Ideal) x0 x1 x2 x9 x10 x11 x12 x19 x20
    = dense (join2 (Read.val_main_v41 (F := Ideal) x0 x1 x9 x10 x11 x12) x2) (tr x19) x20 :=
  hostGate_eq _ x2 x19 x20 _ _ dot_S4096x2048_S2048x1024_S4096x1024_1_0_0_1_n_n rfl _ _

theorem sig_v56 : Read.val_main_v56 (F := Ideal) x0 x1 x2 x9 x10 x11 x12 x13 x14
    = sigm (dense (join2 (Read.val_main_v41 (F := Ideal) x0 x1 x9 x10 x11 x12) x2) (tr x13) x14) :=
  (hostSigm_eq (Read.val_main_v50 (F := Ideal) x0 x1 x2 x9 x10 x11 x12 x13 x14) _ _).trans
    (congrArg sigm (pre_v50 x0 x1 x2 x9 x11 x13 x10 x12 x14))
theorem sig_v67 : Read.val_main_v67 (F := Ideal) x0 x1 x2 x9 x10 x11 x12 x15 x16
    = sigm (dense (join2 (Read.val_main_v41 (F := Ideal) x0 x1 x9 x10 x11 x12) x2) (tr x15) x16) :=
  (hostSigm_eq (Read.val_main_v61 (F := Ideal) x0 x1 x2 x9 x10 x11 x12 x15 x16) _ _).trans
    (congrArg sigm (pre_v61 x0 x1 x2 x9 x11 x15 x10 x12 x16))
theorem sig_v84 : Read.val_main_v84 (F := Ideal) x0 x1 x2 x9 x10 x11 x12 x19 x20
    = sigm (dense (join2 (Read.val_main_v41 (F := Ideal) x0 x1 x9 x10 x11 x12) x2) (tr x19) x20) :=
  (hostSigm_eq (Read.val_main_v78 (F := Ideal) x0 x1 x2 x9 x10 x11 x12 x19 x20) _ _).trans
    (congrArg sigm (pre_v78 x0 x1 x2 x9 x11 x19 x10 x12 x20))

end Stages

/-! ## The reference's five results -/

section Results
open Cert.ReferenceIdeal

variable (X h1 h2 c1 c2 : Mat 4096 1024)
  (Wf1 : Mat 1024 2048) (bf1 : RowV 1024) (Wi1 : Mat 1024 2048) (bi1 : RowV 1024)
  (Wc1 : Mat 1024 2048) (bc1 : RowV 1024) (Wo1 : Mat 1024 2048) (bo1 : RowV 1024)
  (Wf2 : Mat 1024 2048) (bf2 : RowV 1024) (Wi2 : Mat 1024 2048) (bi2 : RowV 1024)
  (Wc2 : Mat 1024 2048) (bc2 : RowV 1024) (Wo2 : Mat 1024 2048) (bo2 : RowV 1024)
  (W3 : Mat 2048 1024) (b3 : RowV 2048) (W4 : Mat 1024 2048) (b4 : RowV 1024)

/-- The reference's first new hidden state is the first cell's. -/
theorem ref_h1 :
    Read.val_main_v41 (F := Ideal) X h1 Wc1 bc1 Wo1 bo1 = resH1 X h1 Wf1 bf1 Wi1 bi1 Wc1 bc1 Wo1 bo1 := by
  have e : Read.val_main_v41 (F := Ideal) X h1 Wc1 bc1 Wo1 bo1
      = hmul (sigm (dense (join2 X h1) (tr Wo1) bo1)) (tnh (tnh (dense (join2 X h1) (tr Wc1) bc1))) := by
    show hmul (Read.val_main_v39 (F := Ideal) X h1 Wo1 bo1) (tnh (tnh (Read.val_main_v27 (F := Ideal) X h1 Wc1 bc1))) = _
    rw [sig_v39, pre_v27]
  exact e.trans (cellH_of_gates Wf1 Wi1 Wc1 Wo1 bf1 bi1 bc1 bo1 X h1)

/-- The reference's first new cell state is the first cell's. -/
theorem ref_c1 :
    Read.val_main_v44 (F := Ideal) X h1 c1 Wf1 bf1 Wi1 bi1 Wc1 bc1 = resC1 X h1 c1 Wf1 bf1 Wi1 bi1 Wc1 bc1 Wo1 bo1 := by
  have e : Read.val_main_v44 (F := Ideal) X h1 c1 Wf1 bf1 Wi1 bi1 Wc1 bc1
      = hadd (hmul (sigm (dense (join2 X h1) (tr Wf1) bf1)) c1)
          (hmul (tnh (dense (join2 X h1) (tr Wc1) bc1)) (sigm (dense (join2 X h1) (tr Wi1) bi1))) := by
    show hadd (hmul (Read.val_main_v11 (F := Ideal) X h1 Wf1 bf1) c1)
        (hmul (tnh (Read.val_main_v27 (F := Ideal) X h1 Wc1 bc1)) (Read.val_main_v22 (F := Ideal) X h1 Wi1 bi1)) = _
    rw [sig_v11, pre_v27, sig_v22]
  exact e.trans (cellC_of_gates Wf1 Wi1 Wc1 Wo1 bf1 bi1 bc1 bo1 X h1 c1)

/-- The reference's second new hidden state is the second cell's, on the first cell's new hidden state. -/
theorem ref_h2 :
    Read.val_main_v86 (F := Ideal) X h1 h2 Wc1 bc1 Wo1 bo1 Wc2 bc2 Wo2 bo2
      = resH2 X h1 h2 Wf1 bf1 Wi1 bi1 Wc1 bc1 Wo1 bo1 Wf2 bf2 Wi2 bi2 Wc2 bc2 Wo2 bo2 := by
  have e : Read.val_main_v86 (F := Ideal) X h1 h2 Wc1 bc1 Wo1 bo1 Wc2 bc2 Wo2 bo2
      = hmul (sigm (dense (join2 (Read.val_main_v41 (F := Ideal) X h1 Wc1 bc1 Wo1 bo1) h2) (tr Wo2) bo2))
          (tnh (tnh (dense (join2 (Read.val_main_v41 (F := Ideal) X h1 Wc1 bc1 Wo1 bo1) h2) (tr Wc2) bc2))) := by
    show hmul (Read.val_main_v84 (F := Ideal) X h1 h2 Wc1 bc1 Wo1 bo1 Wo2 bo2)
        (tnh (tnh (Read.val_main_v72 (F := Ideal) X h1 h2 Wc1 bc1 Wo1 bo1 Wc2 bc2))) = _
    rw [sig_v84, pre_v72]
  rw [ref_h1 X h1 Wf1 bf1 Wi1 bi1 Wc1 bc1 Wo1 bo1] at e
  exact e.trans (cellH_of_gates Wf2 Wi2 Wc2 Wo2 bf2 bi2 bc2 bo2 _ h2)

/-- The reference's second new cell state is the second cell's. -/
theorem ref_c2 :
    Read.val_main_v89 (F := Ideal) X h1 h2 c2 Wc1 bc1 Wo1 bo1 Wf2 bf2 Wi2 bi2 Wc2 bc2
      = resC2 X h1 h2 c2 Wf1 bf1 Wi1 bi1 Wc1 bc1 Wo1 bo1 Wf2 bf2 Wi2 bi2 Wc2 bc2 Wo2 bo2 := by
  have e : Read.val_main_v89 (F := Ideal) X h1 h2 c2 Wc1 bc1 Wo1 bo1 Wf2 bf2 Wi2 bi2 Wc2 bc2
      = hadd (hmul (sigm (dense (join2 (Read.val_main_v41 (F := Ideal) X h1 Wc1 bc1 Wo1 bo1) h2) (tr Wf2) bf2)) c2)
          (hmul (tnh (dense (join2 (Read.val_main_v41 (F := Ideal) X h1 Wc1 bc1 Wo1 bo1) h2) (tr Wc2) bc2))
            (sigm (dense (join2 (Read.val_main_v41 (F := Ideal) X h1 Wc1 bc1 Wo1 bo1) h2) (tr Wi2) bi2))) := by
    show hadd (hmul (Read.val_main_v56 (F := Ideal) X h1 h2 Wc1 bc1 Wo1 bo1 Wf2 bf2) c2)
        (hmul (tnh (Read.val_main_v72 (F := Ideal) X h1 h2 Wc1 bc1 Wo1 bo1 Wc2 bc2))
          (Read.val_main_v67 (F := Ideal) X h1 h2 Wc1 bc1 Wo1 bo1 Wi2 bi2)) = _
    rw [sig_v56, pre_v72, sig_v67]
  rw [ref_h1 X h1 Wf1 bf1 Wi1 bi1 Wc1 bc1 Wo1 bo1] at e
  exact e.trans (cellC_of_gates Wf2 Wi2 Wc2 Wo2 bf2 bi2 bc2 bo2 _ h2 c2)

/-- The reference's output is the head on the second cell's new hidden state. -/
theorem ref_out :
    Read.val_main_v100 (F := Ideal) X h1 h2 Wc1 bc1 Wo1 bo1 Wc2 bc2 Wo2 bo2 W3 b3 W4 b4
      = resOut X h1 h2 Wf1 bf1 Wi1 bi1 Wc1 bc1 Wo1 bo1 Wf2 bf2 Wi2 bi2 Wc2 bc2 Wo2 bo2 W3 b3 W4 b4 := by
  have e94 : Read.val_main_v94 (F := Ideal) X h1 h2 Wc1 bc1 Wo1 bo1 Wc2 bc2 Wo2 bo2 W3 b3
      = dense (Read.val_main_v86 (F := Ideal) X h1 h2 Wc1 bc1 Wo1 bo1 Wc2 bc2 Wo2 bo2) (tr W3) b3 :=
    hostDense_eq _ W3 b3 _ dot_S4096x1024_S1024x2048_S4096x2048_1_0_0_1_n_n rfl _ _
  have e95 : Read.val_main_v95 (F := Ideal) X h1 h2 Wc1 bc1 Wo1 bo1 Wc2 bc2 Wo2 bo2 W3 b3
      = relu (Read.val_main_v94 (F := Ideal) X h1 h2 Wc1 bc1 Wo1 bo1 Wc2 bc2 Wo2 bo2 W3 b3) :=
    hostRelu_eq _ _
  have e100 : Read.val_main_v100 (F := Ideal) X h1 h2 Wc1 bc1 Wo1 bo1 Wc2 bc2 Wo2 bo2 W3 b3 W4 b4
      = dense (Read.val_main_v95 (F := Ideal) X h1 h2 Wc1 bc1 Wo1 bo1 Wc2 bc2 Wo2 bo2 W3 b3) (tr W4) b4 :=
    hostDense_eq _ W4 b4 _ dot_S4096x2048_S2048x1024_S4096x1024_1_0_0_1_n_n rfl _ _
  rw [e100, e95, e94, ref_h2 X h1 h2 Wf1 bf1 Wi1 bi1 Wc1 bc1 Wo1 bo1 Wf2 bf2 Wi2 bi2 Wc2 bc2 Wo2 bo2, head_of_dense]
  rfl

end Results

end Cert.RefValue

end
-- ==== Proof.lean ====
/-
  The certificate's five claims.

  The two kernel programs run to the end, fault nowhere and leave their arguments as launched: each is the host
  operations that lay out the fused weights followed by three launches, and its run names every buffer's final contents
  (Proof/K/Frame.lean at the word level, Proof/KI/Frame.lean for the idealized program). The reference is a straight line
  of host operations. The ideal pass rewrote nothing, so there is nothing to preserve.

  Equality over the extended reals: both programs compute, for the two LSTM cells and the head,
      gates = [x, h] · [Wf; Wi; Wc; Wo]ᵀ + b,   h' = σ(o) · tanh (tanh c̃),   c' = σ(f) · c + tanh c̃ · σ(i),
      out = relu (h₂ · W3ᵀ + b3) · W4ᵀ + b4.
  The kernel multiplies x and h separately by the two halves of the fused, transposed weights and adds the products; the
  reference multiplies the concatenation [x, h] by each gate's transposed weight. The two agree because a sum over 2048
  terms is the sum of its two halves; no other law is used, so the inputs' finiteness is not needed. Both sides are
  brought to the functions of Proof/Spec.lean: the kernel's run through Proof/KI/Result.lean, the reference's through
  Proof/RefValue.lean.
-/
import proofs.«138999_j48885317763708_1_alg».proof.Defs
import proofs.«138999_j48885317763708_1_alg».proof.Proof.Gen.Kernel
import proofs.«138999_j48885317763708_1_alg».proof.Proof.Gen.KernelIdeal
import proofs.«138999_j48885317763708_1_alg».proof.Proof.Gen.ReferenceIdeal
import proofs.«138999_j48885317763708_1_alg».proof.Proof.Gen.Pre_finite_inputs
import proofs.«138999_j48885317763708_1_alg».proof.Proof.Gen.ReferenceIdeal.Run
import proofs.«138999_j48885317763708_1_alg».proof.Proof.Gen.ReferenceIdeal.Read
import proofs.«138999_j48885317763708_1_alg».proof.Proof.K.Frame
import proofs.«138999_j48885317763708_1_alg».proof.Proof.KI.Frame
import proofs.«138999_j48885317763708_1_alg».proof.Proof.KI.Result
import proofs.«138999_j48885317763708_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

set_option maxHeartbeats 8000000 in
/-- The two idealized programs end with the same five results: each is the function of Spec.lean of the arguments. -/
theorem algebraic : Cert.algebraic_KernelIdeal_ReferenceIdeal := by
  intro m ρ m' ρ' _ hagree
  refine ⟨fun c => Cert.Spec.resOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Cert.Spec.resH1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.resH2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.Spec.resC1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.resC2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run (Cert.KernelIdeal.defs (F := Ideal)) _ _).mono (fun r h c => ?_) (Cert.KernelIdeal.Run.run_all m ρ)
    exact ⟨(h c _ (Cert.KernelIdeal.Run.mem_uc Cert.KernelIdeal.main_v28 (by decide))).trans (Cert.KernelIdeal.Result.out_y m ρ c),
      (h c _ (Cert.KernelIdeal.Run.mem_uc Cert.KernelIdeal.main_v26_0 (by decide))).trans (Cert.KernelIdeal.Result.out_h1 m ρ c),
      (h c _ (Cert.KernelIdeal.Run.mem_uc Cert.KernelIdeal.main_v27_0 (by decide))).trans (Cert.KernelIdeal.Result.out_h2 m ρ c),
      (h c _ (Cert.KernelIdeal.Run.mem_uc Cert.KernelIdeal.main_v26_1 (by decide))).trans (Cert.KernelIdeal.Result.out_c1 m ρ c),
      (h c _ (Cert.KernelIdeal.Run.mem_uc Cert.KernelIdeal.main_v27_1 (by decide))).trans (Cert.KernelIdeal.Result.out_c2 m ρ c),
      (h c _ (Cert.KernelIdeal.Run.mem_uc Cert.KernelIdeal.main_arg0 (by decide))).trans (Cert.KernelIdeal.Run.W4_launch m ρ c Cert.KernelIdeal.main_arg0 (by decide) (by decide) (by decide) (by decide) (by decide) (by decide)),
      (h c _ (Cert.KernelIdeal.Run.mem_uc Cert.KernelIdeal.main_arg1 (by decide))).trans (Cert.KernelIdeal.Run.W4_launch m ρ c Cert.KernelIdeal.main_arg1 (by decide) (by decide) (by decide) (by decide) (by decide) (by decide)),
      (h c _ (Cert.KernelIdeal.Run.mem_uc Cert.KernelIdeal.main_arg2 (by decide))).trans (Cert.KernelIdeal.Run.W4_launch m ρ c Cert.KernelIdeal.main_arg2 (by decide) (by decide) (by decide) (by decide) (by decide) (by decide)),
      (h c _ (Cert.KernelIdeal.Run.mem_uc Cert.KernelIdeal.main_arg3 (by decide))).trans (Cert.KernelIdeal.Run.W4_launch m ρ c Cert.KernelIdeal.main_arg3 (by decide) (by decide) (by decide) (by decide) (by decide) (by decide)),
      (h c _ (Cert.KernelIdeal.Run.mem_uc Cert.KernelIdeal.main_arg4 (by decide))).trans (Cert.KernelIdeal.Run.W4_launch m ρ c Cert.KernelIdeal.main_arg4 (by decide) (by decide) (by decide) (by decide) (by decide) (by decide)),
      (h c _ (Cert.KernelIdeal.Run.mem_uc Cert.KernelIdeal.main_arg5 (by decide))).trans (Cert.KernelIdeal.Run.W4_launch m ρ c Cert.KernelIdeal.main_arg5 (by decide) (by decide) (by decide) (by decide) (by decide) (by decide)),
      (h c _ (Cert.KernelIdeal.Run.mem_uc Cert.KernelIdeal.main_arg6 (by decide))).trans (Cert.KernelIdeal.Run.W4_launch m ρ c Cert.KernelIdeal.main_arg6 (by decide) (by decide) (by decide) (by decide) (by decide) (by decide)),
      (h c _ (Cert.KernelIdeal.Run.mem_uc Cert.KernelIdeal.main_arg7 (by decide))).trans (Cert.KernelIdeal.Run.W4_launch m ρ c Cert.KernelIdeal.main_arg7 (by decide) (by decide) (by decide) (by decide) (by decide) (by decide)),
      (h c _ (Cert.KernelIdeal.Run.mem_uc Cert.KernelIdeal.main_arg8 (by decide))).trans (Cert.KernelIdeal.Run.W4_launch m ρ c Cert.KernelIdeal.main_arg8 (by decide) (by decide) (by decide) (by decide) (by decide) (by decide)),
      (h c _ (Cert.KernelIdeal.Run.mem_uc Cert.KernelIdeal.main_arg9 (by decide))).trans (Cert.KernelIdeal.Run.W4_launch m ρ c Cert.KernelIdeal.main_arg9 (by decide) (by decide) (by decide) (by decide) (by decide) (by decide)),
      (h c _ (Cert.KernelIdeal.Run.mem_uc Cert.KernelIdeal.main_arg10 (by decide))).trans (Cert.KernelIdeal.Run.W4_launch m ρ c Cert.KernelIdeal.main_arg10 (by decide) (by decide) (by decide) (by decide) (by decide) (by decide)),
      (h c _ (Cert.KernelIdeal.Run.mem_uc Cert.KernelIdeal.main_arg11 (by decide))).trans (Cert.KernelIdeal.Run.W4_launch m ρ c Cert.KernelIdeal.main_arg11 (by decide) (by decide) (by decide) (by decide) (by decide) (by decide)),
      (h c _ (Cert.KernelIdeal.Run.mem_uc Cert.KernelIdeal.main_arg12 (by decide))).trans (Cert.KernelIdeal.Run.W4_launch m ρ c Cert.KernelIdeal.main_arg12 (by decide) (by decide) (by decide) (by decide) (by decide) (by decide)),
      (h c _ (Cert.KernelIdeal.Run.mem_uc Cert.KernelIdeal.main_arg13 (by decide))).trans (Cert.KernelIdeal.Run.W4_launch m ρ c Cert.KernelIdeal.main_arg13 (by decide) (by decide) (by decide) (by decide) (by decide) (by decide)),
      (h c _ (Cert.KernelIdeal.Run.mem_uc Cert.KernelIdeal.main_arg14 (by decide))).trans (Cert.KernelIdeal.Run.W4_launch m ρ c Cert.KernelIdeal.main_arg14 (by decide) (by decide) (by decide) (by decide) (by decide) (by decide)),
      (h c _ (Cert.KernelIdeal.Run.mem_uc Cert.KernelIdeal.main_arg15 (by decide))).trans (Cert.KernelIdeal.Run.W4_launch m ρ c Cert.KernelIdeal.main_arg15 (by decide) (by decide) (by decide) (by decide) (by decide) (by decide)),
      (h c _ (Cert.KernelIdeal.Run.mem_uc Cert.KernelIdeal.main_arg16 (by decide))).trans (Cert.KernelIdeal.Run.W4_launch m ρ c Cert.KernelIdeal.main_arg16 (by decide) (by decide) (by decide) (by decide) (by decide) (by decide)),
      (h c _ (Cert.KernelIdeal.Run.mem_uc Cert.KernelIdeal.main_arg17 (by decide))).trans (Cert.KernelIdeal.Run.W4_launch m ρ c Cert.KernelIdeal.main_arg17 (by decide) (by decide) (by decide) (by decide) (by decide) (by decide)),
      (h c _ (Cert.KernelIdeal.Run.mem_uc Cert.KernelIdeal.main_arg18 (by decide))).trans (Cert.KernelIdeal.Run.W4_launch m ρ c Cert.KernelIdeal.main_arg18 (by decide) (by decide) (by decide) (by decide) (by decide) (by decide)),
      (h c _ (Cert.KernelIdeal.Run.mem_uc Cert.KernelIdeal.main_arg19 (by decide))).trans (Cert.KernelIdeal.Run.W4_launch m ρ c Cert.KernelIdeal.main_arg19 (by decide) (by decide) (by decide) (by decide) (by decide) (by decide)),
      (h c _ (Cert.KernelIdeal.Run.mem_uc Cert.KernelIdeal.main_arg20 (by decide))).trans (Cert.KernelIdeal.Run.W4_launch m ρ c Cert.KernelIdeal.main_arg20 (by decide) (by decide) (by decide) (by decide) (by decide) (by decide)),
      (h c _ (Cert.KernelIdeal.Run.mem_uc Cert.KernelIdeal.main_arg21 (by decide))).trans (Cert.KernelIdeal.Run.W4_launch m ρ c Cert.KernelIdeal.main_arg21 (by decide) (by decide) (by decide) (by decide) (by decide) (by decide)),
      (h c _ (Cert.KernelIdeal.Run.mem_uc Cert.KernelIdeal.main_arg22 (by decide))).trans (Cert.KernelIdeal.Run.W4_launch m ρ c Cert.KernelIdeal.main_arg22 (by decide) (by decide) (by decide) (by decide) (by decide) (by decide)),
      (h c _ (Cert.KernelIdeal.Run.mem_uc Cert.KernelIdeal.main_arg23 (by decide))).trans (Cert.KernelIdeal.Run.W4_launch m ρ c Cert.KernelIdeal.main_arg23 (by decide) (by decide) (by decide) (by decide) (by decide) (by decide)),
      (h c _ (Cert.KernelIdeal.Run.mem_uc Cert.KernelIdeal.main_arg24 (by decide))).trans (Cert.KernelIdeal.Run.W4_launch m ρ c Cert.KernelIdeal.main_arg24 (by decide) (by decide) (by decide) (by decide) (by decide) (by decide))⟩
  · refine (θ_run (Cert.ReferenceIdeal.defs (F := Ideal)) _ _).mono (fun r h c => ?_) (Cert.ReferenceIdeal.Value.run (F := Ideal) m' ρ')
    obtain ⟨h0, h1, h2, h3, h4, hargs⟩ := h c
    obtain ⟨a0, a1, a2, a3, a4, a5, a6, a7, a8, a9, a10, a11, a12, a13, a14, a15, a16, a17, a18, a19, a20, a21, a22, a23, a24⟩ := hagree c
    refine ⟨h0.trans ?_, h1.trans ?_, h2.trans ?_, h3.trans ?_, h4.trans ?_, hargs⟩
    · rw [Cert.ReferenceIdeal.Read.val_main_v100_eq m' c, a0, a1, a2, a9, a10, a11, a12, a17, a18, a19, a20, a21, a22, a23, a24]
      exact Cert.RefValue.ref_out _ _ _ _ _ _ _ _ _ _ _ _ _ _ _ _ _ _ _ _ _ _ _
    · rw [Cert.ReferenceIdeal.Read.val_main_v41_eq, a0, a1, a9, a10, a11, a12]
      exact Cert.RefValue.ref_h1 _ _ _ _ _ _ _ _ _ _
    · rw [Cert.ReferenceIdeal.Read.val_main_v86_eq, a0, a1, a2, a9, a10, a11, a12, a17, a18, a19, a20]
      exact Cert.RefValue.ref_h2 _ _ _ _ _ _ _ _ _ _ _ _ _ _ _ _ _ _ _
    · rw [Cert.ReferenceIdeal.Read.val_main_v44_eq, a0, a1, a3, a5, a6, a7, a8, a9, a10]
      exact Cert.RefValue.ref_c1 _ _ _ _ _ _ _ _ _ _ _
    · rw [Cert.ReferenceIdeal.Read.val_main_v89_eq m' c, a0, a1, a2, a4, a9, a10, a11, a12, a13, a14, a15, a16, a17, a18]
      exact Cert.RefValue.ref_c2 _ _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
